-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v120)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2000000 : Shape := ⟨1, ![2000000]⟩
abbrev S2048 : Shape := ⟨1, ![2048]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S2000000 : S_.BroadcastsInDim S2000000 (![] : Fin 0 → Fin S2000000.rank)
  reducesTo_S2000000_S_d0 : S2000000.ReducesTo [0] S_

variable [Facts]

def fn_part1 {F : FTy → Type} [FloatOps F] (main_v13 : IVec S_ 1) (main_v16 : IVec S2000000 1) : IVec S_ 1 :=
  let main_c_5 : IVec S_ 1 := constantI S_ 1 1#1
  let main_v17 : IVec S_ 1 := (fun x v => Host.reduce IntOp.andi x v reducesTo_S2000000_S_d0 h_S_) main_v16 main_c_5
  let main_v18 : IVec S_ 1 := andi main_v13 main_v17
  main_v18

def fn {F : FTy → Type} [FloatOps F] (main_arg0 : FVec F S50000x64 .f32) (main_arg1 : FVec F S50000x64 .f32) (main_arg2 : IVec S2000000 32) (main_arg3 : IVec S2000000 32) (main_arg4 : FVec F S2000000 .f32) (main_arg5 : IVec S2000000 32) (main_arg6 : IVec S2000000 32) (main_arg7 : FVec F S2000000 .f32) (main_arg8 : IVec S2048 32) (main_arg9 : IVec S2048 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S2000000 .f32 := Host.absf main_arg4
  let main_cst_2 : FVec F S_ .f32 := constant S_ .f32 0x7F800000#32
  let main_v10 : FVec F S2000000 .f32 := broadcastInDim S2000000 ![] bcast_S_S2000000 main_cst_2
  let main_v11 : IVec S2000000 1 := cmpf .olt main_v9 main_v10
  let main_c_3 : IVec S_ 1 := constantI S_ 1 1#1
  let main_v12 : IVec S_ 1 := (fun x v => Host.reduce IntOp.andi x v reducesTo_S2000000_S_d0 h_S_) main_v11 main_c_3
  let main_v13 : IVec S_ 1 := andi main_v8 main_v12
  let main_v14 : FVec F S2000000 .f32 := Host.absf main_arg7
  let main_cst_4 : FVec F S_ .f32 := constant S_ .f32 0x7F800000#32
  let main_v15 : FVec F S2000000 .f32 := broadcastInDim S2000000 ![] bcast_S_S2000000 main_cst_4
  let main_v16 : IVec S2000000 1 := cmpf .olt main_v14 main_v15
  fn_part1 (F := F) main_v13 main_v16
-- ==== Kernel.lean ====
abbrev S50000x64 : Shape := ⟨2, ![50000, 64]⟩
abbrev S2000000 : Shape := ⟨1, ![2000000]⟩
abbrev S2048 : Shape := ⟨1, ![2048]⟩
abbrev S100000x64 : Shape := ⟨2, ![100000, 64]⟩
abbrev S2000000x1 : Shape := ⟨2, ![2000000, 1]⟩
abbrev S_ : Shape := ⟨0, ![]⟩
abbrev S2000000x64 : Shape := ⟨2, ![2000000, 64]⟩
abbrev S2048x1 : Shape := ⟨2, ![2048, 1]⟩
abbrev S2048x64 : Shape := ⟨2, ![2048, 64]⟩
abbrev S1000x64 : Shape := ⟨2, ![1000, 64]⟩
abbrev S1000 : Shape := ⟨1, ![1000]⟩
abbrev S1000x1 : Shape := ⟨2, ![1000, 1]⟩
abbrev S64x1000 : Shape := ⟨2, ![64, 1000]⟩
abbrev S2048x1000 : Shape := ⟨2, ![2048, 1000]⟩

abbrev nBuf : Space → Nat
  | .hbm => 162
  | .vmem => 10
  | .smem => 0
  | _ => 0

abbrev hbmTy0_0 (i : Nat) : BufTy := match i % 128 with
  | 0 => ⟨S50000x64, .f32⟩
  | 1 => ⟨S50000x64, .f32⟩
  | 2 => ⟨S2000000, .i32⟩
  | 3 => ⟨S2000000, .i32⟩
  | 4 => ⟨S2000000, .f32⟩
  | 5 => ⟨S2000000, .i32⟩
  | 6 => ⟨S2000000, .i32⟩
  | 7 => ⟨S2000000, .f32⟩
  | 8 => ⟨S2048, .i32⟩
  | 9 => ⟨S2048, .i32⟩
  | 10 => ⟨S100000x64, .f32⟩
  | 11 => ⟨S2000000x1, .f32⟩
  | 12 => ⟨S_, .i32⟩
  | 13 => ⟨S2000000, .i32⟩
  | 14 => ⟨S2000000, .i1⟩
  | 15 => ⟨S_, .i32⟩
  | 16 => ⟨S2000000, .i32⟩
  | 17 => ⟨S2000000, .i32⟩
  | 18 => ⟨S2000000, .i32⟩
  | 19 => ⟨S2000000x1, .i32⟩
  | 20 => ⟨S2000000x64, .f32⟩
  | 21 => ⟨S2000000x64, .f32⟩
  | 22 => ⟨S2000000x64, .f32⟩
  | 23 => ⟨S_, .f32⟩
  | 24 => ⟨S100000x64, .f32⟩
  | 25 => ⟨S2000000x1, .i32⟩
  | 26 => ⟨S100000x64, .f32⟩
  | 27 => ⟨S2000000x1, .f32⟩
  | 28 => ⟨S_, .i32⟩
  | 29 => ⟨S2000000, .i32⟩
  | 30 => ⟨S2000000, .i1⟩
  | 31 => ⟨S_, .i32⟩
  | 32 => ⟨S2000000, .i32⟩
  | 33 => ⟨S2000000, .i32⟩
  | 34 => ⟨S2000000, .i32⟩
  | 35 => ⟨S2000000x1, .i32⟩
  | 36 => ⟨S2000000x64, .f32⟩
  | 37 => ⟨S2000000x64, .f32⟩
  | 38 => ⟨S2000000x64, .f32⟩
  | 39 => ⟨S_, .f32⟩
  | 40 => ⟨S100000x64, .f32⟩
  | 41 => ⟨S2000000x1, .i32⟩
  | 42 => ⟨S100000x64, .f32⟩
  | 43 => ⟨S100000x64, .f32⟩
  | 44 => ⟨S_, .f32⟩
  | 45 => ⟨S100000x64, .f32⟩
  | 46 => ⟨S100000x64, .f32⟩
  | 47 => ⟨S100000x64, .f32⟩
  | 48 => ⟨S_, .f32⟩
  | 49 => ⟨S100000x64, .f32⟩
  | 50 => ⟨S100000x64, .f32⟩
  | 51 => ⟨S50000x64, .f32⟩
  | 52 => ⟨S50000x64, .f32⟩
  | 53 => ⟨S50000x64, .f32⟩
  | 54 => ⟨S50000x64, .f32⟩
  | 55 => ⟨S_, .i32⟩
  | 56 => ⟨S2048, .i32⟩
  | 57 => ⟨S2048, .i1⟩
  | 58 => ⟨S_, .i32⟩
  | 59 => ⟨S2048, .i32⟩
  | 60 => ⟨S2048, .i32⟩
  | 61 => ⟨S2048, .i32⟩
  | 62 => ⟨S2048x1, .i32⟩
  | 63 => ⟨S2048x64, .f32⟩
  | 64 => ⟨S2048x64, .f32⟩
  | 65 => ⟨S_, .f32⟩
  | 66 => ⟨S2048, .f32⟩
  | 67 => ⟨S2048x1, .f32⟩
  | 68 => ⟨S2048x1, .f32⟩
  | 69 => ⟨S_, .f32⟩
  | 70 => ⟨S2048x1, .f32⟩
  | 71 => ⟨S2048x1, .f32⟩
  | 72 => ⟨S2048x64, .f32⟩
  | 73 => ⟨S2048x64, .f32⟩
  | 74 => ⟨S_, .i32⟩
  | 75 => ⟨S2048, .i32⟩
  | 76 => ⟨S2048, .i1⟩
  | 77 => ⟨S_, .i32⟩
  | 78 => ⟨S2048, .i32⟩
  | 79 => ⟨S2048, .i32⟩
  | 80 => ⟨S2048, .i32⟩
  | 81 => ⟨S2048x1, .i32⟩
  | 82 => ⟨S2048x64, .f32⟩
  | 83 => ⟨S2048x64, .f32⟩
  | 84 => ⟨S_, .f32⟩
  | 85 => ⟨S2048, .f32⟩
  | 86 => ⟨S2048x1, .f32⟩
  | 87 => ⟨S2048x1, .f32⟩
  | 88 => ⟨S_, .f32⟩
  | 89 => ⟨S2048x1, .f32⟩
  | 90 => ⟨S2048x1, .f32⟩
  | 91 => ⟨S2048x64, .f32⟩
  | 92 => ⟨S2048x64, .f32⟩
  | 93 => ⟨S2048x64, .f32⟩
  | 94 => ⟨S_, .f32⟩
  | 95 => ⟨S2048, .f32⟩
  | 96 => ⟨S_, .f32⟩
  | 97 => ⟨S2048, .f32⟩
  | 98 => ⟨S2048, .f32⟩
  | 99 => ⟨S2048, .f32⟩
  | 100 => ⟨S2048x1, .f32⟩
  | 101 => ⟨S2048, .f32⟩
  | 102 => ⟨S2048, .f32⟩
  | 103 => ⟨S2048, .f32⟩
  | 104 => ⟨S_, .f32⟩
  | 105 => ⟨S_, .f32⟩
  | 106 => ⟨S_, .f32⟩
  | 107 => ⟨S_, .i32⟩
  | 108 => ⟨S2048, .i32⟩
  | 109 => ⟨S2048, .i1⟩
  | 110 => ⟨S_, .i32⟩
  | 111 => ⟨S2048, .i32⟩
  | 112 => ⟨S2048, .i32⟩
  | 113 => ⟨S2048, .i32⟩
  | 114 => ⟨S2048x1, .i32⟩
  | 115 => ⟨S2048x64, .f32⟩
  | 116 => ⟨S2048x64, .f32⟩
  | 117 => ⟨S_, .f32⟩
  | 118 => ⟨S2048, .f32⟩
  | 119 => ⟨S2048x1, .f32⟩
  | 120 => ⟨S2048x1, .f32⟩
  | 121 => ⟨S_, .f32⟩
  | 122 => ⟨S2048x1, .f32⟩
  | 123 => ⟨S2048x1, .f32⟩
  | 124 => ⟨S2048x64, .f32⟩
  | 125 => ⟨S2048x64, .f32⟩
  | 126 => ⟨S_, .i32⟩
  | 127 => ⟨S2048, .i32⟩
  | _ => ⟨S50000x64, .f32⟩

abbrev hbmTy0_1 (i : Nat) : BufTy := match i % 128 with
  | 0 => ⟨S2048, .i1⟩
  | 1 => ⟨S_, .i32⟩
  | 2 => ⟨S2048, .i32⟩
  | 3 => ⟨S2048, .i32⟩
  | 4 => ⟨S2048, .i32⟩
  | 5 => ⟨S2048x1, .i32⟩
  | 6 => ⟨S2048x64, .f32⟩
  | 7 => ⟨S2048x64, .f32⟩
  | 8 => ⟨S_, .f32⟩
  | 9 => ⟨S2048, .f32⟩
  | 10 => ⟨S2048x1, .f32⟩
  | 11 => ⟨S2048x1, .f32⟩
  | 12 => ⟨S_, .f32⟩
  | 13 => ⟨S2048x1, .f32⟩
  | 14 => ⟨S2048x1, .f32⟩
  | 15 => ⟨S2048x64, .f32⟩
  | 16 => ⟨S2048x64, .f32⟩
  | 17 => ⟨S2048x64, .f32⟩
  | 18 => ⟨S_, .f32⟩
  | 19 => ⟨S2048, .f32⟩
  | 20 => ⟨S_, .f32⟩
  | 21 => ⟨S2048, .f32⟩
  | 22 => ⟨S2048, .f32⟩
  | 23 => ⟨S2048, .f32⟩
  | 24 => ⟨S2048x1, .f32⟩
  | 25 => ⟨S2048, .f32⟩
  | 26 => ⟨S2048, .f32⟩
  | 27 => ⟨S2048, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S2048x64, .f32⟩
  | .local _ .vmem, ⟨1, _⟩ => ⟨S1000x64, .f32⟩
  | .local _ .vmem, ⟨2, _⟩ => ⟨S1000x64, .f32⟩
  | .local _ .vmem, ⟨3, _⟩ => ⟨S2048x1, .f32⟩
  | .local _ .vmem, ⟨4, _⟩ => ⟨S2048x1, .f32⟩
  | .local _ .vmem, ⟨5, _⟩ => ⟨S2048x64, .f32⟩
  | .local _ .vmem, ⟨6, _⟩ => ⟨S1000x64, .f32⟩
  | .local _ .vmem, ⟨7, _⟩ => ⟨S1000x64, .f32⟩
  | .local _ .vmem, ⟨8, _⟩ => ⟨S2048x1, .f32⟩
  | .local _ .vmem, ⟨9, _⟩ => ⟨S2048x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_6 : Ref sig .tc := ⟨.hbm, 55, rfl⟩
abbrev main_v37 : Ref sig .tc := ⟨.hbm, 56, rfl⟩
abbrev main_v38 : Ref sig .tc := ⟨.hbm, 57, rfl⟩
abbrev main_c_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_14 : Ref sig .tc := ⟨.hbm, 94, rfl⟩
abbrev main_v68 : Ref sig .tc := ⟨.hbm, 95, rfl⟩
abbrev main_cst_15 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_v77 : Ref sig .tc := ⟨.hbm, 106, rfl⟩
abbrev main_c_17 : Ref sig .tc := ⟨.hbm, 107, rfl⟩
abbrev main_v78 : Ref sig .tc := ⟨.hbm, 108, rfl⟩
abbrev main_v79 : Ref sig .tc := ⟨.hbm, 109, rfl⟩
abbrev main_c_18 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_19 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_20 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_c_21 : Ref sig .tc := ⟨.hbm, 126, rfl⟩
abbrev main_v93 : Ref sig .tc := ⟨.hbm, 127, rfl⟩
abbrev main_v94 : Ref sig .tc := ⟨.hbm, 128, rfl⟩
abbrev main_c_22 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_23 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_24 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_cst_25 : Ref sig .tc := ⟨.hbm, 146, rfl⟩
abbrev main_v109 : Ref sig .tc := ⟨.hbm, 147, rfl⟩
abbrev main_cst_26 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_27 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_cst_28 : Ref sig .tc := ⟨.hbm, 160, rfl⟩
abbrev main_v120 : Ref sig .tc := ⟨.hbm, 161, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc1_sem0_0 : DmaSem sig := 4
abbrev cc1_sem1_0 : DmaSem sig := 5
abbrev cc1_sem1_1 : DmaSem sig := 6
abbrev cc1_sem2_0 : DmaSem sig := 7

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v29 : BitVec 1 := Scalar.cmpi .eq arg0 c49_i32
  let v30 : BitVec 32 := Scalar.extui v29
  let c0_i32_12 : BitVec 32 := 0#32
  let v31 : BitVec 1 := Scalar.cmpi .ne v30 c0_i32_12
  v31

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v29 : BitVec 1 := Scalar.cmpi .eq arg0 c49_i32
  let v30 : BitVec 32 := Scalar.extui v29
  let c0_i32_12 : BitVec 32 := 0#32
  let v31 : BitVec 1 := Scalar.cmpi .ne v30 c0_i32_12
  v31

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2048x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  concatenates_S50000x64_S50000x64_S100000x64_d0 : Shape.Concatenates [S50000x64, S50000x64] S100000x64 0
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S100000x64 : S_.BroadcastsInDim S100000x64 (![] : Fin 0 → Fin S100000x64.rank)
  slices_S100000x64_S50000x64_0_0 : S100000x64.Slices ![0, 0] S50000x64
  slices_S100000x64_S50000x64_50000_0 : S100000x64.Slices ![50000, 0] S50000x64
  bcast_S_S2048 : S_.BroadcastsInDim S2048 (![] : Fin 0 → Fin S2048.rank)
  bcast_S2048_S2048x1_0 : S2048.BroadcastsInDim S2048x1 (![0] : Fin 1 → Fin S2048x1.rank)
  reducesTo_S2048x64_S2048_d1 : S2048x64.ReducesTo [1] S2048
  h_S_ : 0 < S_.numel
  bcast_S_S2048x1 : S_.BroadcastsInDim S2048x1 (![] : Fin 0 → Fin S2048x1.rank)
  bcast_S2048x1_S2048x64_0_1 : S2048x1.BroadcastsInDim S2048x64 (![0, 1] : Fin 2 → Fin S2048x64.rank)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  reduces_S1000x64_S1000 : S1000x64.Reduces [1] S1000
  shapeCasts_S1000_S1000x1 : S1000.ShapeCasts S1000x1
  broadcasts_S1000x1_S1000x64 : S1000x1.Broadcasts S1000x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  bitsLt_bf16_f32 : FTy.bits .bf16 < FTy.bits .f32
  transposes_S1000x64_p1_0_S64x1000 : S1000x64.Transposes [1, 0] S64x1000
  reduces_S2048x1000_S2048 : S2048x1000.Reduces [1] S2048
  shapeCasts_S2048_S2048x1 : S2048.ShapeCasts S2048x1
  shapeCasts_S2048x1_S2048 : S2048x1.ShapeCasts S2048
  reducesTo_S2048_S_d0 : S2048.ReducesTo [0] S_
  gather_S100000x64_S2000000x1_S2000000x64_1_0_n_n_0_1_164_wf : GatherDims.WF S100000x64 S2000000x1 S2000000x64 [1] [0] [] [0] [] 1 ![1, 64]
  scatter_S100000x64_S2000000x1_S2000000x64_1_0_0_1_wf : ScatterDims.WF S100000x64 S2000000x1 S2000000x64 [1] [0] [0] 1
  gather_S50000x64_S2048x1_S2048x64_1_0_n_n_0_1_164_wf : GatherDims.WF S50000x64 S2048x1 S2048x64 [1] [0] [] [0] [] 1 ![1, 64]
  dot_S2048x64_S64x1000_S2048x1000_1_0_0_1_n_n_wf : DotDims.WF S2048x64 S64x1000 S2048x1000 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S2048x64.size a
  hwx0_0 : ∀ i : grid0.Coords, EltTy.bits .f32 = 32 ∨ (Rect.block (s := S2048x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x64.size a ≤ S50000x64.size a
  hwx0_1 : ∀ i : grid0.Coords, EltTy.bits .f32 = 32 ∨ (Rect.block (s := S50000x64) S1000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S2048x1.size a
  hwx0_2 : ∀ i : grid0.Coords, EltTy.bits .f32 = 32 ∨ (Rect.block (s := S2048x1) S2048x1.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S2048x64.size a
  hwx1_0 : ∀ i : grid1.Coords, EltTy.bits .f32 = 32 ∨ (Rect.block (s := S2048x64) S2048x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x64.size a ≤ S50000x64.size a
  hwx1_1 : ∀ i : grid1.Coords, EltTy.bits .f32 = 32 ∨ (Rect.block (s := S50000x64) S1000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S2048x1.size a
  hwx1_2 : ∀ i : grid1.Coords, EltTy.bits .f32 = 32 ∨ (Rect.block (s := S2048x1) S2048x1.size (cc1_transform_2 i) (hinb1_2 i)).WholeWords (EltTy.packing .f32)

variable [Facts₀]

def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def gather_S50000x64_S2048x1_S2048x64_1_0_n_n_0_1_164 : GatherDims S50000x64 S2048x1 S2048x64 where
  offsetDims := [1]
  collapsedSliceDims := [0]
  operandBatchingDims := []
  startIndicesBatchingDims := []
  startIndexMap := [0]
  indexVectorDim := 1
  sliceSizes := ![1, 64]
  wf := gather_S50000x64_S2048x1_S2048x64_1_0_n_n_0_1_164_wf
def dot_S2048x64_S64x1000_S2048x1000_1_0_0_1_n_n : DotDims S2048x64 S64x1000 S2048x1000 where
  lhsContracting := [1]
  rhsContracting := [0]
  lhsNonContracting := [0]
  rhsNonContracting := [1]
  lhsBatch := []
  rhsBatch := []
  wf := dot_S2048x64_S64x1000_S2048x1000_1_0_0_1_n_n_wf

abbrev win0_0 : Pipeline.Window sig grid0 :=
  Pipeline.Window.ofSpec (Memref.whole main_v51) S2048x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v35) S1000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v72) S2048x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v92) S2048x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v36) S1000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v113) S2048x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S50000x64 : Shape := ⟨2, ![50000, 64]⟩
abbrev S2000000 : Shape := ⟨1, ![2000000]⟩
abbrev S2048 : Shape := ⟨1, ![2048]⟩
abbrev S100000x64 : Shape := ⟨2, ![100000, 64]⟩
abbrev S2000000x1 : Shape := ⟨2, ![2000000, 1]⟩
abbrev S_ : Shape := ⟨0, ![]⟩
abbrev S2000000x64 : Shape := ⟨2, ![2000000, 64]⟩
abbrev S2048x1 : Shape := ⟨2, ![2048, 1]⟩
abbrev S2048x64 : Shape := ⟨2, ![2048, 64]⟩
abbrev S50000 : Shape := ⟨1, ![50000]⟩
abbrev S50000x1 : Shape := ⟨2, ![50000, 1]⟩
abbrev S64x50000 : Shape := ⟨2, ![64, 50000]⟩
abbrev S2048x50000 : Shape := ⟨2, ![2048, 50000]⟩

abbrev nBuf : Space → Nat
  | .hbm => 194
  | .vmem => 0
  | .smem => 0
  | _ => 0

abbrev hbmTy0_0 (i : Nat) : BufTy := match i % 128 with
  | 0 => ⟨S50000x64, .f32⟩
  | 1 => ⟨S50000x64, .f32⟩
  | 2 => ⟨S2000000, .i32⟩
  | 3 => ⟨S2000000, .i32⟩
  | 4 => ⟨S2000000, .f32⟩
  | 5 => ⟨S2000000, .i32⟩
  | 6 => ⟨S2000000, .i32⟩
  | 7 => ⟨S2000000, .f32⟩
  | 8 => ⟨S2048, .i32⟩
  | 9 => ⟨S2048, .i32⟩
  | 10 => ⟨S100000x64, .f32⟩
  | 11 => ⟨S2000000x1, .f32⟩
  | 12 => ⟨S_, .i32⟩
  | 13 => ⟨S2000000, .i32⟩
  | 14 => ⟨S2000000, .i1⟩
  | 15 => ⟨S_, .i32⟩
  | 16 => ⟨S2000000, .i32⟩
  | 17 => ⟨S2000000, .i32⟩
  | 18 => ⟨S2000000, .i32⟩
  | 19 => ⟨S2000000x1, .i32⟩
  | 20 => ⟨S2000000x64, .f32⟩
  | 21 => ⟨S2000000x64, .f32⟩
  | 22 => ⟨S2000000x64, .f32⟩
  | 23 => ⟨S_, .f32⟩
  | 24 => ⟨S100000x64, .f32⟩
  | 25 => ⟨S2000000x1, .i32⟩
  | 26 => ⟨S100000x64, .f32⟩
  | 27 => ⟨S100000x64, .f32⟩
  | 28 => ⟨S_, .f32⟩
  | 29 => ⟨S100000x64, .f32⟩
  | 30 => ⟨S100000x64, .f32⟩
  | 31 => ⟨S2000000x1, .f32⟩
  | 32 => ⟨S_, .i32⟩
  | 33 => ⟨S2000000, .i32⟩
  | 34 => ⟨S2000000, .i1⟩
  | 35 => ⟨S_, .i32⟩
  | 36 => ⟨S2000000, .i32⟩
  | 37 => ⟨S2000000, .i32⟩
  | 38 => ⟨S2000000, .i32⟩
  | 39 => ⟨S2000000x1, .i32⟩
  | 40 => ⟨S2000000x64, .f32⟩
  | 41 => ⟨S2000000x64, .f32⟩
  | 42 => ⟨S2000000x64, .f32⟩
  | 43 => ⟨S_, .f32⟩
  | 44 => ⟨S100000x64, .f32⟩
  | 45 => ⟨S2000000x1, .i32⟩
  | 46 => ⟨S100000x64, .f32⟩
  | 47 => ⟨S100000x64, .f32⟩
  | 48 => ⟨S_, .f32⟩
  | 49 => ⟨S100000x64, .f32⟩
  | 50 => ⟨S100000x64, .f32⟩
  | 51 => ⟨S50000x64, .f32⟩
  | 52 => ⟨S50000x64, .f32⟩
  | 53 => ⟨S50000x64, .f32⟩
  | 54 => ⟨S50000x64, .f32⟩
  | 55 => ⟨S_, .i32⟩
  | 56 => ⟨S2048, .i32⟩
  | 57 => ⟨S2048, .i1⟩
  | 58 => ⟨S_, .i32⟩
  | 59 => ⟨S2048, .i32⟩
  | 60 => ⟨S2048, .i32⟩
  | 61 => ⟨S2048, .i32⟩
  | 62 => ⟨S2048x1, .i32⟩
  | 63 => ⟨S2048x64, .f32⟩
  | 64 => ⟨S2048x64, .f32⟩
  | 65 => ⟨S_, .f32⟩
  | 66 => ⟨S2048, .f32⟩
  | 67 => ⟨S2048x1, .f32⟩
  | 68 => ⟨S2048x1, .f32⟩
  | 69 => ⟨S_, .f32⟩
  | 70 => ⟨S2048x1, .f32⟩
  | 71 => ⟨S2048x1, .f32⟩
  | 72 => ⟨S2048x64, .f32⟩
  | 73 => ⟨S2048x64, .f32⟩
  | 74 => ⟨S_, .i32⟩
  | 75 => ⟨S2048, .i32⟩
  | 76 => ⟨S2048, .i1⟩
  | 77 => ⟨S_, .i32⟩
  | 78 => ⟨S2048, .i32⟩
  | 79 => ⟨S2048, .i32⟩
  | 80 => ⟨S2048, .i32⟩
  | 81 => ⟨S2048x1, .i32⟩
  | 82 => ⟨S2048x64, .f32⟩
  | 83 => ⟨S2048x64, .f32⟩
  | 84 => ⟨S_, .f32⟩
  | 85 => ⟨S2048, .f32⟩
  | 86 => ⟨S2048x1, .f32⟩
  | 87 => ⟨S2048x1, .f32⟩
  | 88 => ⟨S_, .f32⟩
  | 89 => ⟨S2048x1, .f32⟩
  | 90 => ⟨S2048x1, .f32⟩
  | 91 => ⟨S2048x64, .f32⟩
  | 92 => ⟨S2048x64, .f32⟩
  | 93 => ⟨S50000x64, .f32⟩
  | 94 => ⟨S_, .f32⟩
  | 95 => ⟨S50000, .f32⟩
  | 96 => ⟨S50000x1, .f32⟩
  | 97 => ⟨S50000x1, .f32⟩
  | 98 => ⟨S_, .f32⟩
  | 99 => ⟨S50000x1, .f32⟩
  | 100 => ⟨S50000x1, .f32⟩
  | 101 => ⟨S50000x64, .f32⟩
  | 102 => ⟨S50000x64, .f32⟩
  | 103 => ⟨S2048x64, .f32⟩
  | 104 => ⟨S_, .f32⟩
  | 105 => ⟨S2048, .f32⟩
  | 106 => ⟨S_, .f32⟩
  | 107 => ⟨S2048, .f32⟩
  | 108 => ⟨S2048, .f32⟩
  | 109 => ⟨S2048, .f32⟩
  | 110 => ⟨S64x50000, .f32⟩
  | 111 => ⟨S2048x50000, .f32⟩
  | 112 => ⟨S_, .f32⟩
  | 113 => ⟨S2048x50000, .f32⟩
  | 114 => ⟨S2048x50000, .f32⟩
  | 115 => ⟨S2048x50000, .f32⟩
  | 116 => ⟨S_, .f32⟩
  | 117 => ⟨S2048, .f32⟩
  | 118 => ⟨S2048, .f32⟩
  | 119 => ⟨S2048, .f32⟩
  | 120 => ⟨S_, .f32⟩
  | 121 => ⟨S_, .f32⟩
  | 122 => ⟨S_, .f32⟩
  | 123 => ⟨S_, .i32⟩
  | 124 => ⟨S2048, .i32⟩
  | 125 => ⟨S2048, .i1⟩
  | 126 => ⟨S_, .i32⟩
  | 127 => ⟨S2048, .i32⟩
  | _ => ⟨S50000x64, .f32⟩

abbrev hbmTy0_1 (i : Nat) : BufTy := match i % 128 with
  | 0 => ⟨S2048, .i32⟩
  | 1 => ⟨S2048, .i32⟩
  | 2 => ⟨S2048x1, .i32⟩
  | 3 => ⟨S2048x64, .f32⟩
  | 4 => ⟨S2048x64, .f32⟩
  | 5 => ⟨S_, .f32⟩
  | 6 => ⟨S2048, .f32⟩
  | 7 => ⟨S2048x1, .f32⟩
  | 8 => ⟨S2048x1, .f32⟩
  | 9 => ⟨S_, .f32⟩
  | 10 => ⟨S2048x1, .f32⟩
  | 11 => ⟨S2048x1, .f32⟩
  | 12 => ⟨S2048x64, .f32⟩
  | 13 => ⟨S2048x64, .f32⟩
  | 14 => ⟨S_, .i32⟩
  | 15 => ⟨S2048, .i32⟩
  | 16 => ⟨S2048, .i1⟩
  | 17 => ⟨S_, .i32⟩
  | 18 => ⟨S2048, .i32⟩
  | 19 => ⟨S2048, .i32⟩
  | 20 => ⟨S2048, .i32⟩
  | 21 => ⟨S2048x1, .i32⟩
  | 22 => ⟨S2048x64, .f32⟩
  | 23 => ⟨S2048x64, .f32⟩
  | 24 => ⟨S_, .f32⟩
  | 25 => ⟨S2048, .f32⟩
  | 26 => ⟨S2048x1, .f32⟩
  | 27 => ⟨S2048x1, .f32⟩
  | 28 => ⟨S_, .f32⟩
  | 29 => ⟨S2048x1, .f32⟩
  | 30 => ⟨S2048x1, .f32⟩
  | 31 => ⟨S2048x64, .f32⟩
  | 32 => ⟨S2048x64, .f32⟩
  | 33 => ⟨S50000x64, .f32⟩
  | 34 => ⟨S_, .f32⟩
  | 35 => ⟨S50000, .f32⟩
  | 36 => ⟨S50000x1, .f32⟩
  | 37 => ⟨S50000x1, .f32⟩
  | 38 => ⟨S_, .f32⟩
  | 39 => ⟨S50000x1, .f32⟩
  | 40 => ⟨S50000x1, .f32⟩
  | 41 => ⟨S50000x64, .f32⟩
  | 42 => ⟨S50000x64, .f32⟩
  | 43 => ⟨S2048x64, .f32⟩
  | 44 => ⟨S_, .f32⟩
  | 45 => ⟨S2048, .f32⟩
  | 46 => ⟨S_, .f32⟩
  | 47 => ⟨S2048, .f32⟩
  | 48 => ⟨S2048, .f32⟩
  | 49 => ⟨S2048, .f32⟩
  | 50 => ⟨S64x50000, .f32⟩
  | 51 => ⟨S2048x50000, .f32⟩
  | 52 => ⟨S_, .f32⟩
  | 53 => ⟨S2048x50000, .f32⟩
  | 54 => ⟨S2048x50000, .f32⟩
  | 55 => ⟨S2048x50000, .f32⟩
  | 56 => ⟨S_, .f32⟩
  | 57 => ⟨S2048, .f32⟩
  | 58 => ⟨S2048, .f32⟩
  | 59 => ⟨S2048, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_6 : Ref sig .tc := ⟨.hbm, 55, rfl⟩
abbrev main_v37 : Ref sig .tc := ⟨.hbm, 56, rfl⟩
abbrev main_v38 : Ref sig .tc := ⟨.hbm, 57, rfl⟩
abbrev main_c_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call0_v0 : Ref sig .tc := ⟨.hbm, 64, rfl⟩
abbrev main_call0_cst : Ref sig .tc := ⟨.hbm, 65, rfl⟩
abbrev main_call0_v1 : Ref sig .tc := ⟨.hbm, 66, rfl⟩
abbrev main_call0_v2 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_call1_v0 : Ref sig .tc := ⟨.hbm, 83, rfl⟩
abbrev main_call1_cst : Ref sig .tc := ⟨.hbm, 84, rfl⟩
abbrev main_call1_v1 : Ref sig .tc := ⟨.hbm, 85, rfl⟩
abbrev main_call1_v2 : Ref sig .tc := ⟨.hbm, 86, rfl⟩
abbrev main_v56 : Ref sig .tc := ⟨.hbm, 87, rfl⟩
abbrev main_cst_11 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_call2_v0 : Ref sig .tc := ⟨.hbm, 93, rfl⟩
abbrev main_call2_cst : Ref sig .tc := ⟨.hbm, 94, rfl⟩
abbrev main_call2_v1 : Ref sig .tc := ⟨.hbm, 95, rfl⟩
abbrev main_call2_v2 : Ref sig .tc := ⟨.hbm, 96, rfl⟩
abbrev main_v61 : Ref sig .tc := ⟨.hbm, 97, rfl⟩
abbrev main_cst_12 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_13 : Ref sig .tc := ⟨.hbm, 104, rfl⟩
abbrev main_v67 : Ref sig .tc := ⟨.hbm, 105, rfl⟩
abbrev main_cst_14 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_15 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_16 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_17 : Ref sig .tc := ⟨.hbm, 120, rfl⟩
abbrev main_v79 : Ref sig .tc := ⟨.hbm, 121, rfl⟩
abbrev main_v80 : Ref sig .tc := ⟨.hbm, 122, rfl⟩
abbrev main_c_18 : Ref sig .tc := ⟨.hbm, 123, rfl⟩
abbrev main_v81 : Ref sig .tc := ⟨.hbm, 124, rfl⟩
abbrev main_v82 : Ref sig .tc := ⟨.hbm, 125, rfl⟩
abbrev main_c_19 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_call3_v0 : Ref sig .tc := ⟨.hbm, 132, rfl⟩
abbrev main_call3_cst : Ref sig .tc := ⟨.hbm, 133, rfl⟩
abbrev main_call3_v1 : Ref sig .tc := ⟨.hbm, 134, rfl⟩
abbrev main_call3_v2 : Ref sig .tc := ⟨.hbm, 135, rfl⟩
abbrev main_v88 : Ref sig .tc := ⟨.hbm, 136, rfl⟩
abbrev main_cst_20 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_c_21 : Ref sig .tc := ⟨.hbm, 142, rfl⟩
abbrev main_v93 : Ref sig .tc := ⟨.hbm, 143, rfl⟩
abbrev main_v94 : Ref sig .tc := ⟨.hbm, 144, rfl⟩
abbrev main_c_22 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_call4_v0 : Ref sig .tc := ⟨.hbm, 151, rfl⟩
abbrev main_call4_cst : Ref sig .tc := ⟨.hbm, 152, rfl⟩
abbrev main_call4_v1 : Ref sig .tc := ⟨.hbm, 153, rfl⟩
abbrev main_call4_v2 : Ref sig .tc := ⟨.hbm, 154, rfl⟩
abbrev main_v100 : Ref sig .tc := ⟨.hbm, 155, rfl⟩
abbrev main_cst_23 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_call5_v0 : Ref sig .tc := ⟨.hbm, 161, rfl⟩
abbrev main_call5_cst : Ref sig .tc := ⟨.hbm, 162, rfl⟩
abbrev main_call5_v1 : Ref sig .tc := ⟨.hbm, 163, rfl⟩
abbrev main_call5_v2 : Ref sig .tc := ⟨.hbm, 164, rfl⟩
abbrev main_v105 : Ref sig .tc := ⟨.hbm, 165, rfl⟩
abbrev main_cst_24 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_cst_25 : Ref sig .tc := ⟨.hbm, 172, rfl⟩
abbrev main_v111 : Ref sig .tc := ⟨.hbm, 173, rfl⟩
abbrev main_cst_26 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_cst_27 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_cst_28 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_cst_29 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_cst_30 : Ref sig .tc := ⟨.hbm, 192, rfl⟩
abbrev main_v126 : Ref sig .tc := ⟨.hbm, 193, rfl⟩

abbrev nD : Nat := 1
abbrev τ : Topo := Topo.v7x

variable {F : FTy → Type} [FloatOps F]

class Facts₀ : Prop where
  concatenates_S50000x64_S50000x64_S100000x64_d0 : Shape.Concatenates [S50000x64, S50000x64] S100000x64 0
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S100000x64 : S_.BroadcastsInDim S100000x64 (![] : Fin 0 → Fin S100000x64.rank)
  slices_S100000x64_S50000x64_0_0 : S100000x64.Slices ![0, 0] S50000x64
  slices_S100000x64_S50000x64_50000_0 : S100000x64.Slices ![50000, 0] S50000x64
  bcast_S_S2048 : S_.BroadcastsInDim S2048 (![] : Fin 0 → Fin S2048.rank)
  bcast_S2048_S2048x1_0 : S2048.BroadcastsInDim S2048x1 (![0] : Fin 1 → Fin S2048x1.rank)
  reducesTo_S2048x64_S2048_d1 : S2048x64.ReducesTo [1] S2048
  h_S_ : 0 < S_.numel
  bcast_S_S2048x1 : S_.BroadcastsInDim S2048x1 (![] : Fin 0 → Fin S2048x1.rank)
  bcast_S2048x1_S2048x64_0_1 : S2048x1.BroadcastsInDim S2048x64 (![0, 1] : Fin 2 → Fin S2048x64.rank)
  reducesTo_S50000x64_S50000_d1 : S50000x64.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  transposes_S50000x64_S64x50000_1_0 : S50000x64.Transposes [1, 0] S64x50000
  bcast_S_S2048x50000 : S_.BroadcastsInDim S2048x50000 (![] : Fin 0 → Fin S2048x50000.rank)
  reducesTo_S2048x50000_S2048_d1 : S2048x50000.ReducesTo [1] S2048
  reducesTo_S2048_S_d0 : S2048.ReducesTo [0] S_
  gather_S100000x64_S2000000x1_S2000000x64_1_0_n_n_0_1_164_wf : GatherDims.WF S100000x64 S2000000x1 S2000000x64 [1] [0] [] [0] [] 1 ![1, 64]
  scatter_S100000x64_S2000000x1_S2000000x64_1_0_0_1_wf : ScatterDims.WF S100000x64 S2000000x1 S2000000x64 [1] [0] [0] 1
  gather_S50000x64_S2048x1_S2048x64_1_0_n_n_0_1_164_wf : GatherDims.WF S50000x64 S2048x1 S2048x64 [1] [0] [] [0] [] 1 ![1, 64]
  dot_S2048x64_S64x50000_S2048x50000_1_0_0_1_n_n_wf : DotDims.WF S2048x64 S64x50000 S2048x50000 [1] [0] [0] [1] [] []

variable [Facts₀]

def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def gather_S50000x64_S2048x1_S2048x64_1_0_n_n_0_1_164 : GatherDims S50000x64 S2048x1 S2048x64 where
  offsetDims := [1]
  collapsedSliceDims := [0]
  operandBatchingDims := []
  startIndicesBatchingDims := []
  startIndexMap := [0]
  indexVectorDim := 1
  sliceSizes := ![1, 64]
  wf := gather_S50000x64_S2048x1_S2048x64_1_0_n_n_0_1_164_wf
def dot_S2048x64_S64x50000_S2048x50000_1_0_0_1_n_n : DotDims S2048x64 S64x50000 S2048x50000 where
  lhsContracting := [1]
  rhsContracting := [0]
  lhsNonContracting := [0]
  rhsNonContracting := [1]
  lhsBatch := []
  rhsBatch := []
  wf := dot_S2048x64_S64x50000_S2048x50000_1_0_0_1_n_n_wf

class Facts : Prop extends Facts₀ where

variable [Facts]
-- ==== Proof.K.R0Runs.lean ====
import proofs.«429504_j11716670784252_3_alg».proof.Proof.Gen.Kernel.Launch
import proofs.«429504_j11716670784252_3_alg».proof.Proof.Gen.Kernel.Skeleton
import proofs.«429504_j11716670784252_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what its three whole-body runs share -/

section Blocks

variable (V : (c : Dev nD) → (b : Ref sig .tc) → Buf (Elt F) ((c : Thread nD τ).loc b))

/-- Window w's block at point t of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The buffer of the first input (the query rows) holds its block at every point, though it is fetched at the
    first point only: the block index never moves. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The current buffer of the second input (the table's tile) holds the point's tile: it is fetched at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The body's two conditions, in closed form over the grid -/

/-- The body's first branch: taken when the grid coordinate is zero (the running column is reset there). -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 50 = 0 :=
  (by decide +kernel : ∀ t : Fin grid0.N, cond0_0 (grid0.coords t) ↔ t.val % 50 = 0)

/-- The body's second branch: taken at the last grid coordinate (the running column is stored to the output there). -/
abbrev cond0_1 (i : grid0.Coords) : Prop := k0_cond2 i = 1#1
theorem hcond0_1 : ∀ t : Fin cfg0.N, cond0_1 (grid0.coords t) ↔ t.val % 50 = 49 :=
  (by decide +kernel : ∀ t : Fin grid0.N, cond0_1 (grid0.coords t) ↔ t.val % 50 = 49)

/-! ## Where the windows are idle -/

/-- The inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- At the first point the output is idle and not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- At the middle points likewise. -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- At the last point the output is live: the body stores into it. -/
theorem liveAt0_2_C : ∀ t : Fin cfg0.N, ¬cond0_0 (grid0.coords t) → cond0_1 (grid0.coords t) → cfg0.idle 2 (grid0.coords t) = false := by decide +kernel

/-! ## The memrefs the body is called with -/

/-- One staging buffer of the output window, through which its contents are stated. -/
abbrev VO0_2 : View sig .tc .vmem S2048x1 .f32 := (Memref.whole cc0_stg2_0 : Memref sig .tc .vmem S2048x1 .f32).view
/-- Each window's current staging memref at point t, as the pipeline passes it, and its wholeness. -/
abbrev ms0_0 (t : Fin cfg0.N) : Memref sig .tc .vmem S2048x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1 .f32 := win0_2.stage (cfg0.slots t 2)
abbrev hs0_2 (t : Fin cfg0.N) : (ms0_2 t).IsWhole := hstage0_2 ((cfg0.slots t 2).cast nbuf0_2)
/-- The scratch column: a whole scoped buffer of the kernel's own. -/
abbrev scM0_0 : Memref sig .tc .vmem S2048x1 .f32 := Memref.whole cc0_scratch0
abbrev VS0_0 : View sig .tc .vmem S2048x1 .f32 := scM0_0.view

/-! ## The region's invariant, the scratch column apart -/

/-- The core's other scoped buffers that are no staging buffer of this region, each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f))

/-- The class's invariant hands out the scratch column at some contents, the other scoped buffers and the
    generator register. -/
theorem PhiA0_split (c : Dev nD) :
    (Pipeline.ΦA spec0 c : sProp 𝕄) ⊢ iprop((∃ d, owns (c : Thread nD τ) scM0_0 fullShare d) ∗ others0 c ∗ (∃ r, prngReg c r)) := by
  unfold Pipeline.ΦA others0; rw [scopedRest0_eq]; simp only [scM0_0, owns_whole]
  iintro ⟨⟨HS, Hrest⟩, Hg⟩
  isplitl [HS]; · iexact HS
  isplitl [Hrest]; · iexact Hrest
  iexact Hg

/-- And takes them back. -/
theorem PhiA0_join (c : Dev nD) :
    iprop((∃ d, owns (c : Thread nD τ) scM0_0 fullShare d) ∗ others0 c ∗ (∃ r, prngReg c r)) ⊢ (Pipeline.ΦA spec0 c : sProp 𝕄) := by
  unfold Pipeline.ΦA others0; rw [scopedRest0_eq]; simp only [scM0_0, owns_whole]
  iintro ⟨HS, Hrest, Hg⟩
  isplitr [Hg]
  · isplitl [HS]; · iexact HS
    iexact Hrest
  iexact Hg

end Cert.Kernel.Hand

end
-- ==== Proof.K.R0RunA.lean ====
import proofs.«429504_j11716670784252_3_alg».proof.Proof.K.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE FIRST POINT (first branch taken, second not). What the body's stores leave in the scratch column, as pieces
    (last first), with the proof that on whole memrefs — the two inputs' at their contents, the output's at contents
    handed back untouched, the scratch column at anything — the body runs to the continuation holding the inputs and
    the output as they were and the scratch column with its pieces written. The pieces are the witness the run finds. -/
noncomputable def kernelRun0_A (c : Dev nD) (i : grid0.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i)
    (x0 : Vec F S2048x64 .f32) (x1 : Vec F S1000x64 .f32) :
    Σ' (L2 : List (View.Piece (Elt F) S2048x1 .f32)), { LS0 : List (View.Piece (Elt F) S2048x1 .f32) //
      ∀ (xi2 : Vec F S2048x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__ttl_kernel i arg1 harg1 arg2 harg2 arg3 harg3 arg4 harg4) K } := by
  refine ⟨[], ?_, fun xi2 E K => ?run⟩
  case run =>
    simp only [cc0__ttl_kernel_eq_skeleton]; unfold cc0__ttl_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Hand

end
-- ==== Proof.K.R0RunB.lean ====
import proofs.«429504_j11716670784252_3_alg».proof.Proof.K.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A MIDDLE POINT (neither branch taken). As at the first point, but the scratch column comes in at the contents the
    point before left. -/
noncomputable def kernelRun0_B (c : Dev nD) (i : grid0.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i)
    (x0 : Vec F S2048x64 .f32) (x1 : Vec F S1000x64 .f32) (xs0 : Vec F S2048x1 .f32) :
    Σ' (L2 : List (View.Piece (Elt F) S2048x1 .f32)), { LS0 : List (View.Piece (Elt F) S2048x1 .f32) //
      ∀ (xi2 : Vec F S2048x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__ttl_kernel i arg1 harg1 arg2 harg2 arg3 harg3 arg4 harg4) K } := by
  refine ⟨[], ?_, fun xi2 E K => ?run⟩
  case run =>
    simp only [cc0__ttl_kernel_eq_skeleton]; unfold cc0__ttl_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Hand

end
-- ==== Proof.K.R0RunC.lean ====
import proofs.«429504_j11716670784252_3_alg».proof.Proof.K.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE LAST POINT (second branch only). The scratch column comes in at what the point before left; the output's
    buffer, at anything, ends with the pieces the run finds written. -/
noncomputable def kernelRun0_C (c : Dev nD) (i : grid0.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x64 .f32) (x1 : Vec F S1000x64 .f32) (xs0 : Vec F S2048x1 .f32) :
    Σ' (L2 : List (View.Piece (Elt F) S2048x1 .f32)), { LS0 : List (View.Piece (Elt F) S2048x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__ttl_kernel i arg1 harg1 arg2 harg2 arg3 harg3 arg4 harg4) K } := by
  refine ⟨?_, ?_, fun E K => ?run⟩
  case run =>
    simp only [cc0__ttl_kernel_eq_skeleton]; unfold cc0__ttl_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Hand

end
-- ==== Proof.K.R0Frame.lean ====
import proofs.«429504_j11716670784252_3_alg».proof.Proof.K.R0RunC
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: what the body leaves, point by point, and the pipeline's proof data -/

/-- The running sum the kernel keeps in its scratch, after the body at point n. -/
def accAt0 (c : Dev nD) : (n : ℕ) → n < cfg0.N → Vec F S2048x1 .f32
  | 0, h => k0_pay2 (iblk0 V c 1 ⟨0, h⟩) (iblk0 V c 0 ⟨0, h⟩) (k0_pay1 (F := F))
  | n + 1, h => k0_pay2 (iblk0 V c 1 ⟨n + 1, h⟩) (iblk0 V c 0 ⟨n + 1, h⟩) (accAt0 c n (Nat.lt_of_succ_lt h))

/-- At the first point the body stores nothing into the output's buffer: a placeholder nothing consults (the window
    is idle there and not written back). -/
def out0_A_2 (c : Dev nD) (i : grid0.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i)
    (x0 : Vec F S2048x64 .f32) (x1 : Vec F S1000x64 .f32) : Vec F S2048x1 .f32 :=
  VO0_2.read (Elt F) (VO0_2.writes (Elt F) VO0_2.junk (kernelRun0_A c i arg1 harg1 arg2 harg2 arg3 harg3 arg4 harg4 hc0 hc1 x0 x1).1)

/-- The first point's pieces for the scratch column cover it. -/
theorem scover0_A_0 (c : Dev nD) (i : grid0.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i)
    (x0 : Vec F S2048x64 .f32) (x1 : Vec F S1000x64 .f32) (y : S2048x1.Idx) :
    ∃ pc ∈ (kernelRun0_A c i arg1 harg1 arg2 harg2 arg3 harg3 arg4 harg4 hc0 hc1 x0 x1).2.1, y ∈ pc.1.set :=
  View.cover_of_tiledL (kernelRun0_A c i arg1 harg1 arg2 harg2 arg3 harg3 arg4 harg4 hc0 hc1 x0 x1).2.1 S2048x1.size (by sl_kernel_rfl) y

/-- What the first point leaves in the scratch column: its pieces read back. -/
def sout0_A_0 (c : Dev nD) (i : grid0.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i)
    (x0 : Vec F S2048x64 .f32) (x1 : Vec F S1000x64 .f32) : Vec F S2048x1 .f32 :=
  VS0_0.read (Elt F) (VS0_0.writes (Elt F) VS0_0.junk (kernelRun0_A c i arg1 harg1 arg2 harg2 arg3 harg3 arg4 harg4 hc0 hc1 x0 x1).2.1)

/-- At a middle point the body stores nothing into the output's buffer either. -/
def out0_B_2 (c : Dev nD) (i : grid0.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i)
    (x0 : Vec F S2048x64 .f32) (x1 : Vec F S1000x64 .f32) (xs0 : Vec F S2048x1 .f32) : Vec F S2048x1 .f32 :=
  VO0_2.read (Elt F) (VO0_2.writes (Elt F) VO0_2.junk (kernelRun0_B c i arg1 harg1 arg2 harg2 arg3 harg3 arg4 harg4 hc0 hc1 x0 x1 xs0).1)

/-- A middle point's pieces for the scratch column cover it. -/
theorem scover0_B_0 (c : Dev nD) (i : grid0.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i)
    (x0 : Vec F S2048x64 .f32) (x1 : Vec F S1000x64 .f32) (xs0 : Vec F S2048x1 .f32) (y : S2048x1.Idx) :
    ∃ pc ∈ (kernelRun0_B c i arg1 harg1 arg2 harg2 arg3 harg3 arg4 harg4 hc0 hc1 x0 x1 xs0).2.1, y ∈ pc.1.set :=
  View.cover_of_tiledL (kernelRun0_B c i arg1 harg1 arg2 harg2 arg3 harg3 arg4 harg4 hc0 hc1 x0 x1 xs0).2.1 S2048x1.size (by sl_kernel_rfl) y

/-- What a middle point leaves in the scratch column. -/
def sout0_B_0 (c : Dev nD) (i : grid0.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i)
    (x0 : Vec F S2048x64 .f32) (x1 : Vec F S1000x64 .f32) (xs0 : Vec F S2048x1 .f32) : Vec F S2048x1 .f32 :=
  VS0_0.read (Elt F) (VS0_0.writes (Elt F) VS0_0.junk (kernelRun0_B c i arg1 harg1 arg2 harg2 arg3 harg3 arg4 harg4 hc0 hc1 x0 x1 xs0).2.1)

/-- The last point's store into the output's buffer covers it. -/
theorem cover0_C_2 (c : Dev nD) (i : grid0.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x64 .f32) (x1 : Vec F S1000x64 .f32) (xs0 : Vec F S2048x1 .f32) (y : S2048x1.Idx) :
    ∃ pc ∈ (kernelRun0_C c i arg1 harg1 arg2 harg2 arg3 harg3 arg4 harg4 hc0 hc1 x0 x1 xs0).1, y ∈ pc.1.set :=
  View.cover_of_tiledL (kernelRun0_C c i arg1 harg1 arg2 harg2 arg3 harg3 arg4 harg4 hc0 hc1 x0 x1 xs0).1 S2048x1.size (by sl_kernel_rfl) y

/-- What the last point leaves in the output's buffer. -/
def out0_C_2 (c : Dev nD) (i : grid0.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x64 .f32) (x1 : Vec F S1000x64 .f32) (xs0 : Vec F S2048x1 .f32) : Vec F S2048x1 .f32 :=
  VO0_2.read (Elt F) (VO0_2.writes (Elt F) VO0_2.junk (kernelRun0_C c i arg1 harg1 arg2 harg2 arg3 harg3 arg4 harg4 hc0 hc1 x0 x1 xs0).1)

/-- The last point's pieces for the scratch column cover it. -/
theorem scover0_C_0 (c : Dev nD) (i : grid0.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x64 .f32) (x1 : Vec F S1000x64 .f32) (xs0 : Vec F S2048x1 .f32) (y : S2048x1.Idx) :
    ∃ pc ∈ (kernelRun0_C c i arg1 harg1 arg2 harg2 arg3 harg3 arg4 harg4 hc0 hc1 x0 x1 xs0).2.1, y ∈ pc.1.set :=
  View.cover_of_tiledL (kernelRun0_C c i arg1 harg1 arg2 harg2 arg3 harg3 arg4 harg4 hc0 hc1 x0 x1 xs0).2.1 S2048x1.size (by sl_kernel_rfl) y

/-- What the last point leaves in the scratch column. -/
def sout0_C_0 (c : Dev nD) (i : grid0.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x64 .f32) (x1 : Vec F S1000x64 .f32) (xs0 : Vec F S2048x1 .f32) : Vec F S2048x1 .f32 :=
  VS0_0.read (Elt F) (VS0_0.writes (Elt F) VS0_0.junk (kernelRun0_C c i arg1 harg1 arg2 harg2 arg3 harg3 arg4 harg4 hc0 hc1 x0 x1 xs0).2.1)

/-! ## Which case a point is in -/

theorem isA0 (t : Fin cfg0.N) (hz : t.val = 0) : cond0_0 (grid0.coords t) ∧ ¬cond0_1 (grid0.coords t) :=
  ⟨(hcond0_0 t).mpr (by omega), fun h => by have := (hcond0_1 t).mp h; omega⟩
theorem isB0 (t : Fin cfg0.N) (hz : t.val ≠ 0) (hl : t.val ≠ 49) : ¬cond0_0 (grid0.coords t) ∧ ¬cond0_1 (grid0.coords t) := by
  have hN : t.val < 50 := lt_of_lt_of_eq t.isLt (show cfg0.N = 50 from N_0)
  exact ⟨fun h => by have := (hcond0_0 t).mp h; omega, fun h => by have := (hcond0_1 t).mp h; omega⟩
theorem isC0 (t : Fin cfg0.N) (hl : t.val = 49) : ¬cond0_0 (grid0.coords t) ∧ cond0_1 (grid0.coords t) :=
  ⟨fun h => by have := (hcond0_0 t).mp h; omega, (hcond0_1 t).mpr (by omega)⟩

/-! ## What the output's buffer and the scratch column hold after each point -/

/-- After the body at position n: the output's buffer and the scratch column (a pair). The first point runs over a
    scratch column at anything; every later point over what the point before left in it. -/
def outsAt0 (c : Dev nD) : (n : ℕ) → n < cfg0.N → Vec F S2048x1 .f32 × Vec F S2048x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) (isA0 ⟨0, hn⟩ rfl).1 (isA0 ⟨0, hn⟩ rfl).2 (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) (isA0 ⟨0, hn⟩ rfl).1 (isA0 ⟨0, hn⟩ rfl).2 (iblk0 V c 0 ⟨0, hn⟩) (iblk0 V c 1 ⟨0, hn⟩))
  | n + 1, hn =>
    if hl : n + 1 = 49 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (isC0 ⟨n + 1, hn⟩ hl).1 (isC0 ⟨n + 1, hn⟩ hl).2 (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (isC0 ⟨n + 1, hn⟩ hl).1 (isC0 ⟨n + 1, hn⟩ hl).2 (iblk0 V c 0 ⟨n + 1, hn⟩) (iblk0 V c 1 ⟨n + 1, hn⟩) (outsAt0 c n (Nat.lt_of_succ_lt hn)).2)
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (isB0 ⟨n + 1, hn⟩ (Nat.succ_ne_zero n) hl).1 (isB0 ⟨n + 1, hn⟩ (Nat.succ_ne_zero n) hl).2 (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (isB0 ⟨n + 1, hn⟩ (Nat.succ_ne_zero n) hl).1 (isB0 ⟨n + 1, hn⟩ (Nat.succ_ne_zero n) hl).2 (iblk0 V c 0 ⟨n + 1, hn⟩) (iblk0 V c 1 ⟨n + 1, hn⟩) (outsAt0 c n (Nat.lt_of_succ_lt hn)).2)

/-- At the first point. -/
theorem outsAt0_A (c : Dev nD) (t : Fin cfg0.N) (hz : t.val = 0) :
    outsAt0 V c t.val t.isLt = (out0_A_2 c (grid0.coords t) (ms0_0 t) (hs0_0 t) (ms0_1 t) (hs0_1 t) (ms0_2 t) (hs0_2 t) scM0_0 (Memref.isWhole_whole _) (isA0 t hz).1 (isA0 t hz).2 (iblk0 V c 0 t) (iblk0 V c 1 t), sout0_A_0 c (grid0.coords t) (ms0_0 t) (hs0_0 t) (ms0_1 t) (hs0_1 t) (ms0_2 t) (hs0_2 t) scM0_0 (Memref.isWhole_whole _) (isA0 t hz).1 (isA0 t hz).2 (iblk0 V c 0 t) (iblk0 V c 1 t)) := by
  obtain ⟨n, hn⟩ := t
  cases n with
  | zero => rfl
  | succ n => exact absurd hz (Nat.succ_ne_zero n)

/-- At a middle point: over what the point before left. -/
theorem outsAt0_B (c : Dev nD) (t : Fin cfg0.N) (hz : t.val ≠ 0) (hl : t.val ≠ 49) :
    outsAt0 V c t.val t.isLt = (out0_B_2 c (grid0.coords t) (ms0_0 t) (hs0_0 t) (ms0_1 t) (hs0_1 t) (ms0_2 t) (hs0_2 t) scM0_0 (Memref.isWhole_whole _) (isB0 t hz hl).1 (isB0 t hz hl).2 (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (isB0 t hz hl).1 (isB0 t hz hl).2 (iblk0 V c 0 t) (iblk0 V c 1 t) (outsAt0 V c (t.val - 1) (Nat.lt_of_le_of_lt (Nat.sub_le _ _) t.isLt)).2) := by
  obtain ⟨n, hn⟩ := t
  cases n with
  | zero => exact absurd rfl hz
  | succ n => exact (dif_neg hl).trans rfl

/-- At the last point: over what the point before left. -/
theorem outsAt0_C (c : Dev nD) (t : Fin cfg0.N) (hl : t.val = 49) :
    outsAt0 V c t.val t.isLt = (out0_C_2 c (grid0.coords t) (ms0_0 t) (hs0_0 t) (ms0_1 t) (hs0_1 t) (ms0_2 t) (hs0_2 t) scM0_0 (Memref.isWhole_whole _) (isC0 t hl).1 (isC0 t hl).2 (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (isC0 t hl).1 (isC0 t hl).2 (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at hl); omega)
  | succ n => exact (dif_pos hl).trans rfl

/-! ## The region's invariant -/

/-- Before position n: at the first point what the region is handed; afterwards the scratch column at what the point
    before left in it, the other scoped buffers at anything and the generator register at some state. -/
def PhiS0 (c : Dev nD) : (n : ℕ) → n ≤ cfg0.N → sProp 𝕄
  | 0, _ => Pipeline.ΦA spec0 c
  | n + 1, hn => iprop(owns (c : Thread nD τ) scM0_0 fullShare ((outsAt0 V c n hn).2) ∗ others0 c ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0_0 fullShare ((outsAt0 V c n hn).2) ∗ others0 c ∗ (∃ r, prngReg c r)) := rfl

theorem PhiS0_pos (c : Dev nD) (n : ℕ) (h : n ≤ cfg0.N) (hz : n ≠ 0) :
    PhiS0 V c n h = iprop(owns (c : Thread nD τ) scM0_0 fullShare ((outsAt0 V c (n - 1) (by omega)).2) ∗ others0 c ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' buffers hold their blocks; the point's position says which of the three runs
    applies; the invariant hands the body the scratch column (at anything at the first point, else at what the point
    before left) and takes it back at this point's contents; the other scoped buffers, the generator register and what
    the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 50 := lt_of_lt_of_eq t.isLt (show cfg0.N = 50 from N_0)
  by_cases hz : t.val = 0
  · rw [Dat.leavesExact_idle (dat0 V c) 2 t (idleAt0_2_A t (isA0 t hz).1 (isA0 t hz).2) (noFlush0_2_A t (isA0 t hz).1 (isA0 t hz).2)]
    rw [outsAt0_A V c t hz]
    unfold sout0_A_0; (try dsimp only)
    rw [PhiS0_castSucc V c t, PhiS0_zero V c _ _ hz]
    iintro ⟨HΦ, Ho, ⟨%d0, H0⟩, ⟨%d1, H1⟩, ⟨%d2, H2⟩⟩
    ihave HΦ' := (PhiA0_split c) $$ HΦ
    icases HΦ' with ⟨HS0, Hoth, Hg⟩
    iapply ((kernelRun0_A c (grid0.coords t) _ _ _ _ _ _ _ _ (isA0 t hz).1 (isA0 t hz).2 (iblk0 V c 0 t) (iblk0 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hoth Hg]
    · isplitl [HS0]
      · unfold owns; iexists _; isplitr
        swap; · iexact HS0
        ipureintro; exact View.read_writes_of_cover _ _ _ _ _ (scover0_A_0 c _ _ _ _ _ _ _ _ _ _ _ _ _)
      isplitl [Hoth]; · iexact Hoth
      iexact Hg
    isplitl [Ho]; · iexact Ho
    isplitl [H0]; · iexact H0
    isplitl [H1]; · iexact H1
    iexists _; iexact H2
  · by_cases hl : t.val = 49
    · rw [show (dat0 V c).leavesExact 2 t = owns (c : Thread nD τ) (ms0_2 t) fullShare ((dat0 V c).after 2 t) from by
        unfold Dat.leavesExact; rw [liveAt0_2_C t (isC0 t hl).1 (isC0 t hl).2], after0_2]
      rw [outsAt0_C V c t hl]
      unfold out0_C_2 sout0_C_0; (try dsimp only)
      rw [PhiS0_castSucc V c t, PhiS0_pos V c _ _ hz]
      iintro ⟨⟨HS0, Hoth, Hg⟩, Ho, ⟨%d0, H0⟩, ⟨%d1, H1⟩, ⟨%d2, H2⟩⟩
      iapply ((kernelRun0_C c (grid0.coords t) _ _ _ _ _ _ _ _ (isC0 t hl).1 (isC0 t hl).2 (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0]
        · unfold owns; iexists _; isplitr
          swap; · iexact HS0
          ipureintro; exact View.read_writes_of_cover _ _ _ _ _ (scover0_C_0 c _ _ _ _ _ _ _ _ _ _ _ _ _ _)
        isplitl [Hoth]; · iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2_B t (isB0 t hz hl).1 (isB0 t hz hl).2) (noFlush0_2_B t (isB0 t hz hl).1 (isB0 t hz hl).2)]
      rw [outsAt0_B V c t hz hl]
      unfold sout0_B_0; (try dsimp only)
      rw [PhiS0_castSucc V c t, PhiS0_pos V c _ _ hz]
      iintro ⟨⟨HS0, Hoth, Hg⟩, Ho, ⟨%d0, H0⟩, ⟨%d1, H1⟩, ⟨%d2, H2⟩⟩
      iapply ((kernelRun0_B c (grid0.coords t) _ _ _ _ _ _ _ _ (isB0 t hz hl).1 (isB0 t hz hl).2 (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scover0_B_0 c _ _ _ _ _ _ _ _ _ _ _ _ _ _)
        isplitl [Hoth]; · iexact Hoth
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives back what the region was handed: the scratch column's named
    contents are forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht]
  iintro ⟨HS0, Hoth, Hg⟩
  iapply (PhiA0_join c)
  isplitl [HS0]
  · iexists _; iexact HS0
  isplitl [Hoth]; · iexact Hoth
  iexact Hg

theorem hout0 (c : Dev nD) : (dat0 V c).Φ (Fin.last cfg0.N) ⊢ (Pipeline.ΦA spec0 c : sProp 𝕄) :=
  Phi_out0 V c _ (by rw [Fin.val_last]; have : cfg0.N = 50 := N_0; omega)

theorem share0 (c : Dev nD) (w : Fin cfg0.W) : (dat0 V c).q w = fullShare := rfl

theorem recorded0 (c : Dev nD) (t : Fin (cfg0.N + 1)) : (dat0 V c).recorded t = Set.univ := rfl

theorem owed0 (c : Dev nD) (t : Fin (cfg0.N + 1)) : (dat0 V c).owed t = 0 := rfl

/-! ## The values the three runs leave -/

theorem hz0 : (![0, 0] : Fin 2 → Nat) = fun _ => 0 := funext fun a => by fin_cases a <;> rfl

/-- A middle point leaves in the scratch column the running column it found plus the tile's contribution. -/
theorem sout0_B_eq (c : Dev nD) (i : grid0.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i)
    (x0 : Vec F S2048x64 .f32) (x1 : Vec F S1000x64 .f32) (xs0 : Vec F S2048x1 .f32) :
    sout0_B_0 c i arg1 harg1 arg2 harg2 arg3 harg3 arg4 harg4 hc0 hc1 x0 x1 xs0 = k0_pay2 x1 x0 xs0 := by
  unfold sout0_B_0
  rw [View.read_writes_eq_canon _ _ _ (scover0_B_0 c i arg1 harg1 arg2 harg2 arg3 harg3 arg4 harg4 hc0 hc1 x0 x1 xs0)]
  unfold kernelRun0_B
  dsimp only
  sl_unfold_words
  rw [View.canon_unit_zero hz0]
  simp only [View.readAt_eq_ld, harg1.read_unread, harg2.read_unread, harg4.read_unread, View.ld_unit_zero (S := S2048x64) hz0, View.ld_unit_zero (S := S1000x64) hz0, View.ld_unit_zero (S := S2048x1) hz0]

/-- The first point leaves the first tile's contribution over the zero column. -/
theorem sout0_A_eq (c : Dev nD) (i : grid0.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i)
    (x0 : Vec F S2048x64 .f32) (x1 : Vec F S1000x64 .f32) :
    sout0_A_0 c i arg1 harg1 arg2 harg2 arg3 harg3 arg4 harg4 hc0 hc1 x0 x1 = k0_pay2 x1 x0 (k0_pay1 (F := F)) := by
  unfold sout0_A_0
  rw [View.read_writes_eq_canon _ _ _ (scover0_A_0 c i arg1 harg1 arg2 harg2 arg3 harg3 arg4 harg4 hc0 hc1 x0 x1)]
  unfold kernelRun0_A
  dsimp only
  sl_unfold_words
  rw [View.canon_cons_unit_zero (S := S2048x1) hz0, View.readCov_unit_zero (S := S2048x1) _ hz0]
  simp only [View.readAt_eq_ld, harg1.read_unread, harg2.read_unread, View.ld_unit_zero (S := S2048x64) hz0, View.ld_unit_zero (S := S1000x64) hz0]

/-- The last point leaves the same in the scratch column as a middle point does, -/
theorem sout0_C_eq (c : Dev nD) (i : grid0.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x64 .f32) (x1 : Vec F S1000x64 .f32) (xs0 : Vec F S2048x1 .f32) :
    sout0_C_0 c i arg1 harg1 arg2 harg2 arg3 harg3 arg4 harg4 hc0 hc1 x0 x1 xs0 = k0_pay2 x1 x0 xs0 := by
  unfold sout0_C_0
  rw [View.read_writes_eq_canon _ _ _ (scover0_C_0 c i arg1 harg1 arg2 harg2 arg3 harg3 arg4 harg4 hc0 hc1 x0 x1 xs0)]
  unfold kernelRun0_C
  dsimp only
  sl_unfold_words
  rw [View.canon_unit_zero hz0]
  simp only [View.readAt_eq_ld, harg1.read_unread, harg2.read_unread, harg4.read_unread, View.ld_unit_zero (S := S2048x64) hz0, View.ld_unit_zero (S := S1000x64) hz0, View.ld_unit_zero (S := S2048x1) hz0]

/-- and stores that column into the output's buffer. -/
theorem out0_C_eq (c : Dev nD) (i : grid0.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x64 .f32) (x1 : Vec F S1000x64 .f32) (xs0 : Vec F S2048x1 .f32) :
    out0_C_2 c i arg1 harg1 arg2 harg2 arg3 harg3 arg4 harg4 hc0 hc1 x0 x1 xs0 = k0_pay2 x1 x0 xs0 := by
  unfold out0_C_2
  rw [View.read_writes_eq_canon _ _ _ (cover0_C_2 c i arg1 harg1 arg2 harg2 arg3 harg3 arg4 harg4 hc0 hc1 x0 x1 xs0)]
  unfold kernelRun0_C
  dsimp only
  sl_unfold_words
  rw [View.canon_unit_zero hz0, View.readCov_unit_zero (S := S2048x1) _ hz0]
  simp only [View.readAt_eq_ld, harg1.read_unread, harg2.read_unread, harg4.read_unread, View.ld_unit_zero (S := S2048x64) hz0, View.ld_unit_zero (S := S1000x64) hz0, View.ld_unit_zero (S := S2048x1) hz0]

/-! ## The running sum, point by point -/

/-- The scratch column after the body at position n is the running sum there: by induction on the position. -/
theorem outsAt0_acc (c : Dev nD) : ∀ (n : ℕ) (h : n < cfg0.N), (outsAt0 V c n h).2 = accAt0 V c n h
  | 0, h => by
    rw [outsAt0_A V c ⟨0, h⟩ rfl]; dsimp only; rw [sout0_A_eq]; rfl
  | n + 1, h => by
    by_cases hl : n + 1 = 49
    · rw [outsAt0_C V c ⟨n + 1, h⟩ hl]; dsimp only; rw [sout0_C_eq]
      show k0_pay2 _ _ (outsAt0 V c n _).2 = k0_pay2 _ _ (accAt0 V c n _)
      rw [outsAt0_acc c n]
    · rw [outsAt0_B V c ⟨n + 1, h⟩ (Nat.succ_ne_zero n) hl]; dsimp only; rw [sout0_B_eq]
      show k0_pay2 _ _ (outsAt0 V c n _).2 = k0_pay2 _ _ (accAt0 V c n _)
      rw [outsAt0_acc c n]

/-- At the last point the output's buffer is left holding what the scratch column holds. -/
theorem outsAt0_last (c : Dev nD) (t : Fin cfg0.N) (hl : t.val = 49) :
    (outsAt0 V c t.val t.isLt).1 = (outsAt0 V c t.val t.isLt).2 := by
  rw [outsAt0_C V c t hl]; dsimp only; rw [out0_C_eq, sout0_C_eq]

/-! ## The arrays after the region -/

/-- The last point of the grid, the one that writes the output back. -/
abbrev tLast0 : Fin cfg0.N := ⟨49, by rw [show cfg0.N = 50 from N_0]; omega⟩

/-- The one write-back, at the last point, writes the running sum: the output's one block read through zero offsets
    is the whole array. -/
theorem flushed0_eq (c : Dev nD) (t : Fin cfg0.N) (hf : (cfg0.win 2).flush t = true) :
    (dat0 V c).flushed 2 t = ((cfg0.win 2).blk t).view.read (Elt F) (accAt0 V c 49 tLast0.isLt) := by
  have hN : cfg0.N = 50 := N_0
  have h49 : t.val = 49 := by have := (flush0_2 t).mp hf; have := t.isLt; omega
  obtain rfl : t = tLast0 := Fin.ext h49
  show (cfg0.win 2).cut (grid0.coords tLast0) ((dat0 V c).after 2 tLast0) = _
  rw [after0_2, outsAt0_last V c tLast0 rfl, outsAt0_acc]
  have hz' : (fun a => win0_2.index tLast0 a * (Pipeline.arrRef spec0 2).ty.shape.size a) = fun _ => 0 := funext fun a => by fin_cases a <;> decide
  exact (Memref.read_access_unit_zero (Elt F) (Pipeline.arrRef spec0 2) hz' (fun a => by rw [congrFun hz' a]; simp) (accAt0 V c 49 tLast0.isLt)).symm

/-- The output array after the region: the running sum after the last point. -/
theorem arrAt0_out (c : Dev nD) : (dat0 V c).arrAt 2 cfg0.N = accAt0 V c 49 (by rw [show cfg0.N = 50 from N_0]; omega) :=
  (dat0 V c).arrAt_eq_of_cover 2 (accAt0 V c 49 tLast0.isLt) (flushed0_eq V c) fun i =>
    ⟨tLast0, (flush0_2 tLast0).mpr rfl, by
      show i ∈ ((View.whole (Pipeline.arrRef spec0 2)).slice (win0_2.rect tLast0)).set
      rw [View.set_slice_whole, Rect.mem_set_unit]
      intro a
      have h0 : (i 0 : Nat) < 2048 := (i 0).isLt
      have h1 : (i 1 : Nat) < 1 := (i 1).isLt
      match a with
      | ⟨0, _⟩ => show win0_2.index tLast0 0 * win0_2.size 0 ≤ (i 0 : Nat) ∧ (i 0 : Nat) < win0_2.index tLast0 0 * win0_2.size 0 + win0_2.xsize (grid0.coords tLast0) 0
                  rw [show win0_2.index tLast0 0 * win0_2.size 0 = 0 from by decide +kernel, show win0_2.xsize (grid0.coords tLast0) 0 = 2048 from by decide +kernel]; omega
      | ⟨1, _⟩ => show win0_2.index tLast0 1 * win0_2.size 1 ≤ (i 1 : Nat) ∧ (i 1 : Nat) < win0_2.index tLast0 1 * win0_2.size 1 + win0_2.xsize (grid0.coords tLast0) 1
                  rw [show win0_2.index tLast0 1 * win0_2.size 1 = 0 from by decide +kernel, show win0_2.xsize (grid0.coords tLast0) 1 = 1 from by decide +kernel]; omega⟩

/-- Input arrays are left as found. -/
theorem arrAt0_in0 (c : Dev nD) : (dat0 V c).arrAt 0 cfg0.N = V c (Pipeline.arrRef spec0 0) :=
  ((dat0 V c).arrAt_in 0 rfl _).trans (A_eq0 V c 0)
theorem arrAt0_in1 (c : Dev nD) : (dat0 V c).arrAt 1 cfg0.N = V c (Pipeline.arrRef spec0 1) :=
  ((dat0 V c).arrAt_in 1 rfl _).trans (A_eq0 V c 1)

end Cert.Kernel.Hand

end
-- ==== Proof.K.R1Runs.lean ====
import proofs.«429504_j11716670784252_3_alg».proof.Proof.Gen.Kernel.Launch
import proofs.«429504_j11716670784252_3_alg».proof.Proof.Gen.Kernel.Skeleton
import proofs.«429504_j11716670784252_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: what its three whole-body runs share -/

section Blocks

variable (V : (c : Dev nD) → (b : Ref sig .tc) → Buf (Elt F) ((c : Thread nD τ).loc b))

/-- Window w's block at point t of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The buffer of the first input (the query rows) holds its block at every point, though it is fetched at the
    first point only: the block index never moves. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The current buffer of the second input (the table's tile) holds the point's tile: it is fetched at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The body's two conditions, in closed form over the grid -/

/-- The body's first branch: taken when the grid coordinate is zero (the running column is reset there). -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 50 = 0 :=
  (by decide +kernel : ∀ t : Fin grid1.N, cond1_0 (grid1.coords t) ↔ t.val % 50 = 0)

/-- The body's second branch: taken at the last grid coordinate (the running column is stored to the output there). -/
abbrev cond1_1 (i : grid1.Coords) : Prop := k1_cond2 i = 1#1
theorem hcond1_1 : ∀ t : Fin cfg1.N, cond1_1 (grid1.coords t) ↔ t.val % 50 = 49 :=
  (by decide +kernel : ∀ t : Fin grid1.N, cond1_1 (grid1.coords t) ↔ t.val % 50 = 49)

/-! ## Where the windows are idle -/

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- At the first point the output is idle and not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
/-- At the middle points likewise. -/
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- At the last point the output is live: the body stores into it. -/
theorem liveAt1_2_C : ∀ t : Fin cfg1.N, ¬cond1_0 (grid1.coords t) → cond1_1 (grid1.coords t) → cfg1.idle 2 (grid1.coords t) = false := by decide +kernel

/-! ## The memrefs the body is called with -/

/-- One staging buffer of the output window, through which its contents are stated. -/
abbrev VO1_2 : View sig .tc .vmem S2048x1 .f32 := (Memref.whole cc1_stg2_0 : Memref sig .tc .vmem S2048x1 .f32).view
/-- Each window's current staging memref at point t, as the pipeline passes it, and its wholeness. -/
abbrev ms1_0 (t : Fin cfg1.N) : Memref sig .tc .vmem S2048x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1000x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
/-- The scratch column: a whole scoped buffer of the kernel's own. -/
abbrev scM1_0 : Memref sig .tc .vmem S2048x1 .f32 := Memref.whole cc1_scratch0
abbrev VS1_0 : View sig .tc .vmem S2048x1 .f32 := scM1_0.view

/-! ## The region's invariant, the scratch column apart -/

/-- The core's other scoped buffers that are no staging buffer of this region, each at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f))

/-- The class's invariant hands out the scratch column at some contents, the other scoped buffers and the
    generator register. -/
theorem PhiA1_split (c : Dev nD) :
    (Pipeline.ΦA spec1 c : sProp 𝕄) ⊢ iprop((∃ d, owns (c : Thread nD τ) scM1_0 fullShare d) ∗ others1 c ∗ (∃ r, prngReg c r)) := by
  unfold Pipeline.ΦA others1; rw [scopedRest1_eq]; simp only [scM1_0, owns_whole]
  iintro ⟨⟨H1, H2, H3, H4, H5, HS⟩, Hg⟩
  isplitl [HS]; · iexact HS
  isplitl [H1 H2 H3 H4 H5]
  · isplitl [H1]; · iexact H1
    isplitl [H2]; · iexact H2
    isplitl [H3]; · iexact H3
    isplitl [H4]; · iexact H4
    iexact H5
  iexact Hg

/-- And takes them back. -/
theorem PhiA1_join (c : Dev nD) :
    iprop((∃ d, owns (c : Thread nD τ) scM1_0 fullShare d) ∗ others1 c ∗ (∃ r, prngReg c r)) ⊢ (Pipeline.ΦA spec1 c : sProp 𝕄) := by
  unfold Pipeline.ΦA others1; rw [scopedRest1_eq]; simp only [scM1_0, owns_whole]
  iintro ⟨HS, ⟨H1, H2, H3, H4, H5⟩, Hg⟩
  isplitr [Hg]
  · isplitl [H1]; · iexact H1
    isplitl [H2]; · iexact H2
    isplitl [H3]; · iexact H3
    isplitl [H4]; · iexact H4
    isplitl [H5]; · iexact H5
    iexact HS
  iexact Hg

end Cert.Kernel.Hand

end
-- ==== Proof.K.R1RunA.lean ====
import proofs.«429504_j11716670784252_3_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE FIRST POINT (first branch taken, second not). What the body's stores leave in the scratch column, as pieces
    (last first), with the proof that on whole memrefs — the two inputs' at their contents, the output's at contents
    handed back untouched, the scratch column at anything — the body runs to the continuation holding the inputs and
    the output as they were and the scratch column with its pieces written. The pieces are the witness the run finds. -/
noncomputable def kernelRun1_A (c : Dev nD) (i : grid1.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : cond1_0 i) (hc1 : ¬cond1_1 i)
    (x0 : Vec F S2048x64 .f32) (x1 : Vec F S1000x64 .f32) :
    Σ' (L2 : List (View.Piece (Elt F) S2048x1 .f32)), { LS0 : List (View.Piece (Elt F) S2048x1 .f32) //
      ∀ (xi2 : Vec F S2048x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__ttl_kernel i arg1 harg1 arg2 harg2 arg3 harg3 arg4 harg4) K } := by
  refine ⟨[], ?_, fun xi2 E K => ?run⟩
  case run =>
    simp only [cc1__ttl_kernel_eq_skeleton]; unfold cc1__ttl_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Hand

end
-- ==== Proof.K.R1RunB.lean ====
import proofs.«429504_j11716670784252_3_alg».proof.Proof.K.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A MIDDLE POINT (neither branch taken). As at the first point, but the scratch column comes in at the contents the
    point before left. -/
noncomputable def kernelRun1_B (c : Dev nD) (i : grid1.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : ¬cond1_1 i)
    (x0 : Vec F S2048x64 .f32) (x1 : Vec F S1000x64 .f32) (xs0 : Vec F S2048x1 .f32) :
    Σ' (L2 : List (View.Piece (Elt F) S2048x1 .f32)), { LS0 : List (View.Piece (Elt F) S2048x1 .f32) //
      ∀ (xi2 : Vec F S2048x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__ttl_kernel i arg1 harg1 arg2 harg2 arg3 harg3 arg4 harg4) K } := by
  refine ⟨[], ?_, fun xi2 E K => ?run⟩
  case run =>
    simp only [cc1__ttl_kernel_eq_skeleton]; unfold cc1__ttl_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Hand

end
-- ==== Proof.K.R1RunC.lean ====
import proofs.«429504_j11716670784252_3_alg».proof.Proof.K.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE LAST POINT (second branch only). The scratch column comes in at what the point before left; the output's
    buffer, at anything, ends with the pieces the run finds written. -/
noncomputable def kernelRun1_C (c : Dev nD) (i : grid1.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : cond1_1 i)
    (x0 : Vec F S2048x64 .f32) (x1 : Vec F S1000x64 .f32) (xs0 : Vec F S2048x1 .f32) :
    Σ' (L2 : List (View.Piece (Elt F) S2048x1 .f32)), { LS0 : List (View.Piece (Elt F) S2048x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc1__ttl_kernel i arg1 harg1 arg2 harg2 arg3 harg3 arg4 harg4) K } := by
  refine ⟨?_, ?_, fun E K => ?run⟩
  case run =>
    simp only [cc1__ttl_kernel_eq_skeleton]; unfold cc1__ttl_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Hand

end
-- ==== Proof.K.R1Frame.lean ====
import proofs.«429504_j11716670784252_3_alg».proof.Proof.K.R1RunC
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: what the body leaves, point by point, and the pipeline's proof data -/

/-- The running sum the kernel keeps in its scratch, after the body at point n. -/
def accAt1 (c : Dev nD) : (n : ℕ) → n < cfg1.N → Vec F S2048x1 .f32
  | 0, h => k1_pay2 (iblk1 V c 1 ⟨0, h⟩) (iblk1 V c 0 ⟨0, h⟩) (k1_pay1 (F := F))
  | n + 1, h => k1_pay2 (iblk1 V c 1 ⟨n + 1, h⟩) (iblk1 V c 0 ⟨n + 1, h⟩) (accAt1 c n (Nat.lt_of_succ_lt h))

/-- At the first point the body stores nothing into the output's buffer: a placeholder nothing consults (the window
    is idle there and not written back). -/
def out1_A_2 (c : Dev nD) (i : grid1.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : cond1_0 i) (hc1 : ¬cond1_1 i)
    (x0 : Vec F S2048x64 .f32) (x1 : Vec F S1000x64 .f32) : Vec F S2048x1 .f32 :=
  VO1_2.read (Elt F) (VO1_2.writes (Elt F) VO1_2.junk (kernelRun1_A c i arg1 harg1 arg2 harg2 arg3 harg3 arg4 harg4 hc0 hc1 x0 x1).1)

/-- The first point's pieces for the scratch column cover it. -/
theorem scover1_A_0 (c : Dev nD) (i : grid1.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : cond1_0 i) (hc1 : ¬cond1_1 i)
    (x0 : Vec F S2048x64 .f32) (x1 : Vec F S1000x64 .f32) (y : S2048x1.Idx) :
    ∃ pc ∈ (kernelRun1_A c i arg1 harg1 arg2 harg2 arg3 harg3 arg4 harg4 hc0 hc1 x0 x1).2.1, y ∈ pc.1.set :=
  View.cover_of_tiledL (kernelRun1_A c i arg1 harg1 arg2 harg2 arg3 harg3 arg4 harg4 hc0 hc1 x0 x1).2.1 S2048x1.size (by sl_kernel_rfl) y

/-- What the first point leaves in the scratch column: its pieces read back. -/
def sout1_A_0 (c : Dev nD) (i : grid1.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : cond1_0 i) (hc1 : ¬cond1_1 i)
    (x0 : Vec F S2048x64 .f32) (x1 : Vec F S1000x64 .f32) : Vec F S2048x1 .f32 :=
  VS1_0.read (Elt F) (VS1_0.writes (Elt F) VS1_0.junk (kernelRun1_A c i arg1 harg1 arg2 harg2 arg3 harg3 arg4 harg4 hc0 hc1 x0 x1).2.1)

/-- At a middle point the body stores nothing into the output's buffer either. -/
def out1_B_2 (c : Dev nD) (i : grid1.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : ¬cond1_1 i)
    (x0 : Vec F S2048x64 .f32) (x1 : Vec F S1000x64 .f32) (xs0 : Vec F S2048x1 .f32) : Vec F S2048x1 .f32 :=
  VO1_2.read (Elt F) (VO1_2.writes (Elt F) VO1_2.junk (kernelRun1_B c i arg1 harg1 arg2 harg2 arg3 harg3 arg4 harg4 hc0 hc1 x0 x1 xs0).1)

/-- A middle point's pieces for the scratch column cover it. -/
theorem scover1_B_0 (c : Dev nD) (i : grid1.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : ¬cond1_1 i)
    (x0 : Vec F S2048x64 .f32) (x1 : Vec F S1000x64 .f32) (xs0 : Vec F S2048x1 .f32) (y : S2048x1.Idx) :
    ∃ pc ∈ (kernelRun1_B c i arg1 harg1 arg2 harg2 arg3 harg3 arg4 harg4 hc0 hc1 x0 x1 xs0).2.1, y ∈ pc.1.set :=
  View.cover_of_tiledL (kernelRun1_B c i arg1 harg1 arg2 harg2 arg3 harg3 arg4 harg4 hc0 hc1 x0 x1 xs0).2.1 S2048x1.size (by sl_kernel_rfl) y

/-- What a middle point leaves in the scratch column. -/
def sout1_B_0 (c : Dev nD) (i : grid1.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : ¬cond1_1 i)
    (x0 : Vec F S2048x64 .f32) (x1 : Vec F S1000x64 .f32) (xs0 : Vec F S2048x1 .f32) : Vec F S2048x1 .f32 :=
  VS1_0.read (Elt F) (VS1_0.writes (Elt F) VS1_0.junk (kernelRun1_B c i arg1 harg1 arg2 harg2 arg3 harg3 arg4 harg4 hc0 hc1 x0 x1 xs0).2.1)

/-- The last point's store into the output's buffer covers it. -/
theorem cover1_C_2 (c : Dev nD) (i : grid1.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : cond1_1 i)
    (x0 : Vec F S2048x64 .f32) (x1 : Vec F S1000x64 .f32) (xs0 : Vec F S2048x1 .f32) (y : S2048x1.Idx) :
    ∃ pc ∈ (kernelRun1_C c i arg1 harg1 arg2 harg2 arg3 harg3 arg4 harg4 hc0 hc1 x0 x1 xs0).1, y ∈ pc.1.set :=
  View.cover_of_tiledL (kernelRun1_C c i arg1 harg1 arg2 harg2 arg3 harg3 arg4 harg4 hc0 hc1 x0 x1 xs0).1 S2048x1.size (by sl_kernel_rfl) y

/-- What the last point leaves in the output's buffer. -/
def out1_C_2 (c : Dev nD) (i : grid1.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : cond1_1 i)
    (x0 : Vec F S2048x64 .f32) (x1 : Vec F S1000x64 .f32) (xs0 : Vec F S2048x1 .f32) : Vec F S2048x1 .f32 :=
  VO1_2.read (Elt F) (VO1_2.writes (Elt F) VO1_2.junk (kernelRun1_C c i arg1 harg1 arg2 harg2 arg3 harg3 arg4 harg4 hc0 hc1 x0 x1 xs0).1)

/-- The last point's pieces for the scratch column cover it. -/
theorem scover1_C_0 (c : Dev nD) (i : grid1.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : cond1_1 i)
    (x0 : Vec F S2048x64 .f32) (x1 : Vec F S1000x64 .f32) (xs0 : Vec F S2048x1 .f32) (y : S2048x1.Idx) :
    ∃ pc ∈ (kernelRun1_C c i arg1 harg1 arg2 harg2 arg3 harg3 arg4 harg4 hc0 hc1 x0 x1 xs0).2.1, y ∈ pc.1.set :=
  View.cover_of_tiledL (kernelRun1_C c i arg1 harg1 arg2 harg2 arg3 harg3 arg4 harg4 hc0 hc1 x0 x1 xs0).2.1 S2048x1.size (by sl_kernel_rfl) y

/-- What the last point leaves in the scratch column. -/
def sout1_C_0 (c : Dev nD) (i : grid1.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : cond1_1 i)
    (x0 : Vec F S2048x64 .f32) (x1 : Vec F S1000x64 .f32) (xs0 : Vec F S2048x1 .f32) : Vec F S2048x1 .f32 :=
  VS1_0.read (Elt F) (VS1_0.writes (Elt F) VS1_0.junk (kernelRun1_C c i arg1 harg1 arg2 harg2 arg3 harg3 arg4 harg4 hc0 hc1 x0 x1 xs0).2.1)

/-! ## Which case a point is in -/

theorem isA1 (t : Fin cfg1.N) (hz : t.val = 0) : cond1_0 (grid1.coords t) ∧ ¬cond1_1 (grid1.coords t) :=
  ⟨(hcond1_0 t).mpr (by omega), fun h => by have := (hcond1_1 t).mp h; omega⟩
theorem isB1 (t : Fin cfg1.N) (hz : t.val ≠ 0) (hl : t.val ≠ 49) : ¬cond1_0 (grid1.coords t) ∧ ¬cond1_1 (grid1.coords t) := by
  have hN : t.val < 50 := lt_of_lt_of_eq t.isLt (show cfg1.N = 50 from N_1)
  exact ⟨fun h => by have := (hcond1_0 t).mp h; omega, fun h => by have := (hcond1_1 t).mp h; omega⟩
theorem isC1 (t : Fin cfg1.N) (hl : t.val = 49) : ¬cond1_0 (grid1.coords t) ∧ cond1_1 (grid1.coords t) :=
  ⟨fun h => by have := (hcond1_0 t).mp h; omega, (hcond1_1 t).mpr (by omega)⟩

/-! ## What the output's buffer and the scratch column hold after each point -/

/-- After the body at position n: the output's buffer and the scratch column (a pair). The first point runs over a
    scratch column at anything; every later point over what the point before left in it. -/
def outsAt1 (c : Dev nD) : (n : ℕ) → n < cfg1.N → Vec F S2048x1 .f32 × Vec F S2048x1 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) (isA1 ⟨0, hn⟩ rfl).1 (isA1 ⟨0, hn⟩ rfl).2 (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) (isA1 ⟨0, hn⟩ rfl).1 (isA1 ⟨0, hn⟩ rfl).2 (iblk1 V c 0 ⟨0, hn⟩) (iblk1 V c 1 ⟨0, hn⟩))
  | n + 1, hn =>
    if hl : n + 1 = 49 then
      (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (isC1 ⟨n + 1, hn⟩ hl).1 (isC1 ⟨n + 1, hn⟩ hl).2 (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (isC1 ⟨n + 1, hn⟩ hl).1 (isC1 ⟨n + 1, hn⟩ hl).2 (iblk1 V c 0 ⟨n + 1, hn⟩) (iblk1 V c 1 ⟨n + 1, hn⟩) (outsAt1 c n (Nat.lt_of_succ_lt hn)).2)
    else
      (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (isB1 ⟨n + 1, hn⟩ (Nat.succ_ne_zero n) hl).1 (isB1 ⟨n + 1, hn⟩ (Nat.succ_ne_zero n) hl).2 (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (isB1 ⟨n + 1, hn⟩ (Nat.succ_ne_zero n) hl).1 (isB1 ⟨n + 1, hn⟩ (Nat.succ_ne_zero n) hl).2 (iblk1 V c 0 ⟨n + 1, hn⟩) (iblk1 V c 1 ⟨n + 1, hn⟩) (outsAt1 c n (Nat.lt_of_succ_lt hn)).2)

/-- At the first point. -/
theorem outsAt1_A (c : Dev nD) (t : Fin cfg1.N) (hz : t.val = 0) :
    outsAt1 V c t.val t.isLt = (out1_A_2 c (grid1.coords t) (ms1_0 t) (hs1_0 t) (ms1_1 t) (hs1_1 t) (ms1_2 t) (hs1_2 t) scM1_0 (Memref.isWhole_whole _) (isA1 t hz).1 (isA1 t hz).2 (iblk1 V c 0 t) (iblk1 V c 1 t), sout1_A_0 c (grid1.coords t) (ms1_0 t) (hs1_0 t) (ms1_1 t) (hs1_1 t) (ms1_2 t) (hs1_2 t) scM1_0 (Memref.isWhole_whole _) (isA1 t hz).1 (isA1 t hz).2 (iblk1 V c 0 t) (iblk1 V c 1 t)) := by
  obtain ⟨n, hn⟩ := t
  cases n with
  | zero => rfl
  | succ n => exact absurd hz (Nat.succ_ne_zero n)

/-- At a middle point: over what the point before left. -/
theorem outsAt1_B (c : Dev nD) (t : Fin cfg1.N) (hz : t.val ≠ 0) (hl : t.val ≠ 49) :
    outsAt1 V c t.val t.isLt = (out1_B_2 c (grid1.coords t) (ms1_0 t) (hs1_0 t) (ms1_1 t) (hs1_1 t) (ms1_2 t) (hs1_2 t) scM1_0 (Memref.isWhole_whole _) (isB1 t hz hl).1 (isB1 t hz hl).2 (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (isB1 t hz hl).1 (isB1 t hz hl).2 (iblk1 V c 0 t) (iblk1 V c 1 t) (outsAt1 V c (t.val - 1) (Nat.lt_of_le_of_lt (Nat.sub_le _ _) t.isLt)).2) := by
  obtain ⟨n, hn⟩ := t
  cases n with
  | zero => exact absurd rfl hz
  | succ n => exact (dif_neg hl).trans rfl

/-- At the last point: over what the point before left. -/
theorem outsAt1_C (c : Dev nD) (t : Fin cfg1.N) (hl : t.val = 49) :
    outsAt1 V c t.val t.isLt = (out1_C_2 c (grid1.coords t) (ms1_0 t) (hs1_0 t) (ms1_1 t) (hs1_1 t) (ms1_2 t) (hs1_2 t) scM1_0 (Memref.isWhole_whole _) (isC1 t hl).1 (isC1 t hl).2 (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (isC1 t hl).1 (isC1 t hl).2 (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at hl); omega)
  | succ n => exact (dif_pos hl).trans rfl

/-! ## The region's invariant -/

/-- Before position n: at the first point what the region is handed; afterwards the scratch column at what the point
    before left in it, the other scoped buffers at anything and the generator register at some state. -/
def PhiS1 (c : Dev nD) : (n : ℕ) → n ≤ cfg1.N → sProp 𝕄
  | 0, _ => Pipeline.ΦA spec1 c
  | n + 1, hn => iprop(owns (c : Thread nD τ) scM1_0 fullShare ((outsAt1 V c n hn).2) ∗ others1 c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare ((outsAt1 V c n hn).2) ∗ others1 c ∗ (∃ r, prngReg c r)) := rfl

theorem PhiS1_pos (c : Dev nD) (n : ℕ) (h : n ≤ cfg1.N) (hz : n ≠ 0) :
    PhiS1 V c n h = iprop(owns (c : Thread nD τ) scM1_0 fullShare ((outsAt1 V c (n - 1) (by omega)).2) ∗ others1 c ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the point's position says which of the three runs
    applies; the invariant hands the body the scratch column (at anything at the first point, else at what the point
    before left) and takes it back at this point's contents; the other scoped buffers, the generator register and what
    the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 50 := lt_of_lt_of_eq t.isLt (show cfg1.N = 50 from N_1)
  by_cases hz : t.val = 0
  · rw [Dat.leavesExact_idle (dat1 V c) 2 t (idleAt1_2_A t (isA1 t hz).1 (isA1 t hz).2) (noFlush1_2_A t (isA1 t hz).1 (isA1 t hz).2)]
    rw [outsAt1_A V c t hz]
    unfold sout1_A_0; (try dsimp only)
    rw [PhiS1_castSucc V c t, PhiS1_zero V c _ _ hz]
    iintro ⟨HΦ, Ho, ⟨%d0, H0⟩, ⟨%d1, H1⟩, ⟨%d2, H2⟩⟩
    ihave HΦ' := (PhiA1_split c) $$ HΦ
    icases HΦ' with ⟨HS0, Hoth, Hg⟩
    iapply ((kernelRun1_A c (grid1.coords t) _ _ _ _ _ _ _ _ (isA1 t hz).1 (isA1 t hz).2 (iblk1 V c 0 t) (iblk1 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hoth Hg]
    · isplitl [HS0]
      · unfold owns; iexists _; isplitr
        swap; · iexact HS0
        ipureintro; exact View.read_writes_of_cover _ _ _ _ _ (scover1_A_0 c _ _ _ _ _ _ _ _ _ _ _ _ _)
      isplitl [Hoth]; · iexact Hoth
      iexact Hg
    isplitl [Ho]; · iexact Ho
    isplitl [H0]; · iexact H0
    isplitl [H1]; · iexact H1
    iexists _; iexact H2
  · by_cases hl : t.val = 49
    · rw [show (dat1 V c).leavesExact 2 t = owns (c : Thread nD τ) (ms1_2 t) fullShare ((dat1 V c).after 2 t) from by
        unfold Dat.leavesExact; rw [liveAt1_2_C t (isC1 t hl).1 (isC1 t hl).2], after1_2]
      rw [outsAt1_C V c t hl]
      unfold out1_C_2 sout1_C_0; (try dsimp only)
      rw [PhiS1_castSucc V c t, PhiS1_pos V c _ _ hz]
      iintro ⟨⟨HS0, Hoth, Hg⟩, Ho, ⟨%d0, H0⟩, ⟨%d1, H1⟩, ⟨%d2, H2⟩⟩
      iapply ((kernelRun1_C c (grid1.coords t) _ _ _ _ _ _ _ _ (isC1 t hl).1 (isC1 t hl).2 (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0]
        · unfold owns; iexists _; isplitr
          swap; · iexact HS0
          ipureintro; exact View.read_writes_of_cover _ _ _ _ _ (scover1_C_0 c _ _ _ _ _ _ _ _ _ _ _ _ _ _)
        isplitl [Hoth]; · iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2_B t (isB1 t hz hl).1 (isB1 t hz hl).2) (noFlush1_2_B t (isB1 t hz hl).1 (isB1 t hz hl).2)]
      rw [outsAt1_B V c t hz hl]
      unfold sout1_B_0; (try dsimp only)
      rw [PhiS1_castSucc V c t, PhiS1_pos V c _ _ hz]
      iintro ⟨⟨HS0, Hoth, Hg⟩, Ho, ⟨%d0, H0⟩, ⟨%d1, H1⟩, ⟨%d2, H2⟩⟩
      iapply ((kernelRun1_B c (grid1.coords t) _ _ _ _ _ _ _ _ (isB1 t hz hl).1 (isB1 t hz hl).2 (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scover1_B_0 c _ _ _ _ _ _ _ _ _ _ _ _ _ _)
        isplitl [Hoth]; · iexact Hoth
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the region was handed: the scratch column's named
    contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht]
  iintro ⟨HS0, Hoth, Hg⟩
  iapply (PhiA1_join c)
  isplitl [HS0]
  · iexists _; iexact HS0
  isplitl [Hoth]; · iexact Hoth
  iexact Hg

theorem hout1 (c : Dev nD) : (dat1 V c).Φ (Fin.last cfg1.N) ⊢ (Pipeline.ΦA spec1 c : sProp 𝕄) :=
  Phi_out1 V c _ (by rw [Fin.val_last]; have : cfg1.N = 50 := N_1; omega)

theorem share1 (c : Dev nD) (w : Fin cfg1.W) : (dat1 V c).q w = fullShare := rfl

theorem recorded1 (c : Dev nD) (t : Fin (cfg1.N + 1)) : (dat1 V c).recorded t = Set.univ := rfl

theorem owed1 (c : Dev nD) (t : Fin (cfg1.N + 1)) : (dat1 V c).owed t = 0 := rfl

/-! ## The values the three runs leave -/

theorem hz1 : (![0, 0] : Fin 2 → Nat) = fun _ => 0 := funext fun a => by fin_cases a <;> rfl

/-- A middle point leaves in the scratch column the running column it found plus the tile's contribution. -/
theorem sout1_B_eq (c : Dev nD) (i : grid1.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : ¬cond1_1 i)
    (x0 : Vec F S2048x64 .f32) (x1 : Vec F S1000x64 .f32) (xs0 : Vec F S2048x1 .f32) :
    sout1_B_0 c i arg1 harg1 arg2 harg2 arg3 harg3 arg4 harg4 hc0 hc1 x0 x1 xs0 = k1_pay2 x1 x0 xs0 := by
  unfold sout1_B_0
  rw [View.read_writes_eq_canon _ _ _ (scover1_B_0 c i arg1 harg1 arg2 harg2 arg3 harg3 arg4 harg4 hc0 hc1 x0 x1 xs0)]
  unfold kernelRun1_B
  dsimp only
  sl_unfold_words
  rw [View.canon_unit_zero hz1]
  simp only [View.readAt_eq_ld, harg1.read_unread, harg2.read_unread, harg4.read_unread, View.ld_unit_zero (S := S2048x64) hz1, View.ld_unit_zero (S := S1000x64) hz1, View.ld_unit_zero (S := S2048x1) hz1]

/-- The first point leaves the first tile's contribution over the zero column. -/
theorem sout1_A_eq (c : Dev nD) (i : grid1.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : cond1_0 i) (hc1 : ¬cond1_1 i)
    (x0 : Vec F S2048x64 .f32) (x1 : Vec F S1000x64 .f32) :
    sout1_A_0 c i arg1 harg1 arg2 harg2 arg3 harg3 arg4 harg4 hc0 hc1 x0 x1 = k1_pay2 x1 x0 (k1_pay1 (F := F)) := by
  unfold sout1_A_0
  rw [View.read_writes_eq_canon _ _ _ (scover1_A_0 c i arg1 harg1 arg2 harg2 arg3 harg3 arg4 harg4 hc0 hc1 x0 x1)]
  unfold kernelRun1_A
  dsimp only
  sl_unfold_words
  rw [View.canon_cons_unit_zero (S := S2048x1) hz1, View.readCov_unit_zero (S := S2048x1) _ hz1]
  simp only [View.readAt_eq_ld, harg1.read_unread, harg2.read_unread, View.ld_unit_zero (S := S2048x64) hz1, View.ld_unit_zero (S := S1000x64) hz1]

/-- The last point leaves the same in the scratch column as a middle point does, -/
theorem sout1_C_eq (c : Dev nD) (i : grid1.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : cond1_1 i)
    (x0 : Vec F S2048x64 .f32) (x1 : Vec F S1000x64 .f32) (xs0 : Vec F S2048x1 .f32) :
    sout1_C_0 c i arg1 harg1 arg2 harg2 arg3 harg3 arg4 harg4 hc0 hc1 x0 x1 xs0 = k1_pay2 x1 x0 xs0 := by
  unfold sout1_C_0
  rw [View.read_writes_eq_canon _ _ _ (scover1_C_0 c i arg1 harg1 arg2 harg2 arg3 harg3 arg4 harg4 hc0 hc1 x0 x1 xs0)]
  unfold kernelRun1_C
  dsimp only
  sl_unfold_words
  rw [View.canon_unit_zero hz1]
  simp only [View.readAt_eq_ld, harg1.read_unread, harg2.read_unread, harg4.read_unread, View.ld_unit_zero (S := S2048x64) hz1, View.ld_unit_zero (S := S1000x64) hz1, View.ld_unit_zero (S := S2048x1) hz1]

/-- and stores that column into the output's buffer. -/
theorem out1_C_eq (c : Dev nD) (i : grid1.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : cond1_1 i)
    (x0 : Vec F S2048x64 .f32) (x1 : Vec F S1000x64 .f32) (xs0 : Vec F S2048x1 .f32) :
    out1_C_2 c i arg1 harg1 arg2 harg2 arg3 harg3 arg4 harg4 hc0 hc1 x0 x1 xs0 = k1_pay2 x1 x0 xs0 := by
  unfold out1_C_2
  rw [View.read_writes_eq_canon _ _ _ (cover1_C_2 c i arg1 harg1 arg2 harg2 arg3 harg3 arg4 harg4 hc0 hc1 x0 x1 xs0)]
  unfold kernelRun1_C
  dsimp only
  sl_unfold_words
  rw [View.canon_unit_zero hz1, View.readCov_unit_zero (S := S2048x1) _ hz1]
  simp only [View.readAt_eq_ld, harg1.read_unread, harg2.read_unread, harg4.read_unread, View.ld_unit_zero (S := S2048x64) hz1, View.ld_unit_zero (S := S1000x64) hz1, View.ld_unit_zero (S := S2048x1) hz1]

/-! ## The running sum, point by point -/

/-- The scratch column after the body at position n is the running sum there: by induction on the position. -/
theorem outsAt1_acc (c : Dev nD) : ∀ (n : ℕ) (h : n < cfg1.N), (outsAt1 V c n h).2 = accAt1 V c n h
  | 0, h => by
    rw [outsAt1_A V c ⟨0, h⟩ rfl]; dsimp only; rw [sout1_A_eq]; rfl
  | n + 1, h => by
    by_cases hl : n + 1 = 49
    · rw [outsAt1_C V c ⟨n + 1, h⟩ hl]; dsimp only; rw [sout1_C_eq]
      show k1_pay2 _ _ (outsAt1 V c n _).2 = k1_pay2 _ _ (accAt1 V c n _)
      rw [outsAt1_acc c n]
    · rw [outsAt1_B V c ⟨n + 1, h⟩ (Nat.succ_ne_zero n) hl]; dsimp only; rw [sout1_B_eq]
      show k1_pay2 _ _ (outsAt1 V c n _).2 = k1_pay2 _ _ (accAt1 V c n _)
      rw [outsAt1_acc c n]

/-- At the last point the output's buffer is left holding what the scratch column holds. -/
theorem outsAt1_last (c : Dev nD) (t : Fin cfg1.N) (hl : t.val = 49) :
    (outsAt1 V c t.val t.isLt).1 = (outsAt1 V c t.val t.isLt).2 := by
  rw [outsAt1_C V c t hl]; dsimp only; rw [out1_C_eq, sout1_C_eq]

/-! ## The arrays after the region -/

/-- The last point of the grid, the one that writes the output back. -/
abbrev tLast1 : Fin cfg1.N := ⟨49, by rw [show cfg1.N = 50 from N_1]; omega⟩

/-- The one write-back, at the last point, writes the running sum: the output's one block read through zero offsets
    is the whole array. -/
theorem flushed1_eq (c : Dev nD) (t : Fin cfg1.N) (hf : (cfg1.win 2).flush t = true) :
    (dat1 V c).flushed 2 t = ((cfg1.win 2).blk t).view.read (Elt F) (accAt1 V c 49 tLast1.isLt) := by
  have hN : cfg1.N = 50 := N_1
  have h49 : t.val = 49 := by have := (flush1_2 t).mp hf; have := t.isLt; omega
  obtain rfl : t = tLast1 := Fin.ext h49
  show (cfg1.win 2).cut (grid1.coords tLast1) ((dat1 V c).after 2 tLast1) = _
  rw [after1_2, outsAt1_last V c tLast1 rfl, outsAt1_acc]
  have hz' : (fun a => win1_2.index tLast1 a * (Pipeline.arrRef spec1 2).ty.shape.size a) = fun _ => 0 := funext fun a => by fin_cases a <;> decide
  exact (Memref.read_access_unit_zero (Elt F) (Pipeline.arrRef spec1 2) hz' (fun a => by rw [congrFun hz' a]; simp) (accAt1 V c 49 tLast1.isLt)).symm

/-- The output array after the region: the running sum after the last point. -/
theorem arrAt1_out (c : Dev nD) : (dat1 V c).arrAt 2 cfg1.N = accAt1 V c 49 (by rw [show cfg1.N = 50 from N_1]; omega) :=
  (dat1 V c).arrAt_eq_of_cover 2 (accAt1 V c 49 tLast1.isLt) (flushed1_eq V c) fun i =>
    ⟨tLast1, (flush1_2 tLast1).mpr rfl, by
      show i ∈ ((View.whole (Pipeline.arrRef spec1 2)).slice (win1_2.rect tLast1)).set
      rw [View.set_slice_whole, Rect.mem_set_unit]
      intro a
      have h0 : (i 0 : Nat) < 2048 := (i 0).isLt
      have h1 : (i 1 : Nat) < 1 := (i 1).isLt
      match a with
      | ⟨0, _⟩ => show win1_2.index tLast1 0 * win1_2.size 0 ≤ (i 0 : Nat) ∧ (i 0 : Nat) < win1_2.index tLast1 0 * win1_2.size 0 + win1_2.xsize (grid1.coords tLast1) 0
                  rw [show win1_2.index tLast1 0 * win1_2.size 0 = 0 from by decide +kernel, show win1_2.xsize (grid1.coords tLast1) 0 = 2048 from by decide +kernel]; omega
      | ⟨1, _⟩ => show win1_2.index tLast1 1 * win1_2.size 1 ≤ (i 1 : Nat) ∧ (i 1 : Nat) < win1_2.index tLast1 1 * win1_2.size 1 + win1_2.xsize (grid1.coords tLast1) 1
                  rw [show win1_2.index tLast1 1 * win1_2.size 1 = 0 from by decide +kernel, show win1_2.xsize (grid1.coords tLast1) 1 = 1 from by decide +kernel]; omega⟩

/-- Input arrays are left as found. -/
theorem arrAt1_in0 (c : Dev nD) : (dat1 V c).arrAt 0 cfg1.N = V c (Pipeline.arrRef spec1 0) :=
  ((dat1 V c).arrAt_in 0 rfl _).trans (A_eq1 V c 0)
theorem arrAt1_in1 (c : Dev nD) : (dat1 V c).arrAt 1 cfg1.N = V c (Pipeline.arrRef spec1 1) :=
  ((dat1 V c).arrAt_in 1 rfl _).trans (A_eq1 V c 1)

end Cert.Kernel.Hand

end
-- ==== Proof.K.Run.lean ====
import proofs.«429504_j11716670784252_3_alg».proof.Proof.K.R0Frame
import proofs.«429504_j11716670784252_3_alg».proof.Proof.K.R1Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: a host stretch, region 0, a host stretch, region 1, a host stretch

## The buffer contents at each boundary -/

/-- Core `c`'s buffers at launch. -/
abbrev W0 : Dev nD → Valuation τ sig (Elt F) := fun c b => (s₀ m ρ).mem ((c : Dev nD), b)
/-- After the first host stretch: what region 0 is entered from. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- At region 0's exit: its three arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: what region 1 is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its three arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch: the contents @main returns with. -/
abbrev W5 : Dev nD → Valuation τ sig (Elt F) := fun c => StableHlo.after hostOps2 (W4 m ρ c)

/-! ## What the host stretches write

Each stretch's written references, listed; a reference outside the list keeps its contents through the stretch. -/

/-- The references `hostOps0`'s operations write. -/
abbrev hostOps0_W : List (Ref sig .tc) := [main_v0, main_v1, main_c, main_v2, main_v3, main_c_0, main_v4, main_v5, main_v6, main_v7, main_v8, main_v9, main_v10, main_cst, main_v11, main_v12, main_v13, main_v14, main_c_1, main_v15, main_v16, main_c_2, main_v17, main_v18, main_v19, main_v20, main_v21, main_v22, main_v23, main_cst_3, main_v24, main_v25, main_v26, main_v27, main_cst_4, main_v28, main_v29, main_v30, main_cst_5, main_v31, main_v32, main_v33, main_v34, main_v35, main_v36, main_c_6, main_v37, main_v38, main_c_7, main_v39, main_v40, main_v41, main_v42, main_v43, main_v44, main_cst_8, main_v45, main_v46, main_v47, main_cst_9, main_v48, main_v49, main_v50, main_v51, main_c_10, main_v52, main_v53, main_c_11, main_v54, main_v55, main_v56, main_v57, main_v58, main_v59, main_cst_12, main_v60, main_v61, main_v62, main_cst_13, main_v63, main_v64, main_v65, main_v66, main_v67, main_cst_14, main_v68, main_cst_15, main_v69, main_v70, main_v71]
set_option maxHeartbeats 4000000 in
theorem hostOps0_writes : (hostOps0 : List (HloOp τ sig (Elt F))).Forall fun op => op.writes ⊆ (hostOps0_W.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1`'s operations write. -/
abbrev hostOps1_W : List (Ref sig .tc) := [main_v73, main_v74, main_v75, main_cst_16, main_v76, main_v77, main_c_17, main_v78, main_v79, main_c_18, main_v80, main_v81, main_v82, main_v83, main_v84, main_v85, main_cst_19, main_v86, main_v87, main_v88, main_cst_20, main_v89, main_v90, main_v91, main_v92, main_c_21, main_v93, main_v94, main_c_22, main_v95, main_v96, main_v97, main_v98, main_v99, main_v100, main_cst_23, main_v101, main_v102, main_v103, main_cst_24, main_v104, main_v105, main_v106, main_v107, main_v108, main_cst_25, main_v109, main_cst_26, main_v110, main_v111, main_v112]
set_option maxHeartbeats 4000000 in
theorem hostOps1_writes : (hostOps1 : List (HloOp τ sig (Elt F))).Forall fun op => op.writes ⊆ (hostOps1_W.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps2`'s operations write. -/
abbrev hostOps2_W : List (Ref sig .tc) := [main_v114, main_v115, main_v116, main_cst_27, main_v117, main_v118, main_v119, main_cst_28, main_v120]
theorem hostOps2_writes : (hostOps2 : List (HloOp τ sig (Elt F))).Forall fun op => op.writes ⊆ (hostOps2_W.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-! ## The arguments end as launched: no host stretch writes one, and none is an array of either region -/

theorem W5_main_arg0 (c : Dev nD) : W5 m ρ c (Proc.devRef .tc main_arg0) = m ((c : Thread nD τ).loc main_arg0) :=
  (W5_of m ρ c main_arg0 (by decide)).trans <| (W4_of_ne m ρ c main_arg0 (by decide)).trans <|
    (W3_of m ρ c main_arg0 (by decide)).trans <| (W2_of_ne m ρ c main_arg0 (by decide)).trans <|
    (W1_of m ρ c main_arg0 (by decide)).trans rfl

theorem W5_main_arg1 (c : Dev nD) : W5 m ρ c (Proc.devRef .tc main_arg1) = m ((c : Thread nD τ).loc main_arg1) :=
  (W5_of m ρ c main_arg1 (by decide)).trans <| (W4_of_ne m ρ c main_arg1 (by decide)).trans <|
    (W3_of m ρ c main_arg1 (by decide)).trans <| (W2_of_ne m ρ c main_arg1 (by decide)).trans <|
    (W1_of m ρ c main_arg1 (by decide)).trans rfl

theorem W5_main_arg2 (c : Dev nD) : W5 m ρ c (Proc.devRef .tc main_arg2) = m ((c : Thread nD τ).loc main_arg2) :=
  (W5_of m ρ c main_arg2 (by decide)).trans <| (W4_of_ne m ρ c main_arg2 (by decide)).trans <|
    (W3_of m ρ c main_arg2 (by decide)).trans <| (W2_of_ne m ρ c main_arg2 (by decide)).trans <|
    (W1_of m ρ c main_arg2 (by decide)).trans rfl

theorem W5_main_arg3 (c : Dev nD) : W5 m ρ c (Proc.devRef .tc main_arg3) = m ((c : Thread nD τ).loc main_arg3) :=
  (W5_of m ρ c main_arg3 (by decide)).trans <| (W4_of_ne m ρ c main_arg3 (by decide)).trans <|
    (W3_of m ρ c main_arg3 (by decide)).trans <| (W2_of_ne m ρ c main_arg3 (by decide)).trans <|
    (W1_of m ρ c main_arg3 (by decide)).trans rfl

theorem W5_main_arg4 (c : Dev nD) : W5 m ρ c (Proc.devRef .tc main_arg4) = m ((c : Thread nD τ).loc main_arg4) :=
  (W5_of m ρ c main_arg4 (by decide)).trans <| (W4_of_ne m ρ c main_arg4 (by decide)).trans <|
    (W3_of m ρ c main_arg4 (by decide)).trans <| (W2_of_ne m ρ c main_arg4 (by decide)).trans <|
    (W1_of m ρ c main_arg4 (by decide)).trans rfl

theorem W5_main_arg5 (c : Dev nD) : W5 m ρ c (Proc.devRef .tc main_arg5) = m ((c : Thread nD τ).loc main_arg5) :=
  (W5_of m ρ c main_arg5 (by decide)).trans <| (W4_of_ne m ρ c main_arg5 (by decide)).trans <|
    (W3_of m ρ c main_arg5 (by decide)).trans <| (W2_of_ne m ρ c main_arg5 (by decide)).trans <|
    (W1_of m ρ c main_arg5 (by decide)).trans rfl

theorem W5_main_arg6 (c : Dev nD) : W5 m ρ c (Proc.devRef .tc main_arg6) = m ((c : Thread nD τ).loc main_arg6) :=
  (W5_of m ρ c main_arg6 (by decide)).trans <| (W4_of_ne m ρ c main_arg6 (by decide)).trans <|
    (W3_of m ρ c main_arg6 (by decide)).trans <| (W2_of_ne m ρ c main_arg6 (by decide)).trans <|
    (W1_of m ρ c main_arg6 (by decide)).trans rfl

theorem W5_main_arg7 (c : Dev nD) : W5 m ρ c (Proc.devRef .tc main_arg7) = m ((c : Thread nD τ).loc main_arg7) :=
  (W5_of m ρ c main_arg7 (by decide)).trans <| (W4_of_ne m ρ c main_arg7 (by decide)).trans <|
    (W3_of m ρ c main_arg7 (by decide)).trans <| (W2_of_ne m ρ c main_arg7 (by decide)).trans <|
    (W1_of m ρ c main_arg7 (by decide)).trans rfl

theorem W5_main_arg8 (c : Dev nD) : W5 m ρ c (Proc.devRef .tc main_arg8) = m ((c : Thread nD τ).loc main_arg8) :=
  (W5_of m ρ c main_arg8 (by decide)).trans <| (W4_of_ne m ρ c main_arg8 (by decide)).trans <|
    (W3_of m ρ c main_arg8 (by decide)).trans <| (W2_of_ne m ρ c main_arg8 (by decide)).trans <|
    (W1_of m ρ c main_arg8 (by decide)).trans rfl

theorem W5_main_arg9 (c : Dev nD) : W5 m ρ c (Proc.devRef .tc main_arg9) = m ((c : Thread nD τ).loc main_arg9) :=
  (W5_of m ρ c main_arg9 (by decide)).trans <| (W4_of_ne m ρ c main_arg9 (by decide)).trans <|
    (W3_of m ρ c main_arg9 (by decide)).trans <| (W2_of_ne m ρ c main_arg9 (by decide)).trans <|
    (W1_of m ρ c main_arg9 (by decide)).trans rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
/-- No operation of `hostOps0` allocates a buffer. -/
theorem hostOps0_fresh : (hostOps0 : List (HloOp τ sig (Elt F))).Forall fun op => op.fresh = ∅ := by
  simp only [List.Forall]; repeat' constructor
set_option maxHeartbeats 4000000 in
/-- No operation of `hostOps1` allocates a buffer. -/
theorem hostOps1_fresh : (hostOps1 : List (HloOp τ sig (Elt F))).Forall fun op => op.fresh = ∅ := by
  simp only [List.Forall]; repeat' constructor
/-- No operation of `hostOps2` allocates a buffer. -/
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents `W5`, the generator
    register at some state. -/
abbrev Tₙ (c : Dev nD) : sProp 𝕄 := iprop(StableHlo.held (c : Thread nD τ) (Pipeline.ucRefs τ sig) (W5 m ρ c) ∗ ∃ r, prngReg c r)

/-! ## The regions as segments -/

-- the library's lemmas over a pinned configuration unify with the printed one only when unification may unfold
-- plain definitions in a metavariable's type
set_option backward.isDefEq.respectTransparency.types false in
/-- Region 0 over the thread state: entered from every unscoped buffer at `W1`, left at `W2`. Its arrays are
    split out of the unscoped buffers at entry and put back at the exit contents; the generator register goes into the
    pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun c t => owed0 (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full (share0 (V1 m ρ) c)) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 0 c).owed 0 = 0 from owed0 (V1 m ρ) c 0]
      icases HO with ⟨%W, HO⟩; iexists W; isplitr
      · ipureintro; exact fun x _ => Or.inl ((recorded0 (V1 m ρ) c 0).symm ▸ Set.mem_univ x)
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full (share0 (V1 m ρ) c))
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 0 c).owed (Fin.last _) = 0 from owed0 (V1 m ρ) c _]
    icases HO with ⟨%W, -, HO⟩; iexists W; iexact HO

-- the library's lemmas over a pinned configuration unify with the printed one only when unification may unfold
-- plain definitions in a metavariable's type
set_option backward.isDefEq.respectTransparency.types false in
/-- Region 1 over the thread state: entered from every unscoped buffer at `W3`, left at `W4`. Its arrays are
    split out of the unscoped buffers at entry and put back at the exit contents; the generator register goes into the
    pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun c t => owed1 (V3 m ρ) c t
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full (share1 (V3 m ρ) c)) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 1 c).owed 0 = 0 from owed1 (V3 m ρ) c 0]
      icases HO with ⟨%W, HO⟩; iexists W; isplitr
      · ipureintro; exact fun x _ => Or.inl ((recorded1 (V3 m ρ) c 0).symm ▸ Set.mem_univ x)
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full (share1 (V3 m ρ) c))
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 1 c).owed (Fin.last _) = 0 from owed1 (V3 m ρ) c _]
    icases HO with ⟨%W, -, HO⟩; iexists W; iexact HO

/-! ## @main as segments, and the launch -/

/-- @main's five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main is the run of the segments. -/
theorem main_run (c : Dev nD) : main (F := F) c = Pipeline.Seg.run (segs m ρ) := (main_chain c).trans (by chain_rfl)

/-- The last host segment's post is the last thread state beside the core owing nothing: reassociation. -/
theorem last_chain (c : Dev nD) :
    iprop(StableHlo.held (c : Thread nD τ) (Pipeline.ucRefs τ sig) (W5 m ρ c) ∗ R (F := F) c)
      ⊢ iprop(Tₙ m ρ c ∗ ∃ W, owes (c : Thread nD τ) (0 : CellTallies nD τ sig Unit) W) := by
  iintro ⟨Hh, Hp, HO⟩
  isplitl [Hh Hp]
  · isplitl [Hh] <;> iassumption
  iexact HO

set_option backward.isDefEq.respectTransparency.types false in
/-- THE RUN with its whole final valuation: from any memory with zero counters, every weakly fair execution of @main
    terminates, nothing faulting, and every final state has every unscoped buffer of every core at `W5`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => last_chain m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h => h)

/-- THE FRAME: at any `F`, from any memory with zero counters, every weakly fair execution of @main terminates,
    nothing faulting, and every final state has the ten argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  OrdCont.mono (θ_run defs (onTc (τ := τ) (main (F := F))) ⟨m, fun _ => 0, ρ⟩) (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c)⟩) (run_all m ρ)

end Cert.Kernel.Hand

end
-- ==== Proof.KI.R0Runs.lean ====
import proofs.«429504_j11716670784252_3_alg».proof.Proof.Gen.KernelIdeal.Launch
import proofs.«429504_j11716670784252_3_alg».proof.Proof.Gen.KernelIdeal.Skeleton
import proofs.«429504_j11716670784252_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what its three whole-body runs share -/

section Blocks

variable (V : (c : Dev nD) → (b : Ref sig .tc) → Buf (Elt F) ((c : Thread nD τ).loc b))

/-- Window w's block at point t of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The buffer of the first input (the query rows) holds its block at every point, though it is fetched at the
    first point only: the block index never moves. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The current buffer of the second input (the table's tile) holds the point's tile: it is fetched at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The body's two conditions, in closed form over the grid -/

/-- The body's first branch: taken when the grid coordinate is zero (the running column is reset there). -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 50 = 0 :=
  (by decide +kernel : ∀ t : Fin grid0.N, cond0_0 (grid0.coords t) ↔ t.val % 50 = 0)

/-- The body's second branch: taken at the last grid coordinate (the running column is stored to the output there). -/
abbrev cond0_1 (i : grid0.Coords) : Prop := k0_cond2 i = 1#1
theorem hcond0_1 : ∀ t : Fin cfg0.N, cond0_1 (grid0.coords t) ↔ t.val % 50 = 49 :=
  (by decide +kernel : ∀ t : Fin grid0.N, cond0_1 (grid0.coords t) ↔ t.val % 50 = 49)

/-! ## Where the windows are idle -/

/-- The inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- At the first point the output is idle and not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- At the middle points likewise. -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- At the last point the output is live: the body stores into it. -/
theorem liveAt0_2_C : ∀ t : Fin cfg0.N, ¬cond0_0 (grid0.coords t) → cond0_1 (grid0.coords t) → cfg0.idle 2 (grid0.coords t) = false := by decide +kernel

/-! ## The memrefs the body is called with -/

/-- One staging buffer of the output window, through which its contents are stated. -/
abbrev VO0_2 : View sig .tc .vmem S2048x1 .f32 := (Memref.whole cc0_stg2_0 : Memref sig .tc .vmem S2048x1 .f32).view
/-- Each window's current staging memref at point t, as the pipeline passes it, and its wholeness. -/
abbrev ms0_0 (t : Fin cfg0.N) : Memref sig .tc .vmem S2048x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1 .f32 := win0_2.stage (cfg0.slots t 2)
abbrev hs0_2 (t : Fin cfg0.N) : (ms0_2 t).IsWhole := hstage0_2 ((cfg0.slots t 2).cast nbuf0_2)
/-- The scratch column: a whole scoped buffer of the kernel's own. -/
abbrev scM0_0 : Memref sig .tc .vmem S2048x1 .f32 := Memref.whole cc0_scratch0
abbrev VS0_0 : View sig .tc .vmem S2048x1 .f32 := scM0_0.view

/-! ## The region's invariant, the scratch column apart -/

/-- The core's other scoped buffers that are no staging buffer of this region, each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f))

/-- The class's invariant hands out the scratch column at some contents, the other scoped buffers and the
    generator register. -/
theorem PhiA0_split (c : Dev nD) :
    (Pipeline.ΦA spec0 c : sProp 𝕄) ⊢ iprop((∃ d, owns (c : Thread nD τ) scM0_0 fullShare d) ∗ others0 c ∗ (∃ r, prngReg c r)) := by
  unfold Pipeline.ΦA others0; rw [scopedRest0_eq]; simp only [scM0_0, owns_whole]
  iintro ⟨⟨HS, Hrest⟩, Hg⟩
  isplitl [HS]; · iexact HS
  isplitl [Hrest]; · iexact Hrest
  iexact Hg

/-- And takes them back. -/
theorem PhiA0_join (c : Dev nD) :
    iprop((∃ d, owns (c : Thread nD τ) scM0_0 fullShare d) ∗ others0 c ∗ (∃ r, prngReg c r)) ⊢ (Pipeline.ΦA spec0 c : sProp 𝕄) := by
  unfold Pipeline.ΦA others0; rw [scopedRest0_eq]; simp only [scM0_0, owns_whole]
  iintro ⟨HS, Hrest, Hg⟩
  isplitr [Hg]
  · isplitl [HS]; · iexact HS
    iexact Hrest
  iexact Hg

end Cert.KernelIdeal.Hand

end
-- ==== Proof.KI.R0RunA.lean ====
import proofs.«429504_j11716670784252_3_alg».proof.Proof.KI.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE FIRST POINT (first branch taken, second not). What the body's stores leave in the scratch column, as pieces
    (last first), with the proof that on whole memrefs — the two inputs' at their contents, the output's at contents
    handed back untouched, the scratch column at anything — the body runs to the continuation holding the inputs and
    the output as they were and the scratch column with its pieces written. The pieces are the witness the run finds. -/
noncomputable def kernelRun0_A (c : Dev nD) (i : grid0.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i)
    (x0 : Vec F S2048x64 .f32) (x1 : Vec F S1000x64 .f32) :
    Σ' (L2 : List (View.Piece (Elt F) S2048x1 .f32)), { LS0 : List (View.Piece (Elt F) S2048x1 .f32) //
      ∀ (xi2 : Vec F S2048x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__ttl_kernel i arg1 harg1 arg2 harg2 arg3 harg3 arg4 harg4) K } := by
  refine ⟨[], ?_, fun xi2 E K => ?run⟩
  case run =>
    simp only [cc0__ttl_kernel_eq_skeleton]; unfold cc0__ttl_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Hand

end
-- ==== Proof.KI.R0RunB.lean ====
import proofs.«429504_j11716670784252_3_alg».proof.Proof.KI.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A MIDDLE POINT (neither branch taken). As at the first point, but the scratch column comes in at the contents the
    point before left. -/
noncomputable def kernelRun0_B (c : Dev nD) (i : grid0.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i)
    (x0 : Vec F S2048x64 .f32) (x1 : Vec F S1000x64 .f32) (xs0 : Vec F S2048x1 .f32) :
    Σ' (L2 : List (View.Piece (Elt F) S2048x1 .f32)), { LS0 : List (View.Piece (Elt F) S2048x1 .f32) //
      ∀ (xi2 : Vec F S2048x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__ttl_kernel i arg1 harg1 arg2 harg2 arg3 harg3 arg4 harg4) K } := by
  refine ⟨[], ?_, fun xi2 E K => ?run⟩
  case run =>
    simp only [cc0__ttl_kernel_eq_skeleton]; unfold cc0__ttl_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Hand

end
-- ==== Proof.KI.R0RunC.lean ====
import proofs.«429504_j11716670784252_3_alg».proof.Proof.KI.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE LAST POINT (second branch only). The scratch column comes in at what the point before left; the output's
    buffer, at anything, ends with the pieces the run finds written. -/
noncomputable def kernelRun0_C (c : Dev nD) (i : grid0.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x64 .f32) (x1 : Vec F S1000x64 .f32) (xs0 : Vec F S2048x1 .f32) :
    Σ' (L2 : List (View.Piece (Elt F) S2048x1 .f32)), { LS0 : List (View.Piece (Elt F) S2048x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__ttl_kernel i arg1 harg1 arg2 harg2 arg3 harg3 arg4 harg4) K } := by
  refine ⟨?_, ?_, fun E K => ?run⟩
  case run =>
    simp only [cc0__ttl_kernel_eq_skeleton]; unfold cc0__ttl_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Hand

end
-- ==== Proof.KI.R0Frame.lean ====
import proofs.«429504_j11716670784252_3_alg».proof.Proof.KI.R0RunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: what the body leaves, point by point, and the pipeline's proof data -/

/-- The running sum the kernel keeps in its scratch, after the body at point n. -/
def accAt0 (c : Dev nD) : (n : ℕ) → n < cfg0.N → Vec F S2048x1 .f32
  | 0, h => k0_pay2 (iblk0 V c 1 ⟨0, h⟩) (iblk0 V c 0 ⟨0, h⟩) (k0_pay1 (F := F))
  | n + 1, h => k0_pay2 (iblk0 V c 1 ⟨n + 1, h⟩) (iblk0 V c 0 ⟨n + 1, h⟩) (accAt0 c n (Nat.lt_of_succ_lt h))

/-- At the first point the body stores nothing into the output's buffer: a placeholder nothing consults (the window
    is idle there and not written back). -/
def out0_A_2 (c : Dev nD) (i : grid0.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i)
    (x0 : Vec F S2048x64 .f32) (x1 : Vec F S1000x64 .f32) : Vec F S2048x1 .f32 :=
  VO0_2.read (Elt F) (VO0_2.writes (Elt F) VO0_2.junk (kernelRun0_A c i arg1 harg1 arg2 harg2 arg3 harg3 arg4 harg4 hc0 hc1 x0 x1).1)

/-- The first point's pieces for the scratch column cover it. -/
theorem scover0_A_0 (c : Dev nD) (i : grid0.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i)
    (x0 : Vec F S2048x64 .f32) (x1 : Vec F S1000x64 .f32) (y : S2048x1.Idx) :
    ∃ pc ∈ (kernelRun0_A c i arg1 harg1 arg2 harg2 arg3 harg3 arg4 harg4 hc0 hc1 x0 x1).2.1, y ∈ pc.1.set :=
  View.cover_of_tiledL (kernelRun0_A c i arg1 harg1 arg2 harg2 arg3 harg3 arg4 harg4 hc0 hc1 x0 x1).2.1 S2048x1.size (by sl_kernel_rfl) y

/-- What the first point leaves in the scratch column: its pieces read back. -/
def sout0_A_0 (c : Dev nD) (i : grid0.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i)
    (x0 : Vec F S2048x64 .f32) (x1 : Vec F S1000x64 .f32) : Vec F S2048x1 .f32 :=
  VS0_0.read (Elt F) (VS0_0.writes (Elt F) VS0_0.junk (kernelRun0_A c i arg1 harg1 arg2 harg2 arg3 harg3 arg4 harg4 hc0 hc1 x0 x1).2.1)

/-- At a middle point the body stores nothing into the output's buffer either. -/
def out0_B_2 (c : Dev nD) (i : grid0.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i)
    (x0 : Vec F S2048x64 .f32) (x1 : Vec F S1000x64 .f32) (xs0 : Vec F S2048x1 .f32) : Vec F S2048x1 .f32 :=
  VO0_2.read (Elt F) (VO0_2.writes (Elt F) VO0_2.junk (kernelRun0_B c i arg1 harg1 arg2 harg2 arg3 harg3 arg4 harg4 hc0 hc1 x0 x1 xs0).1)

/-- A middle point's pieces for the scratch column cover it. -/
theorem scover0_B_0 (c : Dev nD) (i : grid0.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i)
    (x0 : Vec F S2048x64 .f32) (x1 : Vec F S1000x64 .f32) (xs0 : Vec F S2048x1 .f32) (y : S2048x1.Idx) :
    ∃ pc ∈ (kernelRun0_B c i arg1 harg1 arg2 harg2 arg3 harg3 arg4 harg4 hc0 hc1 x0 x1 xs0).2.1, y ∈ pc.1.set :=
  View.cover_of_tiledL (kernelRun0_B c i arg1 harg1 arg2 harg2 arg3 harg3 arg4 harg4 hc0 hc1 x0 x1 xs0).2.1 S2048x1.size (by sl_kernel_rfl) y

/-- What a middle point leaves in the scratch column. -/
def sout0_B_0 (c : Dev nD) (i : grid0.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i)
    (x0 : Vec F S2048x64 .f32) (x1 : Vec F S1000x64 .f32) (xs0 : Vec F S2048x1 .f32) : Vec F S2048x1 .f32 :=
  VS0_0.read (Elt F) (VS0_0.writes (Elt F) VS0_0.junk (kernelRun0_B c i arg1 harg1 arg2 harg2 arg3 harg3 arg4 harg4 hc0 hc1 x0 x1 xs0).2.1)

/-- The last point's store into the output's buffer covers it. -/
theorem cover0_C_2 (c : Dev nD) (i : grid0.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x64 .f32) (x1 : Vec F S1000x64 .f32) (xs0 : Vec F S2048x1 .f32) (y : S2048x1.Idx) :
    ∃ pc ∈ (kernelRun0_C c i arg1 harg1 arg2 harg2 arg3 harg3 arg4 harg4 hc0 hc1 x0 x1 xs0).1, y ∈ pc.1.set :=
  View.cover_of_tiledL (kernelRun0_C c i arg1 harg1 arg2 harg2 arg3 harg3 arg4 harg4 hc0 hc1 x0 x1 xs0).1 S2048x1.size (by sl_kernel_rfl) y

/-- What the last point leaves in the output's buffer. -/
def out0_C_2 (c : Dev nD) (i : grid0.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x64 .f32) (x1 : Vec F S1000x64 .f32) (xs0 : Vec F S2048x1 .f32) : Vec F S2048x1 .f32 :=
  VO0_2.read (Elt F) (VO0_2.writes (Elt F) VO0_2.junk (kernelRun0_C c i arg1 harg1 arg2 harg2 arg3 harg3 arg4 harg4 hc0 hc1 x0 x1 xs0).1)

/-- The last point's pieces for the scratch column cover it. -/
theorem scover0_C_0 (c : Dev nD) (i : grid0.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x64 .f32) (x1 : Vec F S1000x64 .f32) (xs0 : Vec F S2048x1 .f32) (y : S2048x1.Idx) :
    ∃ pc ∈ (kernelRun0_C c i arg1 harg1 arg2 harg2 arg3 harg3 arg4 harg4 hc0 hc1 x0 x1 xs0).2.1, y ∈ pc.1.set :=
  View.cover_of_tiledL (kernelRun0_C c i arg1 harg1 arg2 harg2 arg3 harg3 arg4 harg4 hc0 hc1 x0 x1 xs0).2.1 S2048x1.size (by sl_kernel_rfl) y

/-- What the last point leaves in the scratch column. -/
def sout0_C_0 (c : Dev nD) (i : grid0.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x64 .f32) (x1 : Vec F S1000x64 .f32) (xs0 : Vec F S2048x1 .f32) : Vec F S2048x1 .f32 :=
  VS0_0.read (Elt F) (VS0_0.writes (Elt F) VS0_0.junk (kernelRun0_C c i arg1 harg1 arg2 harg2 arg3 harg3 arg4 harg4 hc0 hc1 x0 x1 xs0).2.1)

/-! ## Which case a point is in -/

theorem isA0 (t : Fin cfg0.N) (hz : t.val = 0) : cond0_0 (grid0.coords t) ∧ ¬cond0_1 (grid0.coords t) :=
  ⟨(hcond0_0 t).mpr (by omega), fun h => by have := (hcond0_1 t).mp h; omega⟩
theorem isB0 (t : Fin cfg0.N) (hz : t.val ≠ 0) (hl : t.val ≠ 49) : ¬cond0_0 (grid0.coords t) ∧ ¬cond0_1 (grid0.coords t) := by
  have hN : t.val < 50 := lt_of_lt_of_eq t.isLt (show cfg0.N = 50 from N_0)
  exact ⟨fun h => by have := (hcond0_0 t).mp h; omega, fun h => by have := (hcond0_1 t).mp h; omega⟩
theorem isC0 (t : Fin cfg0.N) (hl : t.val = 49) : ¬cond0_0 (grid0.coords t) ∧ cond0_1 (grid0.coords t) :=
  ⟨fun h => by have := (hcond0_0 t).mp h; omega, (hcond0_1 t).mpr (by omega)⟩

/-! ## What the output's buffer and the scratch column hold after each point -/

/-- After the body at position n: the output's buffer and the scratch column (a pair). The first point runs over a
    scratch column at anything; every later point over what the point before left in it. -/
def outsAt0 (c : Dev nD) : (n : ℕ) → n < cfg0.N → Vec F S2048x1 .f32 × Vec F S2048x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) (isA0 ⟨0, hn⟩ rfl).1 (isA0 ⟨0, hn⟩ rfl).2 (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) (isA0 ⟨0, hn⟩ rfl).1 (isA0 ⟨0, hn⟩ rfl).2 (iblk0 V c 0 ⟨0, hn⟩) (iblk0 V c 1 ⟨0, hn⟩))
  | n + 1, hn =>
    if hl : n + 1 = 49 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (isC0 ⟨n + 1, hn⟩ hl).1 (isC0 ⟨n + 1, hn⟩ hl).2 (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (isC0 ⟨n + 1, hn⟩ hl).1 (isC0 ⟨n + 1, hn⟩ hl).2 (iblk0 V c 0 ⟨n + 1, hn⟩) (iblk0 V c 1 ⟨n + 1, hn⟩) (outsAt0 c n (Nat.lt_of_succ_lt hn)).2)
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (isB0 ⟨n + 1, hn⟩ (Nat.succ_ne_zero n) hl).1 (isB0 ⟨n + 1, hn⟩ (Nat.succ_ne_zero n) hl).2 (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (isB0 ⟨n + 1, hn⟩ (Nat.succ_ne_zero n) hl).1 (isB0 ⟨n + 1, hn⟩ (Nat.succ_ne_zero n) hl).2 (iblk0 V c 0 ⟨n + 1, hn⟩) (iblk0 V c 1 ⟨n + 1, hn⟩) (outsAt0 c n (Nat.lt_of_succ_lt hn)).2)

/-- At the first point. -/
theorem outsAt0_A (c : Dev nD) (t : Fin cfg0.N) (hz : t.val = 0) :
    outsAt0 V c t.val t.isLt = (out0_A_2 c (grid0.coords t) (ms0_0 t) (hs0_0 t) (ms0_1 t) (hs0_1 t) (ms0_2 t) (hs0_2 t) scM0_0 (Memref.isWhole_whole _) (isA0 t hz).1 (isA0 t hz).2 (iblk0 V c 0 t) (iblk0 V c 1 t), sout0_A_0 c (grid0.coords t) (ms0_0 t) (hs0_0 t) (ms0_1 t) (hs0_1 t) (ms0_2 t) (hs0_2 t) scM0_0 (Memref.isWhole_whole _) (isA0 t hz).1 (isA0 t hz).2 (iblk0 V c 0 t) (iblk0 V c 1 t)) := by
  obtain ⟨n, hn⟩ := t
  cases n with
  | zero => rfl
  | succ n => exact absurd hz (Nat.succ_ne_zero n)

/-- At a middle point: over what the point before left. -/
theorem outsAt0_B (c : Dev nD) (t : Fin cfg0.N) (hz : t.val ≠ 0) (hl : t.val ≠ 49) :
    outsAt0 V c t.val t.isLt = (out0_B_2 c (grid0.coords t) (ms0_0 t) (hs0_0 t) (ms0_1 t) (hs0_1 t) (ms0_2 t) (hs0_2 t) scM0_0 (Memref.isWhole_whole _) (isB0 t hz hl).1 (isB0 t hz hl).2 (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (isB0 t hz hl).1 (isB0 t hz hl).2 (iblk0 V c 0 t) (iblk0 V c 1 t) (outsAt0 V c (t.val - 1) (Nat.lt_of_le_of_lt (Nat.sub_le _ _) t.isLt)).2) := by
  obtain ⟨n, hn⟩ := t
  cases n with
  | zero => exact absurd rfl hz
  | succ n => exact (dif_neg hl).trans rfl

/-- At the last point: over what the point before left. -/
theorem outsAt0_C (c : Dev nD) (t : Fin cfg0.N) (hl : t.val = 49) :
    outsAt0 V c t.val t.isLt = (out0_C_2 c (grid0.coords t) (ms0_0 t) (hs0_0 t) (ms0_1 t) (hs0_1 t) (ms0_2 t) (hs0_2 t) scM0_0 (Memref.isWhole_whole _) (isC0 t hl).1 (isC0 t hl).2 (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (isC0 t hl).1 (isC0 t hl).2 (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at hl); omega)
  | succ n => exact (dif_pos hl).trans rfl

/-! ## The region's invariant -/

/-- Before position n: at the first point what the region is handed; afterwards the scratch column at what the point
    before left in it, the other scoped buffers at anything and the generator register at some state. -/
def PhiS0 (c : Dev nD) : (n : ℕ) → n ≤ cfg0.N → sProp 𝕄
  | 0, _ => Pipeline.ΦA spec0 c
  | n + 1, hn => iprop(owns (c : Thread nD τ) scM0_0 fullShare ((outsAt0 V c n hn).2) ∗ others0 c ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0_0 fullShare ((outsAt0 V c n hn).2) ∗ others0 c ∗ (∃ r, prngReg c r)) := rfl

theorem PhiS0_pos (c : Dev nD) (n : ℕ) (h : n ≤ cfg0.N) (hz : n ≠ 0) :
    PhiS0 V c n h = iprop(owns (c : Thread nD τ) scM0_0 fullShare ((outsAt0 V c (n - 1) (by omega)).2) ∗ others0 c ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' buffers hold their blocks; the point's position says which of the three runs
    applies; the invariant hands the body the scratch column (at anything at the first point, else at what the point
    before left) and takes it back at this point's contents; the other scoped buffers, the generator register and what
    the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 50 := lt_of_lt_of_eq t.isLt (show cfg0.N = 50 from N_0)
  by_cases hz : t.val = 0
  · rw [Dat.leavesExact_idle (dat0 V c) 2 t (idleAt0_2_A t (isA0 t hz).1 (isA0 t hz).2) (noFlush0_2_A t (isA0 t hz).1 (isA0 t hz).2)]
    rw [outsAt0_A V c t hz]
    unfold sout0_A_0; (try dsimp only)
    rw [PhiS0_castSucc V c t, PhiS0_zero V c _ _ hz]
    iintro ⟨HΦ, Ho, ⟨%d0, H0⟩, ⟨%d1, H1⟩, ⟨%d2, H2⟩⟩
    ihave HΦ' := (PhiA0_split c) $$ HΦ
    icases HΦ' with ⟨HS0, Hoth, Hg⟩
    iapply ((kernelRun0_A c (grid0.coords t) _ _ _ _ _ _ _ _ (isA0 t hz).1 (isA0 t hz).2 (iblk0 V c 0 t) (iblk0 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hoth Hg]
    · isplitl [HS0]
      · unfold owns; iexists _; isplitr
        swap; · iexact HS0
        ipureintro; exact View.read_writes_of_cover _ _ _ _ _ (scover0_A_0 c _ _ _ _ _ _ _ _ _ _ _ _ _)
      isplitl [Hoth]; · iexact Hoth
      iexact Hg
    isplitl [Ho]; · iexact Ho
    isplitl [H0]; · iexact H0
    isplitl [H1]; · iexact H1
    iexists _; iexact H2
  · by_cases hl : t.val = 49
    · rw [show (dat0 V c).leavesExact 2 t = owns (c : Thread nD τ) (ms0_2 t) fullShare ((dat0 V c).after 2 t) from by
        unfold Dat.leavesExact; rw [liveAt0_2_C t (isC0 t hl).1 (isC0 t hl).2], after0_2]
      rw [outsAt0_C V c t hl]
      unfold out0_C_2 sout0_C_0; (try dsimp only)
      rw [PhiS0_castSucc V c t, PhiS0_pos V c _ _ hz]
      iintro ⟨⟨HS0, Hoth, Hg⟩, Ho, ⟨%d0, H0⟩, ⟨%d1, H1⟩, ⟨%d2, H2⟩⟩
      iapply ((kernelRun0_C c (grid0.coords t) _ _ _ _ _ _ _ _ (isC0 t hl).1 (isC0 t hl).2 (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0]
        · unfold owns; iexists _; isplitr
          swap; · iexact HS0
          ipureintro; exact View.read_writes_of_cover _ _ _ _ _ (scover0_C_0 c _ _ _ _ _ _ _ _ _ _ _ _ _ _)
        isplitl [Hoth]; · iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2_B t (isB0 t hz hl).1 (isB0 t hz hl).2) (noFlush0_2_B t (isB0 t hz hl).1 (isB0 t hz hl).2)]
      rw [outsAt0_B V c t hz hl]
      unfold sout0_B_0; (try dsimp only)
      rw [PhiS0_castSucc V c t, PhiS0_pos V c _ _ hz]
      iintro ⟨⟨HS0, Hoth, Hg⟩, Ho, ⟨%d0, H0⟩, ⟨%d1, H1⟩, ⟨%d2, H2⟩⟩
      iapply ((kernelRun0_B c (grid0.coords t) _ _ _ _ _ _ _ _ (isB0 t hz hl).1 (isB0 t hz hl).2 (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scover0_B_0 c _ _ _ _ _ _ _ _ _ _ _ _ _ _)
        isplitl [Hoth]; · iexact Hoth
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives back what the region was handed: the scratch column's named
    contents are forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht]
  iintro ⟨HS0, Hoth, Hg⟩
  iapply (PhiA0_join c)
  isplitl [HS0]
  · iexists _; iexact HS0
  isplitl [Hoth]; · iexact Hoth
  iexact Hg

theorem hout0 (c : Dev nD) : (dat0 V c).Φ (Fin.last cfg0.N) ⊢ (Pipeline.ΦA spec0 c : sProp 𝕄) :=
  Phi_out0 V c _ (by rw [Fin.val_last]; have : cfg0.N = 50 := N_0; omega)

theorem share0 (c : Dev nD) (w : Fin cfg0.W) : (dat0 V c).q w = fullShare := rfl

theorem recorded0 (c : Dev nD) (t : Fin (cfg0.N + 1)) : (dat0 V c).recorded t = Set.univ := rfl

theorem owed0 (c : Dev nD) (t : Fin (cfg0.N + 1)) : (dat0 V c).owed t = 0 := rfl

/-! ## The values the three runs leave -/

theorem hz0 : (![0, 0] : Fin 2 → Nat) = fun _ => 0 := funext fun a => by fin_cases a <;> rfl

/-- A middle point leaves in the scratch column the running column it found plus the tile's contribution. -/
theorem sout0_B_eq (c : Dev nD) (i : grid0.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : ¬cond0_1 i)
    (x0 : Vec F S2048x64 .f32) (x1 : Vec F S1000x64 .f32) (xs0 : Vec F S2048x1 .f32) :
    sout0_B_0 c i arg1 harg1 arg2 harg2 arg3 harg3 arg4 harg4 hc0 hc1 x0 x1 xs0 = k0_pay2 x1 x0 xs0 := by
  unfold sout0_B_0
  rw [View.read_writes_eq_canon _ _ _ (scover0_B_0 c i arg1 harg1 arg2 harg2 arg3 harg3 arg4 harg4 hc0 hc1 x0 x1 xs0)]
  unfold kernelRun0_B
  dsimp only
  sl_unfold_words
  rw [View.canon_unit_zero hz0]
  simp only [View.readAt_eq_ld, harg1.read_unread, harg2.read_unread, harg4.read_unread, View.ld_unit_zero (S := S2048x64) hz0, View.ld_unit_zero (S := S1000x64) hz0, View.ld_unit_zero (S := S2048x1) hz0]

/-- The first point leaves the first tile's contribution over the zero column. -/
theorem sout0_A_eq (c : Dev nD) (i : grid0.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : cond0_0 i) (hc1 : ¬cond0_1 i)
    (x0 : Vec F S2048x64 .f32) (x1 : Vec F S1000x64 .f32) :
    sout0_A_0 c i arg1 harg1 arg2 harg2 arg3 harg3 arg4 harg4 hc0 hc1 x0 x1 = k0_pay2 x1 x0 (k0_pay1 (F := F)) := by
  unfold sout0_A_0
  rw [View.read_writes_eq_canon _ _ _ (scover0_A_0 c i arg1 harg1 arg2 harg2 arg3 harg3 arg4 harg4 hc0 hc1 x0 x1)]
  unfold kernelRun0_A
  dsimp only
  sl_unfold_words
  rw [View.canon_cons_unit_zero (S := S2048x1) hz0, View.readCov_unit_zero (S := S2048x1) _ hz0]
  simp only [View.readAt_eq_ld, harg1.read_unread, harg2.read_unread, View.ld_unit_zero (S := S2048x64) hz0, View.ld_unit_zero (S := S1000x64) hz0]

/-- The last point leaves the same in the scratch column as a middle point does, -/
theorem sout0_C_eq (c : Dev nD) (i : grid0.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x64 .f32) (x1 : Vec F S1000x64 .f32) (xs0 : Vec F S2048x1 .f32) :
    sout0_C_0 c i arg1 harg1 arg2 harg2 arg3 harg3 arg4 harg4 hc0 hc1 x0 x1 xs0 = k0_pay2 x1 x0 xs0 := by
  unfold sout0_C_0
  rw [View.read_writes_eq_canon _ _ _ (scover0_C_0 c i arg1 harg1 arg2 harg2 arg3 harg3 arg4 harg4 hc0 hc1 x0 x1 xs0)]
  unfold kernelRun0_C
  dsimp only
  sl_unfold_words
  rw [View.canon_unit_zero hz0]
  simp only [View.readAt_eq_ld, harg1.read_unread, harg2.read_unread, harg4.read_unread, View.ld_unit_zero (S := S2048x64) hz0, View.ld_unit_zero (S := S1000x64) hz0, View.ld_unit_zero (S := S2048x1) hz0]

/-- and stores that column into the output's buffer. -/
theorem out0_C_eq (c : Dev nD) (i : grid0.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond0_0 i) (hc1 : cond0_1 i)
    (x0 : Vec F S2048x64 .f32) (x1 : Vec F S1000x64 .f32) (xs0 : Vec F S2048x1 .f32) :
    out0_C_2 c i arg1 harg1 arg2 harg2 arg3 harg3 arg4 harg4 hc0 hc1 x0 x1 xs0 = k0_pay2 x1 x0 xs0 := by
  unfold out0_C_2
  rw [View.read_writes_eq_canon _ _ _ (cover0_C_2 c i arg1 harg1 arg2 harg2 arg3 harg3 arg4 harg4 hc0 hc1 x0 x1 xs0)]
  unfold kernelRun0_C
  dsimp only
  sl_unfold_words
  rw [View.canon_unit_zero hz0, View.readCov_unit_zero (S := S2048x1) _ hz0]
  simp only [View.readAt_eq_ld, harg1.read_unread, harg2.read_unread, harg4.read_unread, View.ld_unit_zero (S := S2048x64) hz0, View.ld_unit_zero (S := S1000x64) hz0, View.ld_unit_zero (S := S2048x1) hz0]

/-! ## The running sum, point by point -/

/-- The scratch column after the body at position n is the running sum there: by induction on the position. -/
theorem outsAt0_acc (c : Dev nD) : ∀ (n : ℕ) (h : n < cfg0.N), (outsAt0 V c n h).2 = accAt0 V c n h
  | 0, h => by
    rw [outsAt0_A V c ⟨0, h⟩ rfl]; dsimp only; rw [sout0_A_eq]; rfl
  | n + 1, h => by
    by_cases hl : n + 1 = 49
    · rw [outsAt0_C V c ⟨n + 1, h⟩ hl]; dsimp only; rw [sout0_C_eq]
      show k0_pay2 _ _ (outsAt0 V c n _).2 = k0_pay2 _ _ (accAt0 V c n _)
      rw [outsAt0_acc c n]
    · rw [outsAt0_B V c ⟨n + 1, h⟩ (Nat.succ_ne_zero n) hl]; dsimp only; rw [sout0_B_eq]
      show k0_pay2 _ _ (outsAt0 V c n _).2 = k0_pay2 _ _ (accAt0 V c n _)
      rw [outsAt0_acc c n]

/-- At the last point the output's buffer is left holding what the scratch column holds. -/
theorem outsAt0_last (c : Dev nD) (t : Fin cfg0.N) (hl : t.val = 49) :
    (outsAt0 V c t.val t.isLt).1 = (outsAt0 V c t.val t.isLt).2 := by
  rw [outsAt0_C V c t hl]; dsimp only; rw [out0_C_eq, sout0_C_eq]

/-! ## The arrays after the region -/

/-- The last point of the grid, the one that writes the output back. -/
abbrev tLast0 : Fin cfg0.N := ⟨49, by rw [show cfg0.N = 50 from N_0]; omega⟩

/-- The one write-back, at the last point, writes the running sum: the output's one block read through zero offsets
    is the whole array. -/
theorem flushed0_eq (c : Dev nD) (t : Fin cfg0.N) (hf : (cfg0.win 2).flush t = true) :
    (dat0 V c).flushed 2 t = ((cfg0.win 2).blk t).view.read (Elt F) (accAt0 V c 49 tLast0.isLt) := by
  have hN : cfg0.N = 50 := N_0
  have h49 : t.val = 49 := by have := (flush0_2 t).mp hf; have := t.isLt; omega
  obtain rfl : t = tLast0 := Fin.ext h49
  show (cfg0.win 2).cut (grid0.coords tLast0) ((dat0 V c).after 2 tLast0) = _
  rw [after0_2, outsAt0_last V c tLast0 rfl, outsAt0_acc]
  have hz' : (fun a => win0_2.index tLast0 a * (Pipeline.arrRef spec0 2).ty.shape.size a) = fun _ => 0 := funext fun a => by fin_cases a <;> decide
  exact (Memref.read_access_unit_zero (Elt F) (Pipeline.arrRef spec0 2) hz' (fun a => by rw [congrFun hz' a]; simp) (accAt0 V c 49 tLast0.isLt)).symm

/-- The output array after the region: the running sum after the last point. -/
theorem arrAt0_out (c : Dev nD) : (dat0 V c).arrAt 2 cfg0.N = accAt0 V c 49 (by rw [show cfg0.N = 50 from N_0]; omega) :=
  (dat0 V c).arrAt_eq_of_cover 2 (accAt0 V c 49 tLast0.isLt) (flushed0_eq V c) fun i =>
    ⟨tLast0, (flush0_2 tLast0).mpr rfl, by
      show i ∈ ((View.whole (Pipeline.arrRef spec0 2)).slice (win0_2.rect tLast0)).set
      rw [View.set_slice_whole, Rect.mem_set_unit]
      intro a
      have h0 : (i 0 : Nat) < 2048 := (i 0).isLt
      have h1 : (i 1 : Nat) < 1 := (i 1).isLt
      match a with
      | ⟨0, _⟩ => show win0_2.index tLast0 0 * win0_2.size 0 ≤ (i 0 : Nat) ∧ (i 0 : Nat) < win0_2.index tLast0 0 * win0_2.size 0 + win0_2.xsize (grid0.coords tLast0) 0
                  rw [show win0_2.index tLast0 0 * win0_2.size 0 = 0 from by decide +kernel, show win0_2.xsize (grid0.coords tLast0) 0 = 2048 from by decide +kernel]; omega
      | ⟨1, _⟩ => show win0_2.index tLast0 1 * win0_2.size 1 ≤ (i 1 : Nat) ∧ (i 1 : Nat) < win0_2.index tLast0 1 * win0_2.size 1 + win0_2.xsize (grid0.coords tLast0) 1
                  rw [show win0_2.index tLast0 1 * win0_2.size 1 = 0 from by decide +kernel, show win0_2.xsize (grid0.coords tLast0) 1 = 1 from by decide +kernel]; omega⟩

/-- Input arrays are left as found. -/
theorem arrAt0_in0 (c : Dev nD) : (dat0 V c).arrAt 0 cfg0.N = V c (Pipeline.arrRef spec0 0) :=
  ((dat0 V c).arrAt_in 0 rfl _).trans (A_eq0 V c 0)
theorem arrAt0_in1 (c : Dev nD) : (dat0 V c).arrAt 1 cfg0.N = V c (Pipeline.arrRef spec0 1) :=
  ((dat0 V c).arrAt_in 1 rfl _).trans (A_eq0 V c 1)

end Cert.KernelIdeal.Hand

end
-- ==== Proof.KI.R1Runs.lean ====
import proofs.«429504_j11716670784252_3_alg».proof.Proof.Gen.KernelIdeal.Launch
import proofs.«429504_j11716670784252_3_alg».proof.Proof.Gen.KernelIdeal.Skeleton
import proofs.«429504_j11716670784252_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: what its three whole-body runs share -/

section Blocks

variable (V : (c : Dev nD) → (b : Ref sig .tc) → Buf (Elt F) ((c : Thread nD τ).loc b))

/-- Window w's block at point t of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The buffer of the first input (the query rows) holds its block at every point, though it is fetched at the
    first point only: the block index never moves. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The current buffer of the second input (the table's tile) holds the point's tile: it is fetched at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The body's two conditions, in closed form over the grid -/

/-- The body's first branch: taken when the grid coordinate is zero (the running column is reset there). -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 50 = 0 :=
  (by decide +kernel : ∀ t : Fin grid1.N, cond1_0 (grid1.coords t) ↔ t.val % 50 = 0)

/-- The body's second branch: taken at the last grid coordinate (the running column is stored to the output there). -/
abbrev cond1_1 (i : grid1.Coords) : Prop := k1_cond2 i = 1#1
theorem hcond1_1 : ∀ t : Fin cfg1.N, cond1_1 (grid1.coords t) ↔ t.val % 50 = 49 :=
  (by decide +kernel : ∀ t : Fin grid1.N, cond1_1 (grid1.coords t) ↔ t.val % 50 = 49)

/-! ## Where the windows are idle -/

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- At the first point the output is idle and not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
/-- At the middle points likewise. -/
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- At the last point the output is live: the body stores into it. -/
theorem liveAt1_2_C : ∀ t : Fin cfg1.N, ¬cond1_0 (grid1.coords t) → cond1_1 (grid1.coords t) → cfg1.idle 2 (grid1.coords t) = false := by decide +kernel

/-! ## The memrefs the body is called with -/

/-- One staging buffer of the output window, through which its contents are stated. -/
abbrev VO1_2 : View sig .tc .vmem S2048x1 .f32 := (Memref.whole cc1_stg2_0 : Memref sig .tc .vmem S2048x1 .f32).view
/-- Each window's current staging memref at point t, as the pipeline passes it, and its wholeness. -/
abbrev ms1_0 (t : Fin cfg1.N) : Memref sig .tc .vmem S2048x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1000x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
/-- The scratch column: a whole scoped buffer of the kernel's own. -/
abbrev scM1_0 : Memref sig .tc .vmem S2048x1 .f32 := Memref.whole cc1_scratch0
abbrev VS1_0 : View sig .tc .vmem S2048x1 .f32 := scM1_0.view

/-! ## The region's invariant, the scratch column apart -/

/-- The core's other scoped buffers that are no staging buffer of this region, each at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f))

/-- The class's invariant hands out the scratch column at some contents, the other scoped buffers and the
    generator register. -/
theorem PhiA1_split (c : Dev nD) :
    (Pipeline.ΦA spec1 c : sProp 𝕄) ⊢ iprop((∃ d, owns (c : Thread nD τ) scM1_0 fullShare d) ∗ others1 c ∗ (∃ r, prngReg c r)) := by
  unfold Pipeline.ΦA others1; rw [scopedRest1_eq]; simp only [scM1_0, owns_whole]
  iintro ⟨⟨H1, H2, H3, H4, H5, HS⟩, Hg⟩
  isplitl [HS]; · iexact HS
  isplitl [H1 H2 H3 H4 H5]
  · isplitl [H1]; · iexact H1
    isplitl [H2]; · iexact H2
    isplitl [H3]; · iexact H3
    isplitl [H4]; · iexact H4
    iexact H5
  iexact Hg

/-- And takes them back. -/
theorem PhiA1_join (c : Dev nD) :
    iprop((∃ d, owns (c : Thread nD τ) scM1_0 fullShare d) ∗ others1 c ∗ (∃ r, prngReg c r)) ⊢ (Pipeline.ΦA spec1 c : sProp 𝕄) := by
  unfold Pipeline.ΦA others1; rw [scopedRest1_eq]; simp only [scM1_0, owns_whole]
  iintro ⟨HS, ⟨H1, H2, H3, H4, H5⟩, Hg⟩
  isplitr [Hg]
  · isplitl [H1]; · iexact H1
    isplitl [H2]; · iexact H2
    isplitl [H3]; · iexact H3
    isplitl [H4]; · iexact H4
    isplitl [H5]; · iexact H5
    iexact HS
  iexact Hg

end Cert.KernelIdeal.Hand

end
-- ==== Proof.KI.R1RunA.lean ====
import proofs.«429504_j11716670784252_3_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE FIRST POINT (first branch taken, second not). What the body's stores leave in the scratch column, as pieces
    (last first), with the proof that on whole memrefs — the two inputs' at their contents, the output's at contents
    handed back untouched, the scratch column at anything — the body runs to the continuation holding the inputs and
    the output as they were and the scratch column with its pieces written. The pieces are the witness the run finds. -/
noncomputable def kernelRun1_A (c : Dev nD) (i : grid1.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : cond1_0 i) (hc1 : ¬cond1_1 i)
    (x0 : Vec F S2048x64 .f32) (x1 : Vec F S1000x64 .f32) :
    Σ' (L2 : List (View.Piece (Elt F) S2048x1 .f32)), { LS0 : List (View.Piece (Elt F) S2048x1 .f32) //
      ∀ (xi2 : Vec F S2048x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__ttl_kernel i arg1 harg1 arg2 harg2 arg3 harg3 arg4 harg4) K } := by
  refine ⟨[], ?_, fun xi2 E K => ?run⟩
  case run =>
    simp only [cc1__ttl_kernel_eq_skeleton]; unfold cc1__ttl_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Hand

end
-- ==== Proof.KI.R1RunB.lean ====
import proofs.«429504_j11716670784252_3_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A MIDDLE POINT (neither branch taken). As at the first point, but the scratch column comes in at the contents the
    point before left. -/
noncomputable def kernelRun1_B (c : Dev nD) (i : grid1.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : ¬cond1_1 i)
    (x0 : Vec F S2048x64 .f32) (x1 : Vec F S1000x64 .f32) (xs0 : Vec F S2048x1 .f32) :
    Σ' (L2 : List (View.Piece (Elt F) S2048x1 .f32)), { LS0 : List (View.Piece (Elt F) S2048x1 .f32) //
      ∀ (xi2 : Vec F S2048x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__ttl_kernel i arg1 harg1 arg2 harg2 arg3 harg3 arg4 harg4) K } := by
  refine ⟨[], ?_, fun xi2 E K => ?run⟩
  case run =>
    simp only [cc1__ttl_kernel_eq_skeleton]; unfold cc1__ttl_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Hand

end
-- ==== Proof.KI.R1RunC.lean ====
import proofs.«429504_j11716670784252_3_alg».proof.Proof.KI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE LAST POINT (second branch only). The scratch column comes in at what the point before left; the output's
    buffer, at anything, ends with the pieces the run finds written. -/
noncomputable def kernelRun1_C (c : Dev nD) (i : grid1.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : cond1_1 i)
    (x0 : Vec F S2048x64 .f32) (x1 : Vec F S1000x64 .f32) (xs0 : Vec F S2048x1 .f32) :
    Σ' (L2 : List (View.Piece (Elt F) S2048x1 .f32)), { LS0 : List (View.Piece (Elt F) S2048x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc1__ttl_kernel i arg1 harg1 arg2 harg2 arg3 harg3 arg4 harg4) K } := by
  refine ⟨?_, ?_, fun E K => ?run⟩
  case run =>
    simp only [cc1__ttl_kernel_eq_skeleton]; unfold cc1__ttl_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Hand

end
-- ==== Proof.KI.R1Frame.lean ====
import proofs.«429504_j11716670784252_3_alg».proof.Proof.KI.R1RunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: what the body leaves, point by point, and the pipeline's proof data -/

/-- The running sum the kernel keeps in its scratch, after the body at point n. -/
def accAt1 (c : Dev nD) : (n : ℕ) → n < cfg1.N → Vec F S2048x1 .f32
  | 0, h => k1_pay2 (iblk1 V c 1 ⟨0, h⟩) (iblk1 V c 0 ⟨0, h⟩) (k1_pay1 (F := F))
  | n + 1, h => k1_pay2 (iblk1 V c 1 ⟨n + 1, h⟩) (iblk1 V c 0 ⟨n + 1, h⟩) (accAt1 c n (Nat.lt_of_succ_lt h))

/-- At the first point the body stores nothing into the output's buffer: a placeholder nothing consults (the window
    is idle there and not written back). -/
def out1_A_2 (c : Dev nD) (i : grid1.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : cond1_0 i) (hc1 : ¬cond1_1 i)
    (x0 : Vec F S2048x64 .f32) (x1 : Vec F S1000x64 .f32) : Vec F S2048x1 .f32 :=
  VO1_2.read (Elt F) (VO1_2.writes (Elt F) VO1_2.junk (kernelRun1_A c i arg1 harg1 arg2 harg2 arg3 harg3 arg4 harg4 hc0 hc1 x0 x1).1)

/-- The first point's pieces for the scratch column cover it. -/
theorem scover1_A_0 (c : Dev nD) (i : grid1.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : cond1_0 i) (hc1 : ¬cond1_1 i)
    (x0 : Vec F S2048x64 .f32) (x1 : Vec F S1000x64 .f32) (y : S2048x1.Idx) :
    ∃ pc ∈ (kernelRun1_A c i arg1 harg1 arg2 harg2 arg3 harg3 arg4 harg4 hc0 hc1 x0 x1).2.1, y ∈ pc.1.set :=
  View.cover_of_tiledL (kernelRun1_A c i arg1 harg1 arg2 harg2 arg3 harg3 arg4 harg4 hc0 hc1 x0 x1).2.1 S2048x1.size (by sl_kernel_rfl) y

/-- What the first point leaves in the scratch column: its pieces read back. -/
def sout1_A_0 (c : Dev nD) (i : grid1.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : cond1_0 i) (hc1 : ¬cond1_1 i)
    (x0 : Vec F S2048x64 .f32) (x1 : Vec F S1000x64 .f32) : Vec F S2048x1 .f32 :=
  VS1_0.read (Elt F) (VS1_0.writes (Elt F) VS1_0.junk (kernelRun1_A c i arg1 harg1 arg2 harg2 arg3 harg3 arg4 harg4 hc0 hc1 x0 x1).2.1)

/-- At a middle point the body stores nothing into the output's buffer either. -/
def out1_B_2 (c : Dev nD) (i : grid1.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : ¬cond1_1 i)
    (x0 : Vec F S2048x64 .f32) (x1 : Vec F S1000x64 .f32) (xs0 : Vec F S2048x1 .f32) : Vec F S2048x1 .f32 :=
  VO1_2.read (Elt F) (VO1_2.writes (Elt F) VO1_2.junk (kernelRun1_B c i arg1 harg1 arg2 harg2 arg3 harg3 arg4 harg4 hc0 hc1 x0 x1 xs0).1)

/-- A middle point's pieces for the scratch column cover it. -/
theorem scover1_B_0 (c : Dev nD) (i : grid1.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : ¬cond1_1 i)
    (x0 : Vec F S2048x64 .f32) (x1 : Vec F S1000x64 .f32) (xs0 : Vec F S2048x1 .f32) (y : S2048x1.Idx) :
    ∃ pc ∈ (kernelRun1_B c i arg1 harg1 arg2 harg2 arg3 harg3 arg4 harg4 hc0 hc1 x0 x1 xs0).2.1, y ∈ pc.1.set :=
  View.cover_of_tiledL (kernelRun1_B c i arg1 harg1 arg2 harg2 arg3 harg3 arg4 harg4 hc0 hc1 x0 x1 xs0).2.1 S2048x1.size (by sl_kernel_rfl) y

/-- What a middle point leaves in the scratch column. -/
def sout1_B_0 (c : Dev nD) (i : grid1.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : ¬cond1_1 i)
    (x0 : Vec F S2048x64 .f32) (x1 : Vec F S1000x64 .f32) (xs0 : Vec F S2048x1 .f32) : Vec F S2048x1 .f32 :=
  VS1_0.read (Elt F) (VS1_0.writes (Elt F) VS1_0.junk (kernelRun1_B c i arg1 harg1 arg2 harg2 arg3 harg3 arg4 harg4 hc0 hc1 x0 x1 xs0).2.1)

/-- The last point's store into the output's buffer covers it. -/
theorem cover1_C_2 (c : Dev nD) (i : grid1.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : cond1_1 i)
    (x0 : Vec F S2048x64 .f32) (x1 : Vec F S1000x64 .f32) (xs0 : Vec F S2048x1 .f32) (y : S2048x1.Idx) :
    ∃ pc ∈ (kernelRun1_C c i arg1 harg1 arg2 harg2 arg3 harg3 arg4 harg4 hc0 hc1 x0 x1 xs0).1, y ∈ pc.1.set :=
  View.cover_of_tiledL (kernelRun1_C c i arg1 harg1 arg2 harg2 arg3 harg3 arg4 harg4 hc0 hc1 x0 x1 xs0).1 S2048x1.size (by sl_kernel_rfl) y

/-- What the last point leaves in the output's buffer. -/
def out1_C_2 (c : Dev nD) (i : grid1.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : cond1_1 i)
    (x0 : Vec F S2048x64 .f32) (x1 : Vec F S1000x64 .f32) (xs0 : Vec F S2048x1 .f32) : Vec F S2048x1 .f32 :=
  VO1_2.read (Elt F) (VO1_2.writes (Elt F) VO1_2.junk (kernelRun1_C c i arg1 harg1 arg2 harg2 arg3 harg3 arg4 harg4 hc0 hc1 x0 x1 xs0).1)

/-- The last point's pieces for the scratch column cover it. -/
theorem scover1_C_0 (c : Dev nD) (i : grid1.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : cond1_1 i)
    (x0 : Vec F S2048x64 .f32) (x1 : Vec F S1000x64 .f32) (xs0 : Vec F S2048x1 .f32) (y : S2048x1.Idx) :
    ∃ pc ∈ (kernelRun1_C c i arg1 harg1 arg2 harg2 arg3 harg3 arg4 harg4 hc0 hc1 x0 x1 xs0).2.1, y ∈ pc.1.set :=
  View.cover_of_tiledL (kernelRun1_C c i arg1 harg1 arg2 harg2 arg3 harg3 arg4 harg4 hc0 hc1 x0 x1 xs0).2.1 S2048x1.size (by sl_kernel_rfl) y

/-- What the last point leaves in the scratch column. -/
def sout1_C_0 (c : Dev nD) (i : grid1.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : cond1_1 i)
    (x0 : Vec F S2048x64 .f32) (x1 : Vec F S1000x64 .f32) (xs0 : Vec F S2048x1 .f32) : Vec F S2048x1 .f32 :=
  VS1_0.read (Elt F) (VS1_0.writes (Elt F) VS1_0.junk (kernelRun1_C c i arg1 harg1 arg2 harg2 arg3 harg3 arg4 harg4 hc0 hc1 x0 x1 xs0).2.1)

/-! ## Which case a point is in -/

theorem isA1 (t : Fin cfg1.N) (hz : t.val = 0) : cond1_0 (grid1.coords t) ∧ ¬cond1_1 (grid1.coords t) :=
  ⟨(hcond1_0 t).mpr (by omega), fun h => by have := (hcond1_1 t).mp h; omega⟩
theorem isB1 (t : Fin cfg1.N) (hz : t.val ≠ 0) (hl : t.val ≠ 49) : ¬cond1_0 (grid1.coords t) ∧ ¬cond1_1 (grid1.coords t) := by
  have hN : t.val < 50 := lt_of_lt_of_eq t.isLt (show cfg1.N = 50 from N_1)
  exact ⟨fun h => by have := (hcond1_0 t).mp h; omega, fun h => by have := (hcond1_1 t).mp h; omega⟩
theorem isC1 (t : Fin cfg1.N) (hl : t.val = 49) : ¬cond1_0 (grid1.coords t) ∧ cond1_1 (grid1.coords t) :=
  ⟨fun h => by have := (hcond1_0 t).mp h; omega, (hcond1_1 t).mpr (by omega)⟩

/-! ## What the output's buffer and the scratch column hold after each point -/

/-- After the body at position n: the output's buffer and the scratch column (a pair). The first point runs over a
    scratch column at anything; every later point over what the point before left in it. -/
def outsAt1 (c : Dev nD) : (n : ℕ) → n < cfg1.N → Vec F S2048x1 .f32 × Vec F S2048x1 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) (isA1 ⟨0, hn⟩ rfl).1 (isA1 ⟨0, hn⟩ rfl).2 (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) (isA1 ⟨0, hn⟩ rfl).1 (isA1 ⟨0, hn⟩ rfl).2 (iblk1 V c 0 ⟨0, hn⟩) (iblk1 V c 1 ⟨0, hn⟩))
  | n + 1, hn =>
    if hl : n + 1 = 49 then
      (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (isC1 ⟨n + 1, hn⟩ hl).1 (isC1 ⟨n + 1, hn⟩ hl).2 (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (isC1 ⟨n + 1, hn⟩ hl).1 (isC1 ⟨n + 1, hn⟩ hl).2 (iblk1 V c 0 ⟨n + 1, hn⟩) (iblk1 V c 1 ⟨n + 1, hn⟩) (outsAt1 c n (Nat.lt_of_succ_lt hn)).2)
    else
      (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (isB1 ⟨n + 1, hn⟩ (Nat.succ_ne_zero n) hl).1 (isB1 ⟨n + 1, hn⟩ (Nat.succ_ne_zero n) hl).2 (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (isB1 ⟨n + 1, hn⟩ (Nat.succ_ne_zero n) hl).1 (isB1 ⟨n + 1, hn⟩ (Nat.succ_ne_zero n) hl).2 (iblk1 V c 0 ⟨n + 1, hn⟩) (iblk1 V c 1 ⟨n + 1, hn⟩) (outsAt1 c n (Nat.lt_of_succ_lt hn)).2)

/-- At the first point. -/
theorem outsAt1_A (c : Dev nD) (t : Fin cfg1.N) (hz : t.val = 0) :
    outsAt1 V c t.val t.isLt = (out1_A_2 c (grid1.coords t) (ms1_0 t) (hs1_0 t) (ms1_1 t) (hs1_1 t) (ms1_2 t) (hs1_2 t) scM1_0 (Memref.isWhole_whole _) (isA1 t hz).1 (isA1 t hz).2 (iblk1 V c 0 t) (iblk1 V c 1 t), sout1_A_0 c (grid1.coords t) (ms1_0 t) (hs1_0 t) (ms1_1 t) (hs1_1 t) (ms1_2 t) (hs1_2 t) scM1_0 (Memref.isWhole_whole _) (isA1 t hz).1 (isA1 t hz).2 (iblk1 V c 0 t) (iblk1 V c 1 t)) := by
  obtain ⟨n, hn⟩ := t
  cases n with
  | zero => rfl
  | succ n => exact absurd hz (Nat.succ_ne_zero n)

/-- At a middle point: over what the point before left. -/
theorem outsAt1_B (c : Dev nD) (t : Fin cfg1.N) (hz : t.val ≠ 0) (hl : t.val ≠ 49) :
    outsAt1 V c t.val t.isLt = (out1_B_2 c (grid1.coords t) (ms1_0 t) (hs1_0 t) (ms1_1 t) (hs1_1 t) (ms1_2 t) (hs1_2 t) scM1_0 (Memref.isWhole_whole _) (isB1 t hz hl).1 (isB1 t hz hl).2 (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (isB1 t hz hl).1 (isB1 t hz hl).2 (iblk1 V c 0 t) (iblk1 V c 1 t) (outsAt1 V c (t.val - 1) (Nat.lt_of_le_of_lt (Nat.sub_le _ _) t.isLt)).2) := by
  obtain ⟨n, hn⟩ := t
  cases n with
  | zero => exact absurd rfl hz
  | succ n => exact (dif_neg hl).trans rfl

/-- At the last point: over what the point before left. -/
theorem outsAt1_C (c : Dev nD) (t : Fin cfg1.N) (hl : t.val = 49) :
    outsAt1 V c t.val t.isLt = (out1_C_2 c (grid1.coords t) (ms1_0 t) (hs1_0 t) (ms1_1 t) (hs1_1 t) (ms1_2 t) (hs1_2 t) scM1_0 (Memref.isWhole_whole _) (isC1 t hl).1 (isC1 t hl).2 (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (isC1 t hl).1 (isC1 t hl).2 (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at hl); omega)
  | succ n => exact (dif_pos hl).trans rfl

/-! ## The region's invariant -/

/-- Before position n: at the first point what the region is handed; afterwards the scratch column at what the point
    before left in it, the other scoped buffers at anything and the generator register at some state. -/
def PhiS1 (c : Dev nD) : (n : ℕ) → n ≤ cfg1.N → sProp 𝕄
  | 0, _ => Pipeline.ΦA spec1 c
  | n + 1, hn => iprop(owns (c : Thread nD τ) scM1_0 fullShare ((outsAt1 V c n hn).2) ∗ others1 c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare ((outsAt1 V c n hn).2) ∗ others1 c ∗ (∃ r, prngReg c r)) := rfl

theorem PhiS1_pos (c : Dev nD) (n : ℕ) (h : n ≤ cfg1.N) (hz : n ≠ 0) :
    PhiS1 V c n h = iprop(owns (c : Thread nD τ) scM1_0 fullShare ((outsAt1 V c (n - 1) (by omega)).2) ∗ others1 c ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the point's position says which of the three runs
    applies; the invariant hands the body the scratch column (at anything at the first point, else at what the point
    before left) and takes it back at this point's contents; the other scoped buffers, the generator register and what
    the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 50 := lt_of_lt_of_eq t.isLt (show cfg1.N = 50 from N_1)
  by_cases hz : t.val = 0
  · rw [Dat.leavesExact_idle (dat1 V c) 2 t (idleAt1_2_A t (isA1 t hz).1 (isA1 t hz).2) (noFlush1_2_A t (isA1 t hz).1 (isA1 t hz).2)]
    rw [outsAt1_A V c t hz]
    unfold sout1_A_0; (try dsimp only)
    rw [PhiS1_castSucc V c t, PhiS1_zero V c _ _ hz]
    iintro ⟨HΦ, Ho, ⟨%d0, H0⟩, ⟨%d1, H1⟩, ⟨%d2, H2⟩⟩
    ihave HΦ' := (PhiA1_split c) $$ HΦ
    icases HΦ' with ⟨HS0, Hoth, Hg⟩
    iapply ((kernelRun1_A c (grid1.coords t) _ _ _ _ _ _ _ _ (isA1 t hz).1 (isA1 t hz).2 (iblk1 V c 0 t) (iblk1 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hoth Hg]
    · isplitl [HS0]
      · unfold owns; iexists _; isplitr
        swap; · iexact HS0
        ipureintro; exact View.read_writes_of_cover _ _ _ _ _ (scover1_A_0 c _ _ _ _ _ _ _ _ _ _ _ _ _)
      isplitl [Hoth]; · iexact Hoth
      iexact Hg
    isplitl [Ho]; · iexact Ho
    isplitl [H0]; · iexact H0
    isplitl [H1]; · iexact H1
    iexists _; iexact H2
  · by_cases hl : t.val = 49
    · rw [show (dat1 V c).leavesExact 2 t = owns (c : Thread nD τ) (ms1_2 t) fullShare ((dat1 V c).after 2 t) from by
        unfold Dat.leavesExact; rw [liveAt1_2_C t (isC1 t hl).1 (isC1 t hl).2], after1_2]
      rw [outsAt1_C V c t hl]
      unfold out1_C_2 sout1_C_0; (try dsimp only)
      rw [PhiS1_castSucc V c t, PhiS1_pos V c _ _ hz]
      iintro ⟨⟨HS0, Hoth, Hg⟩, Ho, ⟨%d0, H0⟩, ⟨%d1, H1⟩, ⟨%d2, H2⟩⟩
      iapply ((kernelRun1_C c (grid1.coords t) _ _ _ _ _ _ _ _ (isC1 t hl).1 (isC1 t hl).2 (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0]
        · unfold owns; iexists _; isplitr
          swap; · iexact HS0
          ipureintro; exact View.read_writes_of_cover _ _ _ _ _ (scover1_C_0 c _ _ _ _ _ _ _ _ _ _ _ _ _ _)
        isplitl [Hoth]; · iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2_B t (isB1 t hz hl).1 (isB1 t hz hl).2) (noFlush1_2_B t (isB1 t hz hl).1 (isB1 t hz hl).2)]
      rw [outsAt1_B V c t hz hl]
      unfold sout1_B_0; (try dsimp only)
      rw [PhiS1_castSucc V c t, PhiS1_pos V c _ _ hz]
      iintro ⟨⟨HS0, Hoth, Hg⟩, Ho, ⟨%d0, H0⟩, ⟨%d1, H1⟩, ⟨%d2, H2⟩⟩
      iapply ((kernelRun1_B c (grid1.coords t) _ _ _ _ _ _ _ _ (isB1 t hz hl).1 (isB1 t hz hl).2 (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scover1_B_0 c _ _ _ _ _ _ _ _ _ _ _ _ _ _)
        isplitl [Hoth]; · iexact Hoth
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the region was handed: the scratch column's named
    contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht]
  iintro ⟨HS0, Hoth, Hg⟩
  iapply (PhiA1_join c)
  isplitl [HS0]
  · iexists _; iexact HS0
  isplitl [Hoth]; · iexact Hoth
  iexact Hg

theorem hout1 (c : Dev nD) : (dat1 V c).Φ (Fin.last cfg1.N) ⊢ (Pipeline.ΦA spec1 c : sProp 𝕄) :=
  Phi_out1 V c _ (by rw [Fin.val_last]; have : cfg1.N = 50 := N_1; omega)

theorem share1 (c : Dev nD) (w : Fin cfg1.W) : (dat1 V c).q w = fullShare := rfl

theorem recorded1 (c : Dev nD) (t : Fin (cfg1.N + 1)) : (dat1 V c).recorded t = Set.univ := rfl

theorem owed1 (c : Dev nD) (t : Fin (cfg1.N + 1)) : (dat1 V c).owed t = 0 := rfl

/-! ## The values the three runs leave -/

theorem hz1 : (![0, 0] : Fin 2 → Nat) = fun _ => 0 := funext fun a => by fin_cases a <;> rfl

/-- A middle point leaves in the scratch column the running column it found plus the tile's contribution. -/
theorem sout1_B_eq (c : Dev nD) (i : grid1.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : ¬cond1_1 i)
    (x0 : Vec F S2048x64 .f32) (x1 : Vec F S1000x64 .f32) (xs0 : Vec F S2048x1 .f32) :
    sout1_B_0 c i arg1 harg1 arg2 harg2 arg3 harg3 arg4 harg4 hc0 hc1 x0 x1 xs0 = k1_pay2 x1 x0 xs0 := by
  unfold sout1_B_0
  rw [View.read_writes_eq_canon _ _ _ (scover1_B_0 c i arg1 harg1 arg2 harg2 arg3 harg3 arg4 harg4 hc0 hc1 x0 x1 xs0)]
  unfold kernelRun1_B
  dsimp only
  sl_unfold_words
  rw [View.canon_unit_zero hz1]
  simp only [View.readAt_eq_ld, harg1.read_unread, harg2.read_unread, harg4.read_unread, View.ld_unit_zero (S := S2048x64) hz1, View.ld_unit_zero (S := S1000x64) hz1, View.ld_unit_zero (S := S2048x1) hz1]

/-- The first point leaves the first tile's contribution over the zero column. -/
theorem sout1_A_eq (c : Dev nD) (i : grid1.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : cond1_0 i) (hc1 : ¬cond1_1 i)
    (x0 : Vec F S2048x64 .f32) (x1 : Vec F S1000x64 .f32) :
    sout1_A_0 c i arg1 harg1 arg2 harg2 arg3 harg3 arg4 harg4 hc0 hc1 x0 x1 = k1_pay2 x1 x0 (k1_pay1 (F := F)) := by
  unfold sout1_A_0
  rw [View.read_writes_eq_canon _ _ _ (scover1_A_0 c i arg1 harg1 arg2 harg2 arg3 harg3 arg4 harg4 hc0 hc1 x0 x1)]
  unfold kernelRun1_A
  dsimp only
  sl_unfold_words
  rw [View.canon_cons_unit_zero (S := S2048x1) hz1, View.readCov_unit_zero (S := S2048x1) _ hz1]
  simp only [View.readAt_eq_ld, harg1.read_unread, harg2.read_unread, View.ld_unit_zero (S := S2048x64) hz1, View.ld_unit_zero (S := S1000x64) hz1]

/-- The last point leaves the same in the scratch column as a middle point does, -/
theorem sout1_C_eq (c : Dev nD) (i : grid1.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : cond1_1 i)
    (x0 : Vec F S2048x64 .f32) (x1 : Vec F S1000x64 .f32) (xs0 : Vec F S2048x1 .f32) :
    sout1_C_0 c i arg1 harg1 arg2 harg2 arg3 harg3 arg4 harg4 hc0 hc1 x0 x1 xs0 = k1_pay2 x1 x0 xs0 := by
  unfold sout1_C_0
  rw [View.read_writes_eq_canon _ _ _ (scover1_C_0 c i arg1 harg1 arg2 harg2 arg3 harg3 arg4 harg4 hc0 hc1 x0 x1 xs0)]
  unfold kernelRun1_C
  dsimp only
  sl_unfold_words
  rw [View.canon_unit_zero hz1]
  simp only [View.readAt_eq_ld, harg1.read_unread, harg2.read_unread, harg4.read_unread, View.ld_unit_zero (S := S2048x64) hz1, View.ld_unit_zero (S := S1000x64) hz1, View.ld_unit_zero (S := S2048x1) hz1]

/-- and stores that column into the output's buffer. -/
theorem out1_C_eq (c : Dev nD) (i : grid1.Coords) (arg1 : Memref sig .tc .vmem S2048x64 .f32) (harg1 : arg1.IsWhole) (arg2 : Memref sig .tc .vmem S1000x64 .f32) (harg2 : arg2.IsWhole) (arg3 : Memref sig .tc .vmem S2048x1 .f32) (harg3 : arg3.IsWhole) (arg4 : Memref sig .tc .vmem S2048x1 .f32) (harg4 : arg4.IsWhole) (hc0 : ¬cond1_0 i) (hc1 : cond1_1 i)
    (x0 : Vec F S2048x64 .f32) (x1 : Vec F S1000x64 .f32) (xs0 : Vec F S2048x1 .f32) :
    out1_C_2 c i arg1 harg1 arg2 harg2 arg3 harg3 arg4 harg4 hc0 hc1 x0 x1 xs0 = k1_pay2 x1 x0 xs0 := by
  unfold out1_C_2
  rw [View.read_writes_eq_canon _ _ _ (cover1_C_2 c i arg1 harg1 arg2 harg2 arg3 harg3 arg4 harg4 hc0 hc1 x0 x1 xs0)]
  unfold kernelRun1_C
  dsimp only
  sl_unfold_words
  rw [View.canon_unit_zero hz1, View.readCov_unit_zero (S := S2048x1) _ hz1]
  simp only [View.readAt_eq_ld, harg1.read_unread, harg2.read_unread, harg4.read_unread, View.ld_unit_zero (S := S2048x64) hz1, View.ld_unit_zero (S := S1000x64) hz1, View.ld_unit_zero (S := S2048x1) hz1]

/-! ## The running sum, point by point -/

/-- The scratch column after the body at position n is the running sum there: by induction on the position. -/
theorem outsAt1_acc (c : Dev nD) : ∀ (n : ℕ) (h : n < cfg1.N), (outsAt1 V c n h).2 = accAt1 V c n h
  | 0, h => by
    rw [outsAt1_A V c ⟨0, h⟩ rfl]; dsimp only; rw [sout1_A_eq]; rfl
  | n + 1, h => by
    by_cases hl : n + 1 = 49
    · rw [outsAt1_C V c ⟨n + 1, h⟩ hl]; dsimp only; rw [sout1_C_eq]
      show k1_pay2 _ _ (outsAt1 V c n _).2 = k1_pay2 _ _ (accAt1 V c n _)
      rw [outsAt1_acc c n]
    · rw [outsAt1_B V c ⟨n + 1, h⟩ (Nat.succ_ne_zero n) hl]; dsimp only; rw [sout1_B_eq]
      show k1_pay2 _ _ (outsAt1 V c n _).2 = k1_pay2 _ _ (accAt1 V c n _)
      rw [outsAt1_acc c n]

/-- At the last point the output's buffer is left holding what the scratch column holds. -/
theorem outsAt1_last (c : Dev nD) (t : Fin cfg1.N) (hl : t.val = 49) :
    (outsAt1 V c t.val t.isLt).1 = (outsAt1 V c t.val t.isLt).2 := by
  rw [outsAt1_C V c t hl]; dsimp only; rw [out1_C_eq, sout1_C_eq]

/-! ## The arrays after the region -/

/-- The last point of the grid, the one that writes the output back. -/
abbrev tLast1 : Fin cfg1.N := ⟨49, by rw [show cfg1.N = 50 from N_1]; omega⟩

/-- The one write-back, at the last point, writes the running sum: the output's one block read through zero offsets
    is the whole array. -/
theorem flushed1_eq (c : Dev nD) (t : Fin cfg1.N) (hf : (cfg1.win 2).flush t = true) :
    (dat1 V c).flushed 2 t = ((cfg1.win 2).blk t).view.read (Elt F) (accAt1 V c 49 tLast1.isLt) := by
  have hN : cfg1.N = 50 := N_1
  have h49 : t.val = 49 := by have := (flush1_2 t).mp hf; have := t.isLt; omega
  obtain rfl : t = tLast1 := Fin.ext h49
  show (cfg1.win 2).cut (grid1.coords tLast1) ((dat1 V c).after 2 tLast1) = _
  rw [after1_2, outsAt1_last V c tLast1 rfl, outsAt1_acc]
  have hz' : (fun a => win1_2.index tLast1 a * (Pipeline.arrRef spec1 2).ty.shape.size a) = fun _ => 0 := funext fun a => by fin_cases a <;> decide
  exact (Memref.read_access_unit_zero (Elt F) (Pipeline.arrRef spec1 2) hz' (fun a => by rw [congrFun hz' a]; simp) (accAt1 V c 49 tLast1.isLt)).symm

/-- The output array after the region: the running sum after the last point. -/
theorem arrAt1_out (c : Dev nD) : (dat1 V c).arrAt 2 cfg1.N = accAt1 V c 49 (by rw [show cfg1.N = 50 from N_1]; omega) :=
  (dat1 V c).arrAt_eq_of_cover 2 (accAt1 V c 49 tLast1.isLt) (flushed1_eq V c) fun i =>
    ⟨tLast1, (flush1_2 tLast1).mpr rfl, by
      show i ∈ ((View.whole (Pipeline.arrRef spec1 2)).slice (win1_2.rect tLast1)).set
      rw [View.set_slice_whole, Rect.mem_set_unit]
      intro a
      have h0 : (i 0 : Nat) < 2048 := (i 0).isLt
      have h1 : (i 1 : Nat) < 1 := (i 1).isLt
      match a with
      | ⟨0, _⟩ => show win1_2.index tLast1 0 * win1_2.size 0 ≤ (i 0 : Nat) ∧ (i 0 : Nat) < win1_2.index tLast1 0 * win1_2.size 0 + win1_2.xsize (grid1.coords tLast1) 0
                  rw [show win1_2.index tLast1 0 * win1_2.size 0 = 0 from by decide +kernel, show win1_2.xsize (grid1.coords tLast1) 0 = 2048 from by decide +kernel]; omega
      | ⟨1, _⟩ => show win1_2.index tLast1 1 * win1_2.size 1 ≤ (i 1 : Nat) ∧ (i 1 : Nat) < win1_2.index tLast1 1 * win1_2.size 1 + win1_2.xsize (grid1.coords tLast1) 1
                  rw [show win1_2.index tLast1 1 * win1_2.size 1 = 0 from by decide +kernel, show win1_2.xsize (grid1.coords tLast1) 1 = 1 from by decide +kernel]; omega⟩

/-- Input arrays are left as found. -/
theorem arrAt1_in0 (c : Dev nD) : (dat1 V c).arrAt 0 cfg1.N = V c (Pipeline.arrRef spec1 0) :=
  ((dat1 V c).arrAt_in 0 rfl _).trans (A_eq1 V c 0)
theorem arrAt1_in1 (c : Dev nD) : (dat1 V c).arrAt 1 cfg1.N = V c (Pipeline.arrRef spec1 1) :=
  ((dat1 V c).arrAt_in 1 rfl _).trans (A_eq1 V c 1)

end Cert.KernelIdeal.Hand

end
-- ==== Proof.KI.Run.lean ====
import proofs.«429504_j11716670784252_3_alg».proof.Proof.KI.R0Frame
import proofs.«429504_j11716670784252_3_alg».proof.Proof.KI.R1Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: a host stretch, region 0, a host stretch, region 1, a host stretch

## The buffer contents at each boundary -/

/-- Core `c`'s buffers at launch. -/
abbrev W0 : Dev nD → Valuation τ sig (Elt F) := fun c b => (s₀ m ρ).mem ((c : Dev nD), b)
/-- After the first host stretch: what region 0 is entered from. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- At region 0's exit: its three arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: what region 1 is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its three arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch: the contents @main returns with. -/
abbrev W5 : Dev nD → Valuation τ sig (Elt F) := fun c => StableHlo.after hostOps2 (W4 m ρ c)

/-! ## What the host stretches write

Each stretch's written references, listed; a reference outside the list keeps its contents through the stretch. -/

/-- The references `hostOps0`'s operations write. -/
abbrev hostOps0_W : List (Ref sig .tc) := [main_v0, main_v1, main_c, main_v2, main_v3, main_c_0, main_v4, main_v5, main_v6, main_v7, main_v8, main_v9, main_v10, main_cst, main_v11, main_v12, main_v13, main_v14, main_c_1, main_v15, main_v16, main_c_2, main_v17, main_v18, main_v19, main_v20, main_v21, main_v22, main_v23, main_cst_3, main_v24, main_v25, main_v26, main_v27, main_cst_4, main_v28, main_v29, main_v30, main_cst_5, main_v31, main_v32, main_v33, main_v34, main_v35, main_v36, main_c_6, main_v37, main_v38, main_c_7, main_v39, main_v40, main_v41, main_v42, main_v43, main_v44, main_cst_8, main_v45, main_v46, main_v47, main_cst_9, main_v48, main_v49, main_v50, main_v51, main_c_10, main_v52, main_v53, main_c_11, main_v54, main_v55, main_v56, main_v57, main_v58, main_v59, main_cst_12, main_v60, main_v61, main_v62, main_cst_13, main_v63, main_v64, main_v65, main_v66, main_v67, main_cst_14, main_v68, main_cst_15, main_v69, main_v70, main_v71]
set_option maxHeartbeats 4000000 in
theorem hostOps0_writes : (hostOps0 : List (HloOp τ sig (Elt F))).Forall fun op => op.writes ⊆ (hostOps0_W.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1`'s operations write. -/
abbrev hostOps1_W : List (Ref sig .tc) := [main_v73, main_v74, main_v75, main_cst_16, main_v76, main_v77, main_c_17, main_v78, main_v79, main_c_18, main_v80, main_v81, main_v82, main_v83, main_v84, main_v85, main_cst_19, main_v86, main_v87, main_v88, main_cst_20, main_v89, main_v90, main_v91, main_v92, main_c_21, main_v93, main_v94, main_c_22, main_v95, main_v96, main_v97, main_v98, main_v99, main_v100, main_cst_23, main_v101, main_v102, main_v103, main_cst_24, main_v104, main_v105, main_v106, main_v107, main_v108, main_cst_25, main_v109, main_cst_26, main_v110, main_v111, main_v112]
set_option maxHeartbeats 4000000 in
theorem hostOps1_writes : (hostOps1 : List (HloOp τ sig (Elt F))).Forall fun op => op.writes ⊆ (hostOps1_W.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps2`'s operations write. -/
abbrev hostOps2_W : List (Ref sig .tc) := [main_v114, main_v115, main_v116, main_cst_27, main_v117, main_v118, main_v119, main_cst_28, main_v120]
theorem hostOps2_writes : (hostOps2 : List (HloOp τ sig (Elt F))).Forall fun op => op.writes ⊆ (hostOps2_W.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-! ## The arguments end as launched: no host stretch writes one, and none is an array of either region -/

theorem W5_main_arg0 (c : Dev nD) : W5 m ρ c (Proc.devRef .tc main_arg0) = m ((c : Thread nD τ).loc main_arg0) :=
  (W5_of m ρ c main_arg0 (by decide)).trans <| (W4_of_ne m ρ c main_arg0 (by decide)).trans <|
    (W3_of m ρ c main_arg0 (by decide)).trans <| (W2_of_ne m ρ c main_arg0 (by decide)).trans <|
    (W1_of m ρ c main_arg0 (by decide)).trans rfl

theorem W5_main_arg1 (c : Dev nD) : W5 m ρ c (Proc.devRef .tc main_arg1) = m ((c : Thread nD τ).loc main_arg1) :=
  (W5_of m ρ c main_arg1 (by decide)).trans <| (W4_of_ne m ρ c main_arg1 (by decide)).trans <|
    (W3_of m ρ c main_arg1 (by decide)).trans <| (W2_of_ne m ρ c main_arg1 (by decide)).trans <|
    (W1_of m ρ c main_arg1 (by decide)).trans rfl

theorem W5_main_arg2 (c : Dev nD) : W5 m ρ c (Proc.devRef .tc main_arg2) = m ((c : Thread nD τ).loc main_arg2) :=
  (W5_of m ρ c main_arg2 (by decide)).trans <| (W4_of_ne m ρ c main_arg2 (by decide)).trans <|
    (W3_of m ρ c main_arg2 (by decide)).trans <| (W2_of_ne m ρ c main_arg2 (by decide)).trans <|
    (W1_of m ρ c main_arg2 (by decide)).trans rfl

theorem W5_main_arg3 (c : Dev nD) : W5 m ρ c (Proc.devRef .tc main_arg3) = m ((c : Thread nD τ).loc main_arg3) :=
  (W5_of m ρ c main_arg3 (by decide)).trans <| (W4_of_ne m ρ c main_arg3 (by decide)).trans <|
    (W3_of m ρ c main_arg3 (by decide)).trans <| (W2_of_ne m ρ c main_arg3 (by decide)).trans <|
    (W1_of m ρ c main_arg3 (by decide)).trans rfl

theorem W5_main_arg4 (c : Dev nD) : W5 m ρ c (Proc.devRef .tc main_arg4) = m ((c : Thread nD τ).loc main_arg4) :=
  (W5_of m ρ c main_arg4 (by decide)).trans <| (W4_of_ne m ρ c main_arg4 (by decide)).trans <|
    (W3_of m ρ c main_arg4 (by decide)).trans <| (W2_of_ne m ρ c main_arg4 (by decide)).trans <|
    (W1_of m ρ c main_arg4 (by decide)).trans rfl

theorem W5_main_arg5 (c : Dev nD) : W5 m ρ c (Proc.devRef .tc main_arg5) = m ((c : Thread nD τ).loc main_arg5) :=
  (W5_of m ρ c main_arg5 (by decide)).trans <| (W4_of_ne m ρ c main_arg5 (by decide)).trans <|
    (W3_of m ρ c main_arg5 (by decide)).trans <| (W2_of_ne m ρ c main_arg5 (by decide)).trans <|
    (W1_of m ρ c main_arg5 (by decide)).trans rfl

theorem W5_main_arg6 (c : Dev nD) : W5 m ρ c (Proc.devRef .tc main_arg6) = m ((c : Thread nD τ).loc main_arg6) :=
  (W5_of m ρ c main_arg6 (by decide)).trans <| (W4_of_ne m ρ c main_arg6 (by decide)).trans <|
    (W3_of m ρ c main_arg6 (by decide)).trans <| (W2_of_ne m ρ c main_arg6 (by decide)).trans <|
    (W1_of m ρ c main_arg6 (by decide)).trans rfl

theorem W5_main_arg7 (c : Dev nD) : W5 m ρ c (Proc.devRef .tc main_arg7) = m ((c : Thread nD τ).loc main_arg7) :=
  (W5_of m ρ c main_arg7 (by decide)).trans <| (W4_of_ne m ρ c main_arg7 (by decide)).trans <|
    (W3_of m ρ c main_arg7 (by decide)).trans <| (W2_of_ne m ρ c main_arg7 (by decide)).trans <|
    (W1_of m ρ c main_arg7 (by decide)).trans rfl

theorem W5_main_arg8 (c : Dev nD) : W5 m ρ c (Proc.devRef .tc main_arg8) = m ((c : Thread nD τ).loc main_arg8) :=
  (W5_of m ρ c main_arg8 (by decide)).trans <| (W4_of_ne m ρ c main_arg8 (by decide)).trans <|
    (W3_of m ρ c main_arg8 (by decide)).trans <| (W2_of_ne m ρ c main_arg8 (by decide)).trans <|
    (W1_of m ρ c main_arg8 (by decide)).trans rfl

theorem W5_main_arg9 (c : Dev nD) : W5 m ρ c (Proc.devRef .tc main_arg9) = m ((c : Thread nD τ).loc main_arg9) :=
  (W5_of m ρ c main_arg9 (by decide)).trans <| (W4_of_ne m ρ c main_arg9 (by decide)).trans <|
    (W3_of m ρ c main_arg9 (by decide)).trans <| (W2_of_ne m ρ c main_arg9 (by decide)).trans <|
    (W1_of m ρ c main_arg9 (by decide)).trans rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
/-- No operation of `hostOps0` allocates a buffer. -/
theorem hostOps0_fresh : (hostOps0 : List (HloOp τ sig (Elt F))).Forall fun op => op.fresh = ∅ := by
  simp only [List.Forall]; repeat' constructor
set_option maxHeartbeats 4000000 in
/-- No operation of `hostOps1` allocates a buffer. -/
theorem hostOps1_fresh : (hostOps1 : List (HloOp τ sig (Elt F))).Forall fun op => op.fresh = ∅ := by
  simp only [List.Forall]; repeat' constructor
/-- No operation of `hostOps2` allocates a buffer. -/
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents `W5`, the generator
    register at some state. -/
abbrev Tₙ (c : Dev nD) : sProp 𝕄 := iprop(StableHlo.held (c : Thread nD τ) (Pipeline.ucRefs τ sig) (W5 m ρ c) ∗ ∃ r, prngReg c r)

/-! ## The regions as segments -/

-- the library's lemmas over a pinned configuration unify with the printed one only when unification may unfold
-- plain definitions in a metavariable's type
set_option backward.isDefEq.respectTransparency.types false in
/-- Region 0 over the thread state: entered from every unscoped buffer at `W1`, left at `W2`. Its arrays are
    split out of the unscoped buffers at entry and put back at the exit contents; the generator register goes into the
    pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun c t => owed0 (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full (share0 (V1 m ρ) c)) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 0 c).owed 0 = 0 from owed0 (V1 m ρ) c 0]
      icases HO with ⟨%W, HO⟩; iexists W; isplitr
      · ipureintro; exact fun x _ => Or.inl ((recorded0 (V1 m ρ) c 0).symm ▸ Set.mem_univ x)
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full (share0 (V1 m ρ) c))
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 0 c).owed (Fin.last _) = 0 from owed0 (V1 m ρ) c _]
    icases HO with ⟨%W, -, HO⟩; iexists W; iexact HO

-- the library's lemmas over a pinned configuration unify with the printed one only when unification may unfold
-- plain definitions in a metavariable's type
set_option backward.isDefEq.respectTransparency.types false in
/-- Region 1 over the thread state: entered from every unscoped buffer at `W3`, left at `W4`. Its arrays are
    split out of the unscoped buffers at entry and put back at the exit contents; the generator register goes into the
    pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun c t => owed1 (V3 m ρ) c t
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full (share1 (V3 m ρ) c)) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 1 c).owed 0 = 0 from owed1 (V3 m ρ) c 0]
      icases HO with ⟨%W, HO⟩; iexists W; isplitr
      · ipureintro; exact fun x _ => Or.inl ((recorded1 (V3 m ρ) c 0).symm ▸ Set.mem_univ x)
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full (share1 (V3 m ρ) c))
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 1 c).owed (Fin.last _) = 0 from owed1 (V3 m ρ) c _]
    icases HO with ⟨%W, -, HO⟩; iexists W; iexact HO

/-! ## @main as segments, and the launch -/

/-- @main's five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main is the run of the segments. -/
theorem main_run (c : Dev nD) : main (F := F) c = Pipeline.Seg.run (segs m ρ) := (main_chain c).trans (by chain_rfl)

/-- The last host segment's post is the last thread state beside the core owing nothing: reassociation. -/
theorem last_chain (c : Dev nD) :
    iprop(StableHlo.held (c : Thread nD τ) (Pipeline.ucRefs τ sig) (W5 m ρ c) ∗ R (F := F) c)
      ⊢ iprop(Tₙ m ρ c ∗ ∃ W, owes (c : Thread nD τ) (0 : CellTallies nD τ sig Unit) W) := by
  iintro ⟨Hh, Hp, HO⟩
  isplitl [Hh Hp]
  · isplitl [Hh] <;> iassumption
  iexact HO

set_option backward.isDefEq.respectTransparency.types false in
/-- THE RUN with its whole final valuation: from any memory with zero counters, every weakly fair execution of @main
    terminates, nothing faulting, and every final state has every unscoped buffer of every core at `W5`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => last_chain m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h => h)

/-- THE FRAME: at any `F`, from any memory with zero counters, every weakly fair execution of @main terminates,
    nothing faulting, and every final state has the ten argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  OrdCont.mono (θ_run defs (onTc (τ := τ) (main (F := F))) ⟨m, fun _ => 0, ρ⟩) (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c)⟩) (run_all m ρ)

end Cert.KernelIdeal.Hand

end
-- ==== Proof.Spec.lean ====
import proofs.«429504_j11716670784252_3_alg».proof.Proof.Gen.ReferenceIdeal
import proofs.«429504_j11716670784252_3_alg».proof.Proof.Gen.KernelIdeal
import Idealize.ShloMosaic.PureOps.Ideal

noncomputable section

/-! The loss both programs compute, as one function of the ten argument arrays, stage by stage:
    the node table (users over items), one sparse propagation per view, the batch rows normalised to
    unit length, the positive score, the sum of exponentiated scores against every normalised row of
    the second view, and the two negative log-ratios averaged. -/
namespace Cert.Spec

open Cert.ReferenceIdeal Cert.ReferenceIdeal.Facts₀ Cert.ReferenceIdeal.Facts Idealize.ShloMosaic Idealize.ShloMosaic.TcCoe

abbrev Tf (S : Shape) := FVec Ideal S .f32
abbrev Ti (S : Shape) := IVec S 32

/-- users stacked over items -/
def ego (a0 a1 : Tf S50000x64) : Tf S100000x64 :=
  concatenate S100000x64 0 [⟨S50000x64, a0⟩, ⟨S50000x64, a1⟩] concatenates_S50000x64_S50000x64_S100000x64_d0

/-- a negative node index counts from the end of the node table -/
def wrapM (cols : Ti S2000000) : Ti S2000000 :=
  select (cmpi .slt cols (broadcastInDim S2000000 ![] bcast_S_S2000000 (constantI S_ 32 0#32)))
    (addi cols (broadcastInDim S2000000 ![] bcast_S_S2000000 (constantI S_ 32 100000#32))) cols

/-- one sparse propagation: row r receives the sum over its edges of weight times the source row -/
def spmm (rows cols : Ti S2000000) (vals : Tf S2000000) (x : Tf S100000x64) : Tf S100000x64 :=
  Host.scatterAdd scatter_S100000x64_S2000000x1_S2000000x64_1_0_0_1
    (broadcastInDim S100000x64 ![] bcast_S_S100000x64 (constant (F := Ideal) S_ .f32 0x00000000#32))
    (broadcastInDim S2000000x1 ![0] bcast_S2000000_S2000000x1_0 rows)
    (mulf (broadcastInDim S2000000x64 ![0, 1] bcast_S2000000x1_S2000000x64_0_1 (broadcastInDim S2000000x1 ![0] bcast_S2000000_S2000000x1_0 vals))
      (Host.gather gather_S100000x64_S2000000x1_S2000000x64_1_0_n_n_0_1_164 x (broadcastInDim S2000000x1 ![0] bcast_S2000000_S2000000x1_0 (wrapM cols))))

/-- the mean of the table and its propagation -/
def layer (x s : Tf S100000x64) : Tf S100000x64 :=
  mulf (broadcastInDim S100000x64 ![] bcast_S_S100000x64 (constant (F := Ideal) S_ .f32 0x3F000000#32)) (addf x s)

def lo (x : Tf S100000x64) : Tf S50000x64 := extractStridedSlice S50000x64 ![0, 0] x slices_S100000x64_S50000x64_0_0
def hi (x : Tf S100000x64) : Tf S50000x64 := extractStridedSlice S50000x64 ![50000, 0] x slices_S100000x64_S50000x64_50000_0

/-- a negative batch index counts from the end of its half of the table -/
def wrapB (idx : Ti S2048) : Ti S2048 :=
  select (cmpi .slt idx (broadcastInDim S2048 ![] bcast_S_S2048 (constantI S_ 32 0#32)))
    (addi idx (broadcastInDim S2048 ![] bcast_S_S2048 (constantI S_ 32 50000#32))) idx

/-- the batch's rows -/
def pick (x : Tf S50000x64) (idx : Ti S2048) : Tf S2048x64 :=
  Host.gather gather_S50000x64_S2048x1_S2048x64_1_0_n_n_0_1_164 x (broadcastInDim S2048x1 ![0] bcast_S2048_S2048x1_0 (wrapB idx))

/-- each batch row divided by its length, the length kept away from zero -/
def l2n (x : Tf S2048x64) : Tf S2048x64 :=
  Host.divf x (broadcastInDim S2048x64 ![0, 1] bcast_S2048x1_S2048x64_0_1
    (maximumf (Host.sqrt (broadcastInDim S2048x1 ![0] bcast_S2048_S2048x1_0
        (Host.reduceAdd (mulf x x) (constant (F := Ideal) S_ .f32 0x00000000#32) reducesTo_S2048x64_S2048_d1 h_S_)))
      (broadcastInDim S2048x1 ![] bcast_S_S2048x1 (constant (F := Ideal) S_ .f32 0x2B8CBCCC#32))))

/-- the same for every row of a half table -/
def l2nAll (x : Tf S50000x64) : Tf S50000x64 :=
  Host.divf x (broadcastInDim S50000x64 ![0, 1] bcast_S50000x1_S50000x64_0_1
    (maximumf (Host.sqrt (broadcastInDim S50000x1 ![0] bcast_S50000_S50000x1_0
        (Host.reduceAdd (mulf x x) (constant (F := Ideal) S_ .f32 0x00000000#32) reducesTo_S50000x64_S50000_d1 h_S_)))
      (broadcastInDim S50000x1 ![] bcast_S_S50000x1 (constant (F := Ideal) S_ .f32 0x2B8CBCCC#32))))

/-- exp of the row-wise inner product over the temperature one half -/
def pos (z1 z2 : Tf S2048x64) : Tf S2048 :=
  Host.exp (Host.divf (Host.reduceAdd (mulf z1 z2) (constant (F := Ideal) S_ .f32 0x00000000#32) reducesTo_S2048x64_S2048_d1 h_S_)
    (broadcastInDim S2048 ![] bcast_S_S2048 (constant (F := Ideal) S_ .f32 0x3F000000#32)))

/-- per batch row, the sum over all 50000 normalised rows of exp(inner product over one half) -/
def ttl (z1 : Tf S2048x64) (e : Tf S50000x64) : Tf S2048 :=
  Host.reduceAdd (Host.exp (Host.divf
      (Host.dotGeneral dot_S2048x64_S64x50000_S2048x50000_1_0_0_1_n_n none z1 (transpose S64x50000 [1, 0] (l2nAll e) transposes_S50000x64_S64x50000_1_0))
      (broadcastInDim S2048x50000 ![] bcast_S_S2048x50000 (constant (F := Ideal) S_ .f32 0x3F000000#32))))
    (constant (F := Ideal) S_ .f32 0x00000000#32) reducesTo_S2048x50000_S2048_d1 h_S_

/-- minus the sum of the log-ratios -/
def negloss (p t : Tf S2048) : Tf S_ :=
  Host.negf (Host.reduceAdd (Host.log (Host.divf p t)) (constant (F := Ideal) S_ .f32 0x00000000#32) reducesTo_S2048_S_d0 h_S_)

def total (lu li : Tf S_) : Tf S_ := mulf (constant (F := Ideal) S_ .f32 0x3F000000#32) (addf lu li)

/-- one contrastive term: first view's batch rows against the second view -/
def nce (e1 e2 : Tf S50000x64) (idx : Ti S2048) : Tf S_ :=
  negloss (pos (l2n (pick e1 idx)) (l2n (pick e2 idx))) (ttl (l2n (pick e1 idx)) e2)

def view (a0 a1 : Tf S50000x64) (rows cols : Ti S2000000) (vals : Tf S2000000) : Tf S100000x64 :=
  layer (ego a0 a1) (spmm rows cols vals (ego a0 a1))

/-- the whole loss -/
def G (a0 a1 : Tf S50000x64) (r1 c1 : Ti S2000000) (v1 : Tf S2000000) (r2 c2 : Ti S2000000) (v2 : Tf S2000000) (nu ni : Ti S2048) : Tf S_ :=
  total (nce (lo (view a0 a1 r1 c1 v1)) (lo (view a0 a1 r2 c2 v2)) nu)
        (nce (hi (view a0 a1 r1 c1 v1)) (hi (view a0 a1 r2 c2 v2)) ni)

end Cert.Spec

end
-- ==== Proof.KI.HostReads.lean ====
import proofs.«429504_j11716670784252_3_alg».proof.Proof.Gen.KernelIdeal.Launch
import proofs.«429504_j11716670784252_3_alg».proof.Proof.Spec
import Idealize.ShloMosaic.Lib.StableHlo.Run

set_option maxRecDepth 16384

noncomputable section

/-! What each stretch of host operations of the kernel's program computes, read off as the stages of the
    loss, from any contents of the buffers the stretch starts from. -/
namespace Cert.KernelIdeal.Hand

open Cert.KernelIdeal Cert.KernelIdeal.Gen
open Idealize.ShloMosaic Idealize.ShloMosaic.TcCoe Idealize.SL.Sem

abbrev Val0 := Valuation τ sig (Elt Ideal)

/-- The ten argument arrays as a valuation holds them. -/
abbrev a0 (W : Val0) : FVec Ideal S50000x64 .f32 := W (Proc.devRef .tc main_arg0)
abbrev a1 (W : Val0) : FVec Ideal S50000x64 .f32 := W (Proc.devRef .tc main_arg1)
abbrev a2 (W : Val0) : IVec S2000000 32 := W (Proc.devRef .tc main_arg2)
abbrev a3 (W : Val0) : IVec S2000000 32 := W (Proc.devRef .tc main_arg3)
abbrev a4 (W : Val0) : FVec Ideal S2000000 .f32 := W (Proc.devRef .tc main_arg4)
abbrev a5 (W : Val0) : IVec S2000000 32 := W (Proc.devRef .tc main_arg5)
abbrev a6 (W : Val0) : IVec S2000000 32 := W (Proc.devRef .tc main_arg6)
abbrev a7 (W : Val0) : FVec Ideal S2000000 .f32 := W (Proc.devRef .tc main_arg7)
abbrev a8 (W : Val0) : IVec S2048 32 := W (Proc.devRef .tc main_arg8)
abbrev a9 (W : Val0) : IVec S2048 32 := W (Proc.devRef .tc main_arg9)

/-! ## The first stretch: both views' propagation, the users' batch rows and their positive scores -/

/-- The users' batch rows of the first view, normalised. -/
theorem h0_v51 (W : Val0) : StableHlo.after (hostOps0 (F := Ideal)) W (Proc.devRef .tc main_v51)
    = Cert.Spec.l2n (Cert.Spec.pick (Cert.Spec.lo (Cert.Spec.view (a0 W) (a1 W) (a2 W) (a3 W) (a4 W))) (a8 W)) := by
  after_results_simp
  rfl

/-- The users' half of the second view. -/
theorem h0_v35 (W : Val0) : StableHlo.after (hostOps0 (F := Ideal)) W (Proc.devRef .tc main_v35)
    = Cert.Spec.lo (Cert.Spec.view (a0 W) (a1 W) (a5 W) (a6 W) (a7 W)) := by
  after_results_simp
  rfl

/-- The items' half of the first view. -/
theorem h0_v34 (W : Val0) : StableHlo.after (hostOps0 (F := Ideal)) W (Proc.devRef .tc main_v34)
    = Cert.Spec.hi (Cert.Spec.view (a0 W) (a1 W) (a2 W) (a3 W) (a4 W)) := by
  after_results_simp
  rfl

/-- The items' half of the second view. -/
theorem h0_v36 (W : Val0) : StableHlo.after (hostOps0 (F := Ideal)) W (Proc.devRef .tc main_v36)
    = Cert.Spec.hi (Cert.Spec.view (a0 W) (a1 W) (a5 W) (a6 W) (a7 W)) := by
  after_results_simp
  rfl

/-- The users' positive scores. -/
theorem h0_v71 (W : Val0) : StableHlo.after (hostOps0 (F := Ideal)) W (Proc.devRef .tc main_v71)
    = Cert.Spec.pos (Cert.Spec.l2n (Cert.Spec.pick (Cert.Spec.lo (Cert.Spec.view (a0 W) (a1 W) (a2 W) (a3 W) (a4 W))) (a8 W)))
        (Cert.Spec.l2n (Cert.Spec.pick (Cert.Spec.lo (Cert.Spec.view (a0 W) (a1 W) (a5 W) (a6 W) (a7 W))) (a8 W))) := by
  after_results_simp
  rfl

/-! ## The second stretch: the users' term, the items' batch rows and their positive scores -/

/-- The users' term, from the positive scores and the column the first region left. -/
theorem h1_v77 (W : Val0) : StableHlo.after (hostOps1 (F := Ideal)) W (Proc.devRef .tc main_v77)
    = Cert.Spec.negloss (W (Proc.devRef .tc main_v71)) (shapeCast S2048 (W (Proc.devRef .tc main_v72)) shapeCasts_S2048x1_S2048) := by
  after_results_simp
  rfl

/-- The items' batch rows of the first view, normalised. -/
theorem h1_v92 (W : Val0) : StableHlo.after (hostOps1 (F := Ideal)) W (Proc.devRef .tc main_v92)
    = Cert.Spec.l2n (Cert.Spec.pick (W (Proc.devRef .tc main_v34)) (W (Proc.devRef .tc main_arg9))) := by
  after_results_simp
  rfl

/-- The items' positive scores. -/
theorem h1_v112 (W : Val0) : StableHlo.after (hostOps1 (F := Ideal)) W (Proc.devRef .tc main_v112)
    = Cert.Spec.pos (Cert.Spec.l2n (Cert.Spec.pick (W (Proc.devRef .tc main_v34)) (W (Proc.devRef .tc main_arg9))))
        (Cert.Spec.l2n (Cert.Spec.pick (W (Proc.devRef .tc main_v36)) (W (Proc.devRef .tc main_arg9)))) := by
  after_results_simp
  rfl

/-! ## The last stretch: the items' term and the mean of the two -/

theorem h2_v120 (W : Val0) : StableHlo.after (hostOps2 (F := Ideal)) W (Proc.devRef .tc main_v120)
    = Cert.Spec.total (W (Proc.devRef .tc main_v77))
        (Cert.Spec.negloss (W (Proc.devRef .tc main_v112)) (shapeCast S2048 (W (Proc.devRef .tc main_v113)) shapeCasts_S2048x1_S2048)) := by
  after_results
  rfl

/-! ## What the stretches leave alone -/

/-- The references the first stretch writes, in order. -/
abbrev wr0 : List (Ref sig .tc) := [
    main_v0, main_v1, main_c, main_v2, main_v3, main_c_0, main_v4, main_v5, main_v6, main_v7,
    main_v8, main_v9, main_v10, main_cst, main_v11, main_v12, main_v13, main_v14, main_c_1, main_v15,
    main_v16, main_c_2, main_v17, main_v18, main_v19, main_v20, main_v21, main_v22, main_v23, main_cst_3,
    main_v24, main_v25, main_v26, main_v27, main_cst_4, main_v28, main_v29, main_v30, main_cst_5, main_v31,
    main_v32, main_v33, main_v34, main_v35, main_v36, main_c_6, main_v37, main_v38, main_c_7, main_v39,
    main_v40, main_v41, main_v42, main_v43, main_v44, main_cst_8, main_v45, main_v46, main_v47, main_cst_9,
    main_v48, main_v49, main_v50, main_v51, main_c_10, main_v52, main_v53, main_c_11, main_v54, main_v55,
    main_v56, main_v57, main_v58, main_v59, main_cst_12, main_v60, main_v61, main_v62, main_cst_13, main_v63,
    main_v64, main_v65, main_v66, main_v67, main_cst_14, main_v68, main_cst_15, main_v69, main_v70, main_v71 ]

theorem hostOps0_wr : (hostOps0 (F := Ideal)).Forall fun op => op.writes ⊆ (wr0.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)

/-- A reference the first stretch does not write keeps its contents. -/
theorem h0_keep (W : Val0) (r : Ref sig .tc) (h : r ∉ wr0) :
    StableHlo.after (hostOps0 (F := Ideal)) W (Proc.devRef .tc r) = W (Proc.devRef .tc r) :=
  StableHlo.after_of_writes_sub _ W hostOps0_wr h

/-- The references the second stretch writes, in order. -/
abbrev wr1 : List (Ref sig .tc) := [
    main_v73, main_v74, main_v75, main_cst_16, main_v76, main_v77, main_c_17, main_v78, main_v79, main_c_18,
    main_v80, main_v81, main_v82, main_v83, main_v84, main_v85, main_cst_19, main_v86, main_v87, main_v88,
    main_cst_20, main_v89, main_v90, main_v91, main_v92, main_c_21, main_v93, main_v94, main_c_22, main_v95,
    main_v96, main_v97, main_v98, main_v99, main_v100, main_cst_23, main_v101, main_v102, main_v103, main_cst_24,
    main_v104, main_v105, main_v106, main_v107, main_v108, main_cst_25, main_v109, main_cst_26, main_v110, main_v111,
    main_v112 ]

theorem hostOps1_wr : (hostOps1 (F := Ideal)).Forall fun op => op.writes ⊆ (wr1.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)

/-- A reference the second stretch does not write keeps its contents. -/
theorem h1_keep (W : Val0) (r : Ref sig .tc) (h : r ∉ wr1) :
    StableHlo.after (hostOps1 (F := Ideal)) W (Proc.devRef .tc r) = W (Proc.devRef .tc r) :=
  StableHlo.after_of_writes_sub _ W hostOps1_wr h

/-- The references the last stretch writes, in order. -/
abbrev wr2 : List (Ref sig .tc) := [
    main_v114, main_v115, main_v116, main_cst_27, main_v117, main_v118, main_v119, main_cst_28, main_v120 ]

theorem hostOps2_wr : (hostOps2 (F := Ideal)).Forall fun op => op.writes ⊆ (wr2.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  refine ⟨?_, ?_, ?_, ?_, ?_, ?_, ?_, ?_, ?_⟩ <;> exact List.mem_map_of_mem (by decide)

/-- A reference the last stretch does not write keeps its contents. -/
theorem h2_keep (W : Val0) (r : Ref sig .tc) (h : r ∉ wr2) :
    StableHlo.after (hostOps2 (F := Ideal)) W (Proc.devRef .tc r) = W (Proc.devRef .tc r) :=
  StableHlo.after_of_writes_sub _ W hostOps2_wr h

/-- The second stretch leaves both item halves and the item batch indices as it finds them. -/
theorem h1_v34 (W : Val0) : StableHlo.after (hostOps1 (F := Ideal)) W (Proc.devRef .tc main_v34) = W (Proc.devRef .tc main_v34) := h1_keep W main_v34 (by decide)
theorem h1_v36 (W : Val0) : StableHlo.after (hostOps1 (F := Ideal)) W (Proc.devRef .tc main_v36) = W (Proc.devRef .tc main_v36) := h1_keep W main_v36 (by decide)
theorem h1_arg9 (W : Val0) : StableHlo.after (hostOps1 (F := Ideal)) W (Proc.devRef .tc main_arg9) = W (Proc.devRef .tc main_arg9) := h1_keep W main_arg9 (by decide)

end Cert.KernelIdeal.Hand

end
-- ==== Proof.Tile.lean ====
import proofs.«429504_j11716670784252_3_alg».proof.Proof.Spec
import proofs.«429504_j11716670784252_3_alg».proof.Proof.Gen.KernelIdeal.Skeleton
import Idealize.ShloMosaic.Lib.ValueIdx

noncomputable section

/-! The kernel's way to the sum over all rows: the half table is read in fifty tiles of a thousand rows,
    and a running column of partial sums takes one tile's contribution at a time. -/
namespace Cert.Spec

open Idealize.ShloMosaic Idealize.ShloMosaic.TcCoe Idealize.ShloMosaic.ValueIdx

/-- Rows `1000 t … 1000 t + 999` of a half table. -/
def tile (e : FVec Ideal Cert.KernelIdeal.S50000x64 .f32) (t : Fin 50) : FVec Ideal Cert.KernelIdeal.S1000x64 .f32 :=
  fun j => e (ix2 (⟨1000 * t.val + (j 0).val, by have h0 : (j 0).val < 1000 := idx2_lt0 (n0 := 1000) (n1 := 64) j; have ht : t.val < 50 := t.isLt; omega⟩ : Fin 50000) (⟨(j 1).val, idx2_lt1 (n0 := 1000) (n1 := 64) j⟩ : Fin 64))

/-- The running column after tile `n`: the first tile's contribution over a zero column, then one tile at a time. -/
def kacc (z1 : FVec Ideal Cert.KernelIdeal.S2048x64 .f32) (e : FVec Ideal Cert.KernelIdeal.S50000x64 .f32) :
    (n : ℕ) → n < 50 → FVec Ideal Cert.KernelIdeal.S2048x1 .f32
  | 0, h => Cert.KernelIdeal.Gen.k0_pay2 (F := Ideal) (tile e ⟨0, h⟩) z1 (Cert.KernelIdeal.Gen.k0_pay1 (F := Ideal))
  | n + 1, h => Cert.KernelIdeal.Gen.k0_pay2 (F := Ideal) (tile e ⟨n + 1, h⟩) z1 (kacc z1 e n (Nat.lt_of_succ_lt h))

end Cert.Spec

end
-- ==== Proof.KI.BlockReads.lean ====
import proofs.«429504_j11716670784252_3_alg».proof.Proof.KI.R0Frame
import proofs.«429504_j11716670784252_3_alg».proof.Proof.Tile

set_option maxRecDepth 16384

noncomputable section

/-! What the first call's input windows hold at each grid point, read off the arrays the region finds:
    the batch rows' window is the whole array at every point, the half table's window at point `t` is
    rows `1000 t … 1000 t + 999`; so the column the kernel carries in its scratch is the specification's
    running column, tile by tile. -/
namespace Cert.KernelIdeal.Hand

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

/-- The printed index maps over the grid: the batch rows' block index is (0, 0) at every point; the half
    table's is (t, 0) at point `t`. -/
theorem idx_facts0 : ∀ t : Fin cfg0.N, win0_0.index t (0 : Fin 2) = 0 ∧ win0_0.index t (1 : Fin 2) = 0
    ∧ win0_1.index t (0 : Fin 2) = t.val ∧ win0_1.index t (1 : Fin 2) = 0 :=
  (by decide +kernel : ∀ t : Fin grid0.N, _)

/-- Window 0's block is the whole array of batch rows at every point. -/
theorem iblk0_z1 (c : Dev nD) (t : Fin cfg0.N) : iblk0 V c 0 t = V c main_v51 := by
  obtain ⟨e0, e1, -, -⟩ := idx_facts0 t
  funext y
  show V c main_v51 (((cfg0.win 0).blk t).view.emb y) = V c main_v51 y
  refine congrArg (V c main_v51) ?_
  funext a; apply Fin.ext
  match a with
  | ⟨0, _⟩ => show win0_0.index t (0 : Fin 2) * 2048 + 1 * (y 0).val = (y 0).val; omega
  | ⟨1, _⟩ => show win0_0.index t (1 : Fin 2) * 64 + 1 * (y 1).val = (y 1).val; omega

/-- Window 1's block at point `t` is the tile of rows `1000 t … 1000 t + 999` of the half table. -/
theorem iblk0_tile (c : Dev nD) (t : Fin cfg0.N) (h : t.val < 50) :
    iblk0 V c 1 t = Cert.Spec.tile (V c main_v35) ⟨t.val, h⟩ := by
  obtain ⟨-, -, e0, e1⟩ := idx_facts0 t
  funext y
  show V c main_v35 (((cfg0.win 1).blk t).view.emb y)
    = V c main_v35 (ix2 (⟨1000 * t.val + (y 0).val, _⟩ : Fin 50000) (⟨(y 1).val, _⟩ : Fin 64))
  refine congrArg (V c main_v35) ?_
  funext a; apply Fin.ext
  match a with
  | ⟨0, _⟩ => show win0_1.index t (0 : Fin 2) * 1000 + 1 * (y 0).val = 1000 * t.val + (y 0).val; omega
  | ⟨1, _⟩ => show win0_1.index t (1 : Fin 2) * 64 + 1 * (y 1).val = (y 1).val; omega

/-- The column the kernel carries after point `n` is the specification's running column after tile `n`. -/
theorem accAt0_kacc (c : Dev nD) (n : ℕ) (h : n < cfg0.N) (h' : n < 50) :
    accAt0 V c n h = Cert.Spec.kacc (V c main_v51) (V c main_v35) n h' := by
  induction n with
  | zero =>
    show k0_pay2 (iblk0 V c 1 ⟨0, h⟩) (iblk0 V c 0 ⟨0, h⟩) (k0_pay1 (F := Ideal))
      = k0_pay2 (Cert.Spec.tile (V c main_v35) ⟨0, h'⟩) (V c main_v51) (k0_pay1 (F := Ideal))
    rw [iblk0_tile V c ⟨0, h⟩ h', iblk0_z1 V c ⟨0, h⟩]
  | succ n ih =>
    show k0_pay2 (iblk0 V c 1 ⟨n + 1, h⟩) (iblk0 V c 0 ⟨n + 1, h⟩) (accAt0 V c n (Nat.lt_of_succ_lt h))
      = k0_pay2 (Cert.Spec.tile (V c main_v35) ⟨n + 1, h'⟩) (V c main_v51)
          (Cert.Spec.kacc (V c main_v51) (V c main_v35) n (Nat.lt_of_succ_lt h'))
    rw [iblk0_tile V c ⟨n + 1, h⟩ h', iblk0_z1 V c ⟨n + 1, h⟩, ih (Nat.lt_of_succ_lt h) (Nat.lt_of_succ_lt h')]

end Cert.KernelIdeal.Hand

end
-- ==== Proof.KI.BlockReads1.lean ====
import proofs.«429504_j11716670784252_3_alg».proof.Proof.KI.R1Frame
import proofs.«429504_j11716670784252_3_alg».proof.Proof.Tile

set_option maxRecDepth 16384

noncomputable section

/-! The second call's input windows at each grid point, read off the arrays that region finds: again the
    batch rows whole and the other half table a thousand rows at a time. The two calls run the same body, so
    the column the second one carries is the same running column, over its own two arrays. -/
namespace Cert.KernelIdeal.Hand

open Cert.KernelIdeal Cert.KernelIdeal.Gen
open Idealize.ShloMosaic Idealize.ShloMosaic.TcCoe Idealize.ShloMosaic.ValueIdx
open Idealize.SL.Sem

/-- The two calls' bodies start their column from the same zero column. -/
theorem pay1_regions_agree : k1_pay1 (F := Ideal) = k0_pay1 (F := Ideal) := by
  unfold k1_pay1 k0_pay1; rfl

/-- The two calls' bodies add the same tile contribution. -/
theorem pay2_regions_agree (v3 : Vec Ideal S1000x64 .f32) (v13 : Vec Ideal S2048x64 .f32) (v21 : Vec Ideal S2048x1 .f32) :
    k1_pay2 (F := Ideal) v3 v13 v21 = k0_pay2 (F := Ideal) v3 v13 v21 := by
  unfold k1_pay2 k0_pay2; rfl

variable (V : (c : Dev nD) → (b : Ref sig .tc) → Buf (Elt Ideal) ((c : Thread nD τ).loc b))

/-- The printed index maps over the second grid: the batch rows' block index is (0, 0) at every point; the
    half table's is (t, 0) at point `t`. -/
theorem idx_facts1 : ∀ t : Fin cfg1.N, win1_0.index t (0 : Fin 2) = 0 ∧ win1_0.index t (1 : Fin 2) = 0
    ∧ win1_1.index t (0 : Fin 2) = t.val ∧ win1_1.index t (1 : Fin 2) = 0 :=
  (by decide +kernel : ∀ t : Fin grid1.N, _)

/-- Window 0's block is the whole array of batch rows at every point. -/
theorem iblk1_z1 (c : Dev nD) (t : Fin cfg1.N) : iblk1 V c 0 t = V c main_v92 := by
  obtain ⟨e0, e1, -, -⟩ := idx_facts1 t
  funext y
  show V c main_v92 (((cfg1.win 0).blk t).view.emb y) = V c main_v92 y
  refine congrArg (V c main_v92) ?_
  funext a; apply Fin.ext
  match a with
  | ⟨0, _⟩ => show win1_0.index t (0 : Fin 2) * 2048 + 1 * (y 0).val = (y 0).val; omega
  | ⟨1, _⟩ => show win1_0.index t (1 : Fin 2) * 64 + 1 * (y 1).val = (y 1).val; omega

/-- Window 1's block at point `t` is the tile of rows `1000 t … 1000 t + 999` of the half table. -/
theorem iblk1_tile (c : Dev nD) (t : Fin cfg1.N) (h : t.val < 50) :
    iblk1 V c 1 t = Cert.Spec.tile (V c main_v36) ⟨t.val, h⟩ := by
  obtain ⟨-, -, e0, e1⟩ := idx_facts1 t
  funext y
  show V c main_v36 (((cfg1.win 1).blk t).view.emb y)
    = V c main_v36 (ix2 (⟨1000 * t.val + (y 0).val, _⟩ : Fin 50000) (⟨(y 1).val, _⟩ : Fin 64))
  refine congrArg (V c main_v36) ?_
  funext a; apply Fin.ext
  match a with
  | ⟨0, _⟩ => show win1_1.index t (0 : Fin 2) * 1000 + 1 * (y 0).val = 1000 * t.val + (y 0).val; omega
  | ⟨1, _⟩ => show win1_1.index t (1 : Fin 2) * 64 + 1 * (y 1).val = (y 1).val; omega

/-- The column the second call carries after point `n` is the running column after tile `n` of its arrays. -/
theorem accAt1_kacc (c : Dev nD) (n : ℕ) (h : n < cfg1.N) (h' : n < 50) :
    accAt1 V c n h = Cert.Spec.kacc (V c main_v92) (V c main_v36) n h' := by
  induction n with
  | zero =>
    show k1_pay2 (iblk1 V c 1 ⟨0, h⟩) (iblk1 V c 0 ⟨0, h⟩) (k1_pay1 (F := Ideal))
      = k0_pay2 (Cert.Spec.tile (V c main_v36) ⟨0, h'⟩) (V c main_v92) (k0_pay1 (F := Ideal))
    rw [iblk1_tile V c ⟨0, h⟩ h', iblk1_z1 V c ⟨0, h⟩, pay1_regions_agree, pay2_regions_agree]
  | succ n ih =>
    show k1_pay2 (iblk1 V c 1 ⟨n + 1, h⟩) (iblk1 V c 0 ⟨n + 1, h⟩) (accAt1 V c n (Nat.lt_of_succ_lt h))
      = k0_pay2 (Cert.Spec.tile (V c main_v36) ⟨n + 1, h'⟩) (V c main_v92)
          (Cert.Spec.kacc (V c main_v92) (V c main_v36) n (Nat.lt_of_succ_lt h'))
    rw [iblk1_tile V c ⟨n + 1, h⟩ h', iblk1_z1 V c ⟨n + 1, h⟩, ih (Nat.lt_of_succ_lt h) (Nat.lt_of_succ_lt h'),
      pay2_regions_agree]

end Cert.KernelIdeal.Hand

end
-- ==== Proof.TtlRead.lean ====
import proofs.«429504_j11716670784252_3_alg».proof.Proof.Spec
import Idealize.ShloMosaic.Lib.ValueIdx
import Idealize.ShloMosaic.Lib.Pipeline.Value
import Idealize.ShloMosaic.PureOps.Ideal.Laws

noncomputable section

/-! The reference's sum over all rows of the second view, read one entry at a time: a normalised row is the
    row over its length (the length kept away from zero), and the total for a batch row is the sum over all
    fifty thousand rows of the exponential of the inner product over one half. -/
namespace Cert.Spec

open Cert.ReferenceIdeal Cert.ReferenceIdeal.Facts₀ Cert.ReferenceIdeal.Facts
open Idealize.ShloMosaic Idealize.ShloMosaic.TcCoe Idealize.ShloMosaic.ValueIdx
open scoped BigOperators

/-! ## The host's pointwise operations at an index -/

theorem hdivf_apply {s : Shape} (a b : FVec Ideal s .f32) (i : s.Idx) : Host.divf a b i = Ideal.div (a i) (b i) := rfl
theorem hsqrt_apply {s : Shape} (a : FVec Ideal s .f32) (i : s.Idx) : Host.sqrt a i = Ideal.sqrt (a i) := rfl
theorem hexp_apply {s : Shape} (a : FVec Ideal s .f32) (i : s.Idx) : Host.exp a i = Ideal.exp (a i) := rfl

/-! ## The broadcasts at an index -/

/-- A column spread along the rows reads, at (n, k), the column at (n, 0). -/
theorem bcast_col64_apply (v : Tf S50000x1) (n : Fin 50000) (k : Fin 64) :
    broadcastInDim S50000x64 ![0, 1] bcast_S50000x1_S50000x64_0_1 v (ix2 n k) = v (ix2 n (0 : Fin 1)) :=
  broadcastInDim_apply _ bcast_S50000x1_S50000x64_0_1 v (ix2 n k) (ix2 n (0 : Fin 1)) fun a => match a with
    | ⟨0, _⟩ => by show n.val = if (50000 : Nat) = 1 then 0 else n.val; rw [if_neg (by decide)]
    | ⟨1, _⟩ => by show 0 = if (1 : Nat) = 1 then 0 else k.val; rw [if_pos rfl]

/-- A vector stood up as a column reads, at (n, 0), the vector at n. -/
theorem bcast_vec_col_apply (w : Tf S50000) (n : Fin 50000) :
    broadcastInDim S50000x1 ![0] bcast_S50000_S50000x1_0 w (ix2 n (0 : Fin 1)) = w (ix1 n) :=
  broadcastInDim_apply _ bcast_S50000_S50000x1_0 w (ix2 n (0 : Fin 1)) (ix1 n) fun a => match a with
    | ⟨0, _⟩ => by show n.val = if (50000 : Nat) = 1 then 0 else n.val; rw [if_neg (by decide)]

/-- A number spread over a column reads the number everywhere. -/
theorem bcast_scal_col_apply (c : Tf S_) (j : S50000x1.Idx) :
    broadcastInDim S50000x1 ![] bcast_S_S50000x1 c j = c ix0 :=
  broadcastInDim_apply _ bcast_S_S50000x1 c j ix0 fun a => a.elim0

/-- A number spread over the score table reads the number everywhere. -/
theorem bcast_scal_tab_apply (c : Tf S_) (j : S2048x50000.Idx) :
    broadcastInDim S2048x50000 ![] bcast_S_S2048x50000 c j = c ix0 :=
  broadcastInDim_apply _ bcast_S_S2048x50000 c j ix0 fun a => a.elim0

/-- The transposed table reads, at (k, n), the table at (n, k). -/
theorem transpose_tab_apply (x : Tf S50000x64) (k : Fin 64) (n : Fin 50000) :
    transpose S64x50000 [1, 0] x transposes_S50000x64_S64x50000_1_0 (ix2 k n) = x (ix2 n k) :=
  transpose_apply [1, 0] x transposes_S50000x64_S64x50000_1_0 (ix2 k n) (ix2 n k) fun b => match b with
    | ⟨0, _⟩ => rfl
    | ⟨1, _⟩ => rfl

/-! ## The host sums at an index -/

/-- The host's sum along a half table's rows, from zero, reads at row n the sum of that row's 64 entries. -/
theorem rowsum64_apply (y : Tf S50000x64) (n : Fin 50000) :
    Host.reduceAdd y (constant (F := Ideal) S_ .f32 0x00000000#32) reducesTo_S50000x64_S50000_d1 h_S_ (ix1 n)
      = ∑ k : Fin 64, y (ix2 n k) := by
  simp only [Host.reduceAdd, Ideal.hostReduceAdd_def]
  rw [Ideal.hostReduceAdd_single reducesTo_S50000x64_S50000_d1 (by decide), constant_apply, Ideal.ofBits_zero_f32, zero_add]
  refine Finset.sum_congr rfl fun k _ => congrArg y (funext fun a => Fin.ext ?_)
  match a with
  | ⟨0, _⟩ => rfl
  | ⟨1, _⟩ => rfl

/-- The host's sum along the score table's rows, from zero, reads at batch row b the sum of its 50000 entries. -/
theorem rowsum50000_apply (y : Tf S2048x50000) (b : Fin 2048) :
    Host.reduceAdd y (constant (F := Ideal) S_ .f32 0x00000000#32) reducesTo_S2048x50000_S2048_d1 h_S_ (ix1 b)
      = ∑ n : Fin 50000, y (ix2 b n) := by
  simp only [Host.reduceAdd, Ideal.hostReduceAdd_def]
  rw [Ideal.hostReduceAdd_single reducesTo_S2048x50000_S2048_d1 (by decide), constant_apply, Ideal.ofBits_zero_f32, zero_add]
  refine Finset.sum_congr rfl fun n _ => congrArg y (funext fun a => Fin.ext ?_)
  match a with
  | ⟨0, _⟩ => rfl
  | ⟨1, _⟩ => rfl

/-! ## A normalised row -/

/-- Entry (n, k) of the normalised half table: the entry over the length of row n, the length kept away from zero. -/
theorem l2nAll_apply (e : Tf S50000x64) (n : Fin 50000) (k : Fin 64) :
    l2nAll e (ix2 n k)
      = Ideal.div (e (ix2 n k)) (max (Ideal.sqrt (∑ k' : Fin 64, e (ix2 n k') * e (ix2 n k'))) (Ideal.ofBits .f32 0x2B8CBCCC#32)) := by
  unfold l2nAll
  rw [hdivf_apply, bcast_col64_apply, maximumf_apply, hsqrt_apply, bcast_vec_col_apply, rowsum64_apply, bcast_scal_col_apply,
    constant_apply]
  rfl

/-! ## The scores at an index -/

/-- In the product of the batch rows with the transposed table, the left operand is read on the result's row. -/
theorem dot_lhs_row (j : S2048x50000.Idx) (q : dot_S2048x64_S64x50000_S2048x50000_1_0_0_1_n_n.contr.Idx) :
    (dot_S2048x64_S64x50000_S2048x50000_1_0_0_1_n_n.lhsIdx j q 0).val = (j 0).val := by
  unfold DotDims.lhsIdx
  rw [dif_neg (show ¬(0 : Fin S2048x64.rank) ∈ dot_S2048x64_S64x50000_S2048x50000_1_0_0_1_n_n.lhsBatch by decide),
    dif_pos (show (0 : Fin S2048x64.rank) ∈ dot_S2048x64_S64x50000_S2048x50000_1_0_0_1_n_n.lhsNonContracting by decide)]
  rfl

/-- … and the right operand on the result's column. -/
theorem dot_rhs_col (j : S2048x50000.Idx) (q : dot_S2048x64_S64x50000_S2048x50000_1_0_0_1_n_n.contr.Idx) :
    (dot_S2048x64_S64x50000_S2048x50000_1_0_0_1_n_n.rhsIdx j q 1).val = (j 1).val := by
  unfold DotDims.rhsIdx
  rw [dif_neg (show ¬(1 : Fin S64x50000.rank) ∈ dot_S2048x64_S64x50000_S2048x50000_1_0_0_1_n_n.rhsBatch by decide),
    dif_pos (show (1 : Fin S64x50000.rank) ∈ dot_S2048x64_S64x50000_S2048x50000_1_0_0_1_n_n.rhsNonContracting by decide)]
  rfl

/-- Entry (b, n) of the product of the batch rows with the transposed table: row b against the table's column n. -/
theorem dot_tab_apply (l : Tf S2048x64) (r : Tf S64x50000) (b : Fin 2048) (n : Fin 50000) :
    Host.dotGeneral dot_S2048x64_S64x50000_S2048x50000_1_0_0_1_n_n none l r (ix2 b n)
      = ∑ k : Fin 64, l (ix2 b k) * r (ix2 k n) := by
  simp only [Host.dotGeneral]
  rw [Ideal.dotGeneral_apply, ← Equiv.sum_comp (contrEquiv1 dot_S2048x64_S64x50000_S2048x50000_1_0_0_1_n_n 64 rfl rfl).symm]
  refine Finset.sum_congr rfl fun k _ => ?_
  have hk := contrEquiv1_symm_val dot_S2048x64_S64x50000_S2048x50000_1_0_0_1_n_n 64 rfl rfl k
  congr 1
  · refine congrArg l (funext fun a => Fin.ext ?_)
    match a with
    | ⟨0, _⟩ => exact dot_lhs_row _ _
    | ⟨1, _⟩ => exact (dot_S2048x64_S64x50000_S2048x50000_1_0_0_1_n_n.lhsIdx_val_of_single rfl _ _).trans hk
  · refine congrArg r (funext fun a => Fin.ext ?_)
    match a with
    | ⟨0, _⟩ => exact (dot_S2048x64_S64x50000_S2048x50000_1_0_0_1_n_n.rhsIdx_val_of_single rfl _ _).trans hk
    | ⟨1, _⟩ => exact dot_rhs_col _ _

/-! ## The total for a batch row -/

/-- The total at batch row b: over all fifty thousand rows of the second view, the exponential of the inner product
    of batch row b with the normalised row, over one half. -/
theorem ttl_apply (z1 : Tf S2048x64) (e : Tf S50000x64) (b : Fin 2048) :
    ttl z1 e (ix1 b)
      = ∑ n : Fin 50000, Ideal.exp (Ideal.div (∑ k : Fin 64, z1 (ix2 b k) * l2nAll e (ix2 n k)) (Ideal.ofBits .f32 0x3F000000#32)) := by
  unfold ttl
  rw [rowsum50000_apply]
  refine Finset.sum_congr rfl fun n _ => ?_
  rw [hexp_apply, hdivf_apply, dot_tab_apply, bcast_scal_tab_apply, constant_apply]
  refine congrArg (fun s => Ideal.exp (Ideal.div s _)) (Finset.sum_congr rfl fun k _ => ?_)
  rw [transpose_tab_apply]

end Cert.Spec

end
-- ==== Proof.TtlLaw.lean ====
import proofs.«429504_j11716670784252_3_alg».proof.Proof.Tile
import proofs.«429504_j11716670784252_3_alg».proof.Proof.TtlRead
import Idealize.ShloMosaic.Lib.ValueIdx
import Idealize.ShloMosaic.Lib.Pipeline.Value
import Idealize.ShloMosaic.Lib.ValueLayout
import Idealize.ShloMosaic.PureOps.Ideal.Laws
import Mathlib.Algebra.BigOperators.Fin

noncomputable section

/-! The law that joins the two programs: the running column of partial sums, after the last of the fifty
    tiles, holds at each batch row the sum over all fifty thousand normalised rows of the exponentiated score.
    Three facts make it: the length of a row is the same whether the row is read in its tile or in the whole
    table; dividing by one half is multiplying by two on every extended real; and a sum over fifty thousand
    rows is the sum over fifty tiles of the sums over their thousand rows. -/
namespace Cert.Spec

open Idealize.ShloMosaic Idealize.ShloMosaic.TcCoe Idealize.ShloMosaic.ValueIdx
open scoped BigOperators

/-! ## The summand, row by row -/

/-- The length of a row of 64 numbers, kept away from zero by a small constant. -/
def rlen (r : Fin 64 → EReal) : EReal :=
  max (Ideal.sqrt (∑ k : Fin 64, r k * r k)) (Ideal.ofBits .f32 0x2B8CBCCC#32)

/-- The inner product of a row with a second row divided by its length. -/
def score (u r : Fin 64 → EReal) : EReal := ∑ k : Fin 64, u k * Ideal.div (r k) (rlen r)

/-- One summand: the exponential of twice the score. -/
def term (u r : Fin 64 → EReal) : EReal := Ideal.exp (score u r * Ideal.ofBits .f32 0x40000000#32)

/-- Row i of an array of 64 columns. -/
def row {n : ℕ} (x : (⟨2, ![n, 64]⟩ : Shape).Idx → EReal) (i : Fin n) : Fin 64 → EReal := fun k => x (ix2 i k)

/-! ## The two constants and the one law of arithmetic -/

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

/-- Dividing by one half is multiplying by two, at the infinities too. -/
theorem div_half (x : EReal) :
    Ideal.div x (Ideal.ofBits .f32 0x3F000000#32) = x * Ideal.ofBits .f32 0x40000000#32 := by
  rw [ofBits_half, ofBits_two, Ideal.div_coe (by norm_num)]
  norm_num

/-! ## Fifty thousand rows are fifty tiles of a thousand -/

theorem sum_tiles {M : Type*} [AddCommMonoid M] (f : Fin 50000 → M) :
    ∑ N : Fin 50000, f N
      = ∑ t : Fin 50, ∑ n : Fin 1000, f ⟨1000 * t.val + n.val, by have := t.isLt; have := n.isLt; omega⟩ := by
  rw [← Equiv.sum_comp (finProdFinEquiv (m := 50) (n := 1000)) f, Fintype.sum_prod_type]
  refine Finset.sum_congr rfl fun t _ => Finset.sum_congr rfl fun n _ => congrArg f (Fin.ext ?_)
  show n.val + 1000 * t.val = 1000 * t.val + n.val
  omega

/-! ## Column casts and the column broadcast, read at an index -/

section Layout
variable {α : Type}

/-- A vector cast to a column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column cast to a vector reads, at i, the column at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column broadcast along the rows reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The kernel's step, operation by operation -/

section Kernel
open Cert.KernelIdeal Cert.KernelIdeal.Gen

/-- The lengths of a tile's rows, as a column. -/
def tlen (x : FVec Ideal S1000x64 .f32) : FVec Ideal S1000x1 .f32 :=
  maximumf
    (sqrt (shapeCast S1000x1
      (multiReduction (F := Ideal) .add [1] S1000 (mulf x x) 0x00000000#32 reduces_S1000x64_S1000 (.inl rfl) rfl)
      shapeCasts_S1000_S1000x1))
    (broadcast S1000x1 (Scalar.ofBits (F := Ideal) .f32 0x2B8CBCCC#32))

/-- A tile's rows, each divided by its length. -/
def tnorm (x : FVec Ideal S1000x64 .f32) : FVec Ideal S1000x64 .f32 :=
  divf x (broadcastTo S1000x64 (tlen x) broadcasts_S1000x1_S1000x64)

/-- The batch rows' inner products with a tile's rows. -/
def tdot (z : FVec Ideal S2048x64 .f32) (y : FVec Ideal S1000x64 .f32) : FVec Ideal S2048x1000 .f32 :=
  matmul dot_S2048x64_S64x1000_S2048x1000_1_0_0_1_n_n none
    (truncf .bf16 z bitsLt_bf16_f32)
    (transpose S64x1000 [1, 0] (truncf .bf16 y bitsLt_bf16_f32) transposes_S1000x64_p1_0_S64x1000)
    (constant S2048x1000 .f32 0x00000000#32)

/-- Per batch row, the sum over a tile's rows of the exponential of twice the inner product, as a column. -/
def tsum (s : FVec Ideal S2048x1000 .f32) : FVec Ideal S2048x1 .f32 :=
  shapeCast S2048x1
    (multiReduction (F := Ideal) .add [1] S2048
      (exp (mulf s (broadcast S2048x1000 (Scalar.ofBits (F := Ideal) .f32 0x40000000#32))))
      0x00000000#32 reduces_S2048x1000_S2048 (.inl rfl) rfl)
    shapeCasts_S2048_S2048x1

/-- The kernel's step is these four, between casts of a shape to itself. -/
theorem k0_pay2_eq (x : FVec Ideal S1000x64 .f32) (z : FVec Ideal S2048x64 .f32) (acc : FVec Ideal S2048x1 .f32) :
    k0_pay2 (F := Ideal) x z acc
      = shapeCast S2048x1 (addf acc (tsum (tdot (shapeCast S2048x64 z shapeCasts_S2048x64_S2048x64)
          (tnorm (shapeCast S1000x64 x shapeCasts_S1000x64_S1000x64))))) shapeCasts_S2048x1_S2048x1 := rfl

theorem tlen_apply (x : FVec Ideal S1000x64 .f32) (n : Fin 1000) :
    tlen x (ix2 n (0 : Fin 1)) = rlen (row x n) := by
  unfold tlen rlen
  show max (Ideal.sqrt (shapeCast S1000x1 _ shapeCasts_S1000_S1000x1 (ix2 n (0 : Fin 1)))) (Ideal.ofBits .f32 0x2B8CBCCC#32) = _
  rw [shapeCast_a_a1_apply]
  refine congrArg (fun s => max (Ideal.sqrt s) (Ideal.ofBits .f32 0x2B8CBCCC#32)) ?_
  refine (Ideal.multiReduction_add_single (mulf x x) _ reduces_S1000x64_S1000 _ _ (ix1 n)).trans ?_
  refine Finset.sum_congr rfl fun k _ => ?_
  exact congrArg (mulf x x) (funext fun a => Fin.ext (by match a with | ⟨0, _⟩ => rfl | ⟨1, _⟩ => rfl))

theorem tnorm_apply (x : FVec Ideal S1000x64 .f32) (n : Fin 1000) (k : Fin 64) :
    tnorm x (ix2 n k) = Ideal.div (x (ix2 n k)) (rlen (row x n)) := by
  unfold tnorm
  show Ideal.div (x (ix2 n k)) (broadcastTo S1000x64 (tlen x) broadcasts_S1000x1_S1000x64 (ix2 n k)) = _
  rw [broadcastTo_a1_ab_apply, tlen_apply]

theorem tsum_apply (s : FVec Ideal S2048x1000 .f32) (b : Fin 2048) :
    tsum s (ix2 b (0 : Fin 1)) = ∑ n : Fin 1000, Ideal.exp (s (ix2 b n) * Ideal.ofBits .f32 0x40000000#32) := by
  unfold tsum
  rw [shapeCast_a_a1_apply]
  refine (Ideal.multiReduction_add_single _ _ reduces_S2048x1000_S2048 _ _ (ix1 b)).trans ?_
  refine Finset.sum_congr rfl fun n _ => ?_
  exact congrArg (exp (mulf s (broadcast S2048x1000 (Scalar.ofBits (F := Ideal) .f32 0x40000000#32))))
    (funext fun a => Fin.ext (by match a with | ⟨0, _⟩ => rfl | ⟨1, _⟩ => rfl))

end Kernel

section KernelDot
open Cert.KernelIdeal Cert.KernelIdeal.Gen

/-! The four coordinates of the matrix product's operand indices. -/

theorem tdot_lhs_0 (i : S2048x1000.Idx) (q : dot_S2048x64_S64x1000_S2048x1000_1_0_0_1_n_n.contr.Idx) :
    (dot_S2048x64_S64x1000_S2048x1000_1_0_0_1_n_n.lhsIdx i q 0).val = (i 0).val := by
  unfold DotDims.lhsIdx
  rw [dif_neg (show ¬(0 : Fin S2048x64.rank) ∈ dot_S2048x64_S64x1000_S2048x1000_1_0_0_1_n_n.lhsBatch by decide), dif_pos (show (0 : Fin S2048x64.rank) ∈ dot_S2048x64_S64x1000_S2048x1000_1_0_0_1_n_n.lhsNonContracting by decide)]
  rfl
theorem tdot_lhs_1 (i : S2048x1000.Idx) (q : dot_S2048x64_S64x1000_S2048x1000_1_0_0_1_n_n.contr.Idx) :
    (dot_S2048x64_S64x1000_S2048x1000_1_0_0_1_n_n.lhsIdx i q 1).val = (q ⟨0, by decide⟩).val :=
  dot_S2048x64_S64x1000_S2048x1000_1_0_0_1_n_n.lhsIdx_val_of_single rfl i q
theorem tdot_rhs_0 (i : S2048x1000.Idx) (q : dot_S2048x64_S64x1000_S2048x1000_1_0_0_1_n_n.contr.Idx) :
    (dot_S2048x64_S64x1000_S2048x1000_1_0_0_1_n_n.rhsIdx i q 0).val = (q ⟨0, by decide⟩).val :=
  dot_S2048x64_S64x1000_S2048x1000_1_0_0_1_n_n.rhsIdx_val_of_single rfl i q
theorem tdot_rhs_1 (i : S2048x1000.Idx) (q : dot_S2048x64_S64x1000_S2048x1000_1_0_0_1_n_n.contr.Idx) :
    (dot_S2048x64_S64x1000_S2048x1000_1_0_0_1_n_n.rhsIdx i q 1).val = (i 1).val := by
  unfold DotDims.rhsIdx
  rw [dif_neg (show ¬(1 : Fin S64x1000.rank) ∈ dot_S2048x64_S64x1000_S2048x1000_1_0_0_1_n_n.rhsBatch by decide), dif_pos (show (1 : Fin S64x1000.rank) ∈ dot_S2048x64_S64x1000_S2048x1000_1_0_0_1_n_n.rhsNonContracting by decide)]
  rfl

/-- The matrix product into a zero accumulator, at batch row b and tile row n: the plain sum of products. -/
theorem tdot_apply (z : FVec Ideal S2048x64 .f32) (y : FVec Ideal S1000x64 .f32) (b : Fin 2048) (n : Fin 1000) :
    tdot z y (ix2 b n) = ∑ k : Fin 64, z (ix2 b k) * y (ix2 n k) := by
  unfold tdot
  simp only [matmul]
  refine (Ideal.matmul_constant_zero_apply dot_S2048x64_S64x1000_S2048x1000_1_0_0_1_n_n none _ _ (ix2 b n)).trans ?_
  rw [← Equiv.sum_comp (ValueIdx.contrEquiv1 dot_S2048x64_S64x1000_S2048x1000_1_0_0_1_n_n 64 rfl rfl).symm]
  refine Finset.sum_congr rfl fun k _ => ?_
  have hk := ValueIdx.contrEquiv1_symm_val dot_S2048x64_S64x1000_S2048x1000_1_0_0_1_n_n 64 rfl rfl k
  have el : dot_S2048x64_S64x1000_S2048x1000_1_0_0_1_n_n.lhsIdx (ix2 b n) ((ValueIdx.contrEquiv1 dot_S2048x64_S64x1000_S2048x1000_1_0_0_1_n_n 64 rfl rfl).symm k) = ix2 b k := funext fun a => Fin.ext (by
    match a with
    | ⟨0, _⟩ => exact tdot_lhs_0 _ _
    | ⟨1, _⟩ => exact (tdot_lhs_1 _ _).trans hk)
  have er : dot_S2048x64_S64x1000_S2048x1000_1_0_0_1_n_n.rhsIdx (ix2 b n) ((ValueIdx.contrEquiv1 dot_S2048x64_S64x1000_S2048x1000_1_0_0_1_n_n 64 rfl rfl).symm k) = ix2 k n := funext fun a => Fin.ext (by
    match a with
    | ⟨0, _⟩ => exact (tdot_rhs_0 _ _).trans hk
    | ⟨1, _⟩ => exact tdot_rhs_1 _ _)
  rw [el, er, transpose_ix2_apply]
  rfl

/-- The kernel's step at a batch row: the column there, plus the tile's thousand summands. -/
theorem pay2_apply (x : FVec Ideal S1000x64 .f32) (z : FVec Ideal S2048x64 .f32) (acc : FVec Ideal S2048x1 .f32) (b : Fin 2048) :
    k0_pay2 (F := Ideal) x z acc (ix2 b (0 : Fin 1)) = acc (ix2 b (0 : Fin 1)) + ∑ n : Fin 1000, term (row z b) (row x n) := by
  rw [k0_pay2_eq, shapeCast_self]
  show acc (ix2 b (0 : Fin 1)) + tsum _ (ix2 b (0 : Fin 1)) = _
  rw [tsum_apply]
  refine congrArg (acc (ix2 b (0 : Fin 1)) + ·) (Finset.sum_congr rfl fun n _ => ?_)
  rw [tdot_apply]
  unfold term score
  refine congrArg (fun s => Ideal.exp (s * Ideal.ofBits .f32 0x40000000#32)) (Finset.sum_congr rfl fun k _ => ?_)
  rw [shapeCast_self, tnorm_apply, shapeCast_self]
  rfl

/-- The column the first grid point stores is zero. -/
theorem pay1_apply (b : Fin 2048) : k0_pay1 (F := Ideal) (ix2 b (0 : Fin 1)) = 0 := by
  unfold k0_pay1
  show shapeCast S2048x1 _ shapeCasts_S2048x1_S2048x1 (ix2 b (0 : Fin 1)) = 0
  rw [shapeCast_self]
  exact Ideal.ofBits_zero_f32

end KernelDot

/-! ## The running column as a sum over tiles -/

/-- One tile's thousand summands at a batch row. -/
def tileSum (z1 : FVec Ideal Cert.KernelIdeal.S2048x64 .f32) (e : FVec Ideal Cert.KernelIdeal.S50000x64 .f32) (b : Fin 2048) (t : Fin 50) : EReal :=
  ∑ n : Fin 1000, term (row z1 b) (row e ⟨1000 * t.val + n.val, by have := t.isLt; have := n.isLt; omega⟩)

/-- A tile's row is the table's row. -/
theorem row_tile (e : FVec Ideal Cert.KernelIdeal.S50000x64 .f32) (t : Fin 50) (n : Fin 1000) :
    row (tile e t) n = row e ⟨1000 * t.val + n.val, by have := t.isLt; have := n.isLt; omega⟩ := rfl

/-- After tile n the running column holds, at each batch row, the summands of tiles 0 to n. -/
theorem kacc_eq (z1 : FVec Ideal Cert.KernelIdeal.S2048x64 .f32) (e : FVec Ideal Cert.KernelIdeal.S50000x64 .f32) (b : Fin 2048) :
    ∀ (n : ℕ) (h : n < 50), kacc z1 e n h (ix2 b (0 : Fin 1)) = ∑ t : Fin (n + 1), tileSum z1 e b ⟨t.val, by have := t.isLt; omega⟩
  | 0, h => by
    rw [kacc, pay2_apply, pay1_apply, zero_add, Fin.sum_univ_one]
    rfl
  | n + 1, h => by
    rw [kacc, pay2_apply, kacc_eq z1 e b n (Nat.lt_of_succ_lt h)]
    exact (Fin.sum_univ_castSucc (fun t : Fin (n + 1 + 1) => tileSum z1 e b ⟨t.val, by have := t.isLt; omega⟩)).symm

/-! ## The join -/

/-- The reference's sum over the whole table, in the summands of the kernel. -/
theorem ttl_term (z1 : FVec Ideal Cert.KernelIdeal.S2048x64 .f32) (e : FVec Ideal Cert.KernelIdeal.S50000x64 .f32) (b : Fin 2048) :
    ttl z1 e (ix1 b) = ∑ N : Fin 50000, term (row z1 b) (row e N) := by
  rw [ttl_apply]
  refine Finset.sum_congr rfl fun N _ => ?_
  rw [div_half]
  unfold term score
  refine congrArg (fun s => Ideal.exp (s * Ideal.ofBits .f32 0x40000000#32)) (Finset.sum_congr rfl fun k _ => ?_)
  rw [l2nAll_apply]
  rfl

/-- After the last tile the running column holds, at each batch row, the reference's sum. -/
theorem kacc_ttl (z1 : FVec Ideal Cert.KernelIdeal.S2048x64 .f32) (e : FVec Ideal Cert.KernelIdeal.S50000x64 .f32) (b : Fin 2048) :
    kacc z1 e 49 (by omega) (ix2 b (0 : Fin 1)) = ttl z1 e (ix1 b) := by
  rw [ttl_term, kacc_eq, sum_tiles]
  rfl

/-- The same for the whole array, the column read as a vector. -/
theorem kacc_ttl' (z1 : FVec Ideal Cert.KernelIdeal.S2048x64 .f32) (e : FVec Ideal Cert.KernelIdeal.S50000x64 .f32)
    (h : Cert.KernelIdeal.S2048x1.ShapeCasts Cert.KernelIdeal.S2048) :
    shapeCast Cert.KernelIdeal.S2048 (kacc z1 e 49 (by omega)) h = ttl z1 e := by
  funext j
  obtain ⟨b, rfl⟩ : ∃ b : Fin 2048, j = ix1 b := ⟨j 0, eq_ix1 j⟩
  rw [shapeCast_a1_a_apply]
  exact kacc_ttl z1 e b

/-! ## The second region's kernel has the same body -/

theorem k1_pay2_eq : @Cert.KernelIdeal.Gen.k1_pay2 Ideal _ = @Cert.KernelIdeal.Gen.k0_pay2 Ideal _ := rfl
theorem k1_pay1_eq : @Cert.KernelIdeal.Gen.k1_pay1 Ideal _ = @Cert.KernelIdeal.Gen.k0_pay1 Ideal _ := rfl

end Cert.Spec

end
-- ==== Proof.KI.Value.lean ====
import proofs.«429504_j11716670784252_3_alg».proof.Proof.KI.Run
import proofs.«429504_j11716670784252_3_alg».proof.Proof.KI.HostReads
import proofs.«429504_j11716670784252_3_alg».proof.Proof.KI.BlockReads
import proofs.«429504_j11716670784252_3_alg».proof.Proof.KI.BlockReads1
import proofs.«429504_j11716670784252_3_alg».proof.Proof.TtlLaw

set_option maxRecDepth 16384

noncomputable section

/-! The kernel's program computes the loss: walking its five stretches in order, each buffer the next
    stretch reads is a stage of the specification of the launch contents. The two calls each leave the
    running column after the fiftieth tile, which is the sum over all rows; the host stretches around them
    are the specification's other stages, operation for operation. -/
namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The first propagated view of the launch contents. -/
abbrev vw1 (c : Dev nD) : FVec Ideal S100000x64 .f32 := (Cert.Spec.view (m ((c : Thread nD τ).loc main_arg0)) (m ((c : Thread nD τ).loc main_arg1)) (m ((c : Thread nD τ).loc main_arg2)) (m ((c : Thread nD τ).loc main_arg3)) (m ((c : Thread nD τ).loc main_arg4)))
/-- The second propagated view of the launch contents. -/
abbrev vw2 (c : Dev nD) : FVec Ideal S100000x64 .f32 := (Cert.Spec.view (m ((c : Thread nD τ).loc main_arg0)) (m ((c : Thread nD τ).loc main_arg1)) (m ((c : Thread nD τ).loc main_arg5)) (m ((c : Thread nD τ).loc main_arg6)) (m ((c : Thread nD τ).loc main_arg7)))
/-- The users' batch rows of either view, normalised. -/
abbrev zu1 (c : Dev nD) : FVec Ideal S2048x64 .f32 := Cert.Spec.l2n (Cert.Spec.pick (Cert.Spec.lo (vw1 m c)) (m ((c : Thread nD τ).loc main_arg8)))
abbrev zu2 (c : Dev nD) : FVec Ideal S2048x64 .f32 := Cert.Spec.l2n (Cert.Spec.pick (Cert.Spec.lo (vw2 m c)) (m ((c : Thread nD τ).loc main_arg8)))
/-- The items' batch rows of either view, normalised. -/
abbrev zi1 (c : Dev nD) : FVec Ideal S2048x64 .f32 := Cert.Spec.l2n (Cert.Spec.pick (Cert.Spec.hi (vw1 m c)) (m ((c : Thread nD τ).loc main_arg9)))
abbrev zi2 (c : Dev nD) : FVec Ideal S2048x64 .f32 := Cert.Spec.l2n (Cert.Spec.pick (Cert.Spec.hi (vw2 m c)) (m ((c : Thread nD τ).loc main_arg9)))

/-! ## What the first call is entered with -/

theorem V1_v51 (c : Dev nD) : V1 m ρ c main_v51 = zu1 m c := h0_v51 (W0 m ρ c)
theorem V1_v35 (c : Dev nD) : V1 m ρ c main_v35 = Cert.Spec.lo (vw2 m c) := h0_v35 (W0 m ρ c)

/-! ## What the first call leaves, and what passes it unchanged -/

/-- The first call's column, as a vector, is the users' sum over all rows of the second view's users' half. -/
theorem W2_v72 (c : Dev nD) :
    shapeCast S2048 (W2 m ρ c (Proc.devRef .tc main_v72)) shapeCasts_S2048x1_S2048
      = Cert.Spec.ttl (zu1 m c) (Cert.Spec.lo (vw2 m c)) := by
  have h : W2 m ρ c (Proc.devRef .tc main_v72)
      = Cert.Spec.kacc (V1 m ρ c main_v51) (V1 m ρ c main_v35) 49 (by omega) :=
    (W2_arr m ρ c 2).trans ((arrAt0_out (V1 m ρ) c).trans (accAt0_kacc (V1 m ρ) c 49 _ _))
  rw [h, V1_v51, V1_v35]
  exact Cert.Spec.kacc_ttl' _ _ _

theorem W2_v71 (c : Dev nD) : W2 m ρ c (Proc.devRef .tc main_v71) = Cert.Spec.pos (zu1 m c) (zu2 m c) :=
  (W2_of_ne m ρ c main_v71 (by decide)).trans (h0_v71 (W0 m ρ c))
theorem W2_v34 (c : Dev nD) : W2 m ρ c (Proc.devRef .tc main_v34) = Cert.Spec.hi (vw1 m c) :=
  (W2_of_ne m ρ c main_v34 (by decide)).trans (h0_v34 (W0 m ρ c))
theorem W2_v36 (c : Dev nD) : W2 m ρ c (Proc.devRef .tc main_v36) = Cert.Spec.hi (vw2 m c) :=
  (W2_of_ne m ρ c main_v36 (by decide)).trans (h0_v36 (W0 m ρ c))
theorem W2_arg9 (c : Dev nD) : W2 m ρ c (Proc.devRef .tc main_arg9) = m ((c : Thread nD τ).loc main_arg9) :=
  (W2_of_ne m ρ c main_arg9 (by decide)).trans ((W1_of m ρ c main_arg9 (by decide)).trans rfl)

/-! ## The second host stretch: the users' term, and what the second call is entered with -/

/-- The users' contrastive term. -/
theorem W3_v77 (c : Dev nD) : W3 m ρ c (Proc.devRef .tc main_v77)
    = Cert.Spec.nce (Cert.Spec.lo (vw1 m c)) (Cert.Spec.lo (vw2 m c)) (m ((c : Thread nD τ).loc main_arg8)) := by
  refine (h1_v77 (W2 m ρ c)).trans ?_
  rw [W2_v72 m ρ c, W2_v71 m ρ c]
  rfl

theorem V3_v92 (c : Dev nD) : V3 m ρ c main_v92 = zi1 m c := by
  refine (h1_v92 (W2 m ρ c)).trans ?_
  rw [W2_v34 m ρ c, W2_arg9 m ρ c]
theorem V3_v36 (c : Dev nD) : V3 m ρ c main_v36 = Cert.Spec.hi (vw2 m c) :=
  (W3_of m ρ c main_v36 (by decide)).trans (W2_v36 m ρ c)
theorem W3_v112 (c : Dev nD) : W3 m ρ c (Proc.devRef .tc main_v112) = Cert.Spec.pos (zi1 m c) (zi2 m c) := by
  refine (h1_v112 (W2 m ρ c)).trans ?_
  rw [W2_v34 m ρ c, W2_v36 m ρ c, W2_arg9 m ρ c]

/-! ## What the second call leaves, and what passes it unchanged -/

/-- The second call's column, as a vector, is the items' sum over all rows of the second view's items' half. -/
theorem W4_v113 (c : Dev nD) :
    shapeCast S2048 (W4 m ρ c (Proc.devRef .tc main_v113)) shapeCasts_S2048x1_S2048
      = Cert.Spec.ttl (zi1 m c) (Cert.Spec.hi (vw2 m c)) := by
  have h : W4 m ρ c (Proc.devRef .tc main_v113)
      = Cert.Spec.kacc (V3 m ρ c main_v92) (V3 m ρ c main_v36) 49 (by omega) :=
    (W4_arr m ρ c 2).trans ((arrAt1_out (V3 m ρ) c).trans (accAt1_kacc (V3 m ρ) c 49 _ _))
  rw [h, V3_v92, V3_v36]
  exact Cert.Spec.kacc_ttl' _ _ _

theorem W4_v77 (c : Dev nD) : W4 m ρ c (Proc.devRef .tc main_v77)
    = Cert.Spec.nce (Cert.Spec.lo (vw1 m c)) (Cert.Spec.lo (vw2 m c)) (m ((c : Thread nD τ).loc main_arg8)) :=
  (W4_of_ne m ρ c main_v77 (by decide)).trans (W3_v77 m ρ c)
theorem W4_v112 (c : Dev nD) : W4 m ρ c (Proc.devRef .tc main_v112) = Cert.Spec.pos (zi1 m c) (zi2 m c) :=
  (W4_of_ne m ρ c main_v112 (by decide)).trans (W3_v112 m ρ c)

/-! ## The result -/

/-- The buffer @main returns holds the loss of the launch contents. -/
theorem W5_value (c : Dev nD) : W5 (F := Ideal) m ρ c (Proc.devRef .tc main_v120)
    = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (h2_v120 (W4 m ρ c)).trans ?_
  rw [W4_v113 m ρ c, W4_v77 m ρ c, W4_v112 m ρ c]
  rfl

/-- THE RUN, its result named: every weakly fair execution of the kernel's program ends with the loss of the
    launch contents in the returned buffer and the ten arguments as launched. -/
theorem value_run : θ_run defs (onTc (τ := τ) (main (F := Ideal))) ⟨m, fun _ => 0, ρ⟩ (fun r => ∀ c : Dev nD,
      r.2.mem ((c.tc : Thread nD τ).loc main_v120)
        = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v120 (by decide))).trans (W5_value m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c)⟩)
    (run_all m ρ)

end Cert.KernelIdeal.Hand

end
-- ==== Proof.RefImports.lean ====
import proofs.«429504_j11716670784252_3_alg».proof.Proof.Gen.ReferenceIdeal.Run
import proofs.«429504_j11716670784252_3_alg».proof.Proof.Gen.ReferenceIdeal.Read
-- ==== Proof.RefValue.lean ====
import proofs.«429504_j11716670784252_3_alg».proof.Proof.RefImports
import proofs.«429504_j11716670784252_3_alg».proof.Proof.Spec
import proofs.«429504_j11716670784252_3_alg».proof.Defs
import proofs.«429504_j11716670784252_3_alg».proof.Proof.Gen.Pre_finite_inputs

noncomputable section

/-! The reference program's result is the loss `Cert.Spec.G` of its ten argument arrays: its operations,
    composed, are the specification's stages one after another. -/
namespace Cert.ReferenceIdeal.RefValue

open Cert.ReferenceIdeal Idealize.ShloMosaic Idealize.ShloMosaic.TcCoe Idealize.SL.Sem Idealize.ShloMosaic.StableHlo

set_option maxRecDepth 65536 in
set_option maxHeartbeats 4000000 in
/-- The composed term of the reference's operations is the specification's stages unfolded. -/
theorem ref_eq (m' : (ℓ : Loc nD τ sig) → Buf (Elt Ideal) ℓ) (c : Dev nD) :
    Cert.ReferenceIdeal.Value.res_out0 (F := Ideal) m' c =
      Cert.Spec.G
        (m' ((c.tc : Thread nD τ).loc main_arg0))
        (m' ((c.tc : Thread nD τ).loc main_arg1))
        (m' ((c.tc : Thread nD τ).loc main_arg2))
        (m' ((c.tc : Thread nD τ).loc main_arg3))
        (m' ((c.tc : Thread nD τ).loc main_arg4))
        (m' ((c.tc : Thread nD τ).loc main_arg5))
        (m' ((c.tc : Thread nD τ).loc main_arg6))
        (m' ((c.tc : Thread nD τ).loc main_arg7))
        (m' ((c.tc : Thread nD τ).loc main_arg8))
        (m' ((c.tc : Thread nD τ).loc main_arg9)) := by
  show Cert.ReferenceIdeal.Value.res_main_v126 (F := Ideal) m' c = _
  unfold Cert.ReferenceIdeal.Value.res_main_v126
  unfold Cert.Spec.G Cert.Spec.total Cert.Spec.nce Cert.Spec.negloss Cert.Spec.ttl Cert.Spec.pos Cert.Spec.l2nAll Cert.Spec.l2n
    Cert.Spec.pick Cert.Spec.wrapB Cert.Spec.hi Cert.Spec.lo Cert.Spec.view Cert.Spec.layer Cert.Spec.spmm Cert.Spec.wrapM Cert.Spec.ego
  with_reducible rfl

/-- The reference runs to the end on every device and leaves its arguments as it found them. -/
theorem frame_ri : Cert.frame_ReferenceIdeal :=
  fun m ρ _ => (θ_run Cert.ReferenceIdeal.defs _ _).mono (fun _ h c => (h c).2) (Cert.ReferenceIdeal.Value.run (F := Ideal) m ρ)

/-- The reference's run, its result named as the loss of the arguments' launch contents. -/
theorem ref_run (m' : (ℓ : Loc nD τ sig) → Buf (Elt Ideal) ℓ) (ρ' : Dev nD → PrngReg) :
    θ_run Cert.ReferenceIdeal.defs (onTc (τ := τ) (main (F := Ideal))) ⟨m', fun _ => 0, ρ'⟩ (fun r => ∀ c : Dev nD,
      r.2.mem ((c.tc : Thread nD τ).loc main_v126) =
        Cert.Spec.G
        (m' ((c.tc : Thread nD τ).loc main_arg0))
        (m' ((c.tc : Thread nD τ).loc main_arg1))
        (m' ((c.tc : Thread nD τ).loc main_arg2))
        (m' ((c.tc : Thread nD τ).loc main_arg3))
        (m' ((c.tc : Thread nD τ).loc main_arg4))
        (m' ((c.tc : Thread nD τ).loc main_arg5))
        (m' ((c.tc : Thread nD τ).loc main_arg6))
        (m' ((c.tc : Thread nD τ).loc main_arg7))
        (m' ((c.tc : Thread nD τ).loc main_arg8))
        (m' ((c.tc : Thread nD τ).loc main_arg9))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)) :=
  (θ_run Cert.ReferenceIdeal.defs _ _).mono (fun _ h c => ⟨(h c).1.trans (ref_eq m' c), (h c).2⟩)
    (Cert.ReferenceIdeal.Value.run (F := Ideal) m' ρ')

end Cert.ReferenceIdeal.RefValue

end
-- ==== Proof.lean ====
/- The certificate of the contrastive-loss kernel against its reference, over the extended reals.
   Both programs stack the user and item tables, propagate once over each view's sparse adjacency, take the
   batch rows, normalise them, and compare exp(inner product / ½) of the two views' rows with the sum of
   exp(inner product / ½) against EVERY normalised row of the second view. The reference takes that sum in
   one product with the whole table; the kernel streams the table in fifty tiles of a thousand rows through a
   two-region program, keeping a running column in scratch memory: the sum over fifty thousand rows is the sum
   over the tiles of the sums within a tile, and dividing by ½ is multiplying by 2 on every extended real.
   The frames of the two kernel programs are proved from the run of their five segments (host operations, a
   region, host operations, a region, host operations), each region's invariant carrying the running column
   from one grid point to the next; the reference's frame is its run; nothing was rewritten by the ideal pass. -/
import proofs.«429504_j11716670784252_3_alg».proof.Defs
import proofs.«429504_j11716670784252_3_alg».proof.Proof.Gen.Kernel
import proofs.«429504_j11716670784252_3_alg».proof.Proof.Gen.KernelIdeal
import proofs.«429504_j11716670784252_3_alg».proof.Proof.Gen.ReferenceIdeal
import proofs.«429504_j11716670784252_3_alg».proof.Proof.Gen.Pre_finite_inputs
import proofs.«429504_j11716670784252_3_alg».proof.Proof.K.Run
import proofs.«429504_j11716670784252_3_alg».proof.Proof.KI.Value
import proofs.«429504_j11716670784252_3_alg».proof.Proof.RefValue
import Idealize.ShloMosaic.Adequacy
import Idealize.ShloMosaic.Init

noncomputable section

namespace Cert.Proof

open Idealize.ShloMosaic Idealize.SL.Sem

/-- The word-level kernel program runs to the end and leaves its arguments as launched. -/
theorem frame_k : Cert.frame_Kernel := fun m ρ _ => Cert.Kernel.Hand.frame (F := Bits) m ρ

/-- So does its reading over the extended reals. -/
theorem frame_ki : Cert.frame_KernelIdeal := fun m ρ _ => Cert.KernelIdeal.Hand.frame (F := Ideal) m ρ

/-- Both idealized programs end with the loss `Cert.Spec.G` of the arguments' launch contents, which agree. -/
theorem algebraic : Cert.algebraic_KernelIdeal_ReferenceIdeal := by
  intro m ρ m' ρ' _ hagree
  refine ⟨fun c => Cert.Spec.G
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9)),
    Cert.KernelIdeal.Hand.value_run m ρ, ?_⟩
  refine (θ_run Cert.ReferenceIdeal.defs _ _).mono (fun _ h c => ⟨(h c).1.trans ?_, (h c).2⟩)
    (Cert.ReferenceIdeal.RefValue.ref_run m' ρ')
  obtain ⟨h0, h1, h2, h3, h4, h5, h6, h7, h8, h9⟩ := hagree c
  rw [h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, trivial, algebraic⟩

end Cert.Proof

end
